-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg7 : IVec S50000 32) (main_v32 : IVec S_ 1) (main_c_12 : IVec S_ 32) : IVec S_ 1 :=
  let main_v33 : IVec S50000 32 := broadcastInDim S50000 ![] bcast_S_S50000 main_c_12
  let main_v34 : IVec S50000 1 := cmpi .slt main_arg7 main_v33
  let main_c_13 : IVec S_ 1 := constantI S_ 1 1#1
  let main_v35 : IVec S_ 1 := (fun x v => Host.reduce IntOp.andi x v reducesTo_S50000_S_d0 h_S_) main_v34 main_c_13
  let main_v36 : IVec S_ 1 := andi main_v32 main_v35
  main_v36

def fn_part1 {F : FTy → Type} [FloatOps F] (main_arg4 : FVec F S64 .f32) (main_arg5 : FVec F S64 .f32) (main_arg7 : IVec S50000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S50000 32 := broadcastInDim S50000 ![] bcast_S_S50000 main_c_10
  let main_v30 : IVec S50000 1 := cmpi .sge main_arg7 main_v29
  let main_c_11 : IVec S_ 1 := constantI S_ 1 1#1
  let main_v31 : IVec S_ 1 := (fun x v => Host.reduce IntOp.andi x v reducesTo_S50000_S_d0 h_S_) main_v30 main_c_11
  let main_v32 : IVec S_ 1 := andi main_v28 main_v31
  let main_c_12 : IVec S_ 32 := constantI S_ 32 64#32
  fn_part2 (F := F) main_arg7 main_v32 main_c_12

def fn {F : FTy → Type} [FloatOps F] (main_arg0 : FVec F S50000x64 .f32) (main_arg1 : FVec F S64x64 .f32) (main_arg2 : FVec F S64 .f32) (main_arg3 : FVec F S64 .f32) (main_arg4 : FVec F S64 .f32) (main_arg5 : FVec F S64 .f32) (main_arg6 : IVec S2x800000 32) (main_arg7 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg7 main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S10000x64 : Shape := ⟨2, ![10000, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩

abbrev nBuf : Space → Nat
  | .hbm => 89
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2x800000, .i32⟩
  | .hbm, ⟨7, _⟩ => ⟨S50000, .i32⟩
  | .hbm, ⟨8, _⟩ => ⟨S50000x64, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x1, .i32⟩
  | .hbm, ⟨69, _⟩ => ⟨S64, .i32⟩
  | .hbm, ⟨70, _⟩ => ⟨S1x64, .i32⟩
  | .hbm, ⟨71, _⟩ => ⟨S50000x64, .i32⟩
  | .hbm, ⟨72, _⟩ => ⟨S50000x64, .i32⟩
  | .hbm, ⟨73, _⟩ => ⟨S50000x64, .i1⟩
  | .hbm, ⟨74, _⟩ => ⟨S50000x64, .f32⟩
  | .hbm, ⟨75, _⟩ => ⟨S_, .f32⟩
  | .hbm, ⟨76, _⟩ => ⟨S64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S64x64, .f32⟩
  | .hbm, ⟨81, _⟩ => ⟨S64x1, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S64x1, .f32⟩
  | .hbm, ⟨86, _⟩ => ⟨S64x64, .f32⟩
  | .hbm, ⟨87, _⟩ => ⟨S64x64, .f32⟩
  | .hbm, ⟨88, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  h_S_ : 0 < S_.numel
  shapeCasts_S64_S1x64 : S64.ShapeCasts S1x64
  shapeCasts_S64x64_S64x64 : S64x64.ShapeCasts S64x64
  shapeCasts_S10000x64_S10000x64 : S10000x64.ShapeCasts S10000x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S10000x64_S64x64_0_0_1_1_n_n_wf : DotDims.WF S10000x64 S10000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S50000x64.size a
  hwx3_7 : ∀ i : grid3.Coords, EltTy.bits .f32 = 32 ∨ (Rect.block (s := S50000x64) S10000x64.size (cc3_transform_7 i) (hinb3_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S64x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S64x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v66) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2x800000, .i32⟩
  | .hbm, ⟨7, _⟩ => ⟨S50000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S50000x64, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000, .f32⟩
  | .hbm, ⟨70, _⟩ => ⟨S_, .f32⟩
  | .hbm, ⟨71, _⟩ => ⟨S64, .f32⟩
  | .hbm, ⟨72, _⟩ => ⟨S50000x1, .i32⟩
  | .hbm, ⟨73, _⟩ => ⟨S64, .f32⟩
  | .hbm, ⟨74, _⟩ => ⟨S64x1, .f32⟩
  | .hbm, ⟨75, _⟩ => ⟨S_, .f32⟩
  | .hbm, ⟨76, _⟩ => ⟨S64x64, .f32⟩
  | .hbm, ⟨77, _⟩ => ⟨S50000x1, .i32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S64x64, .f32⟩
  | .hbm, ⟨97, _⟩ => ⟨S50000x1, .i32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S_, .i32⟩
  | .hbm, ⟨102, _⟩ => ⟨S50000, .i32⟩
  | .hbm, ⟨103, _⟩ => ⟨S50000, .i1⟩
  | .hbm, ⟨104, _⟩ => ⟨S_, .i32⟩
  | .hbm, ⟨105, _⟩ => ⟨S50000, .i32⟩
  | .hbm, ⟨106, _⟩ => ⟨S50000, .i32⟩
  | .hbm, ⟨107, _⟩ => ⟨S50000, .i32⟩
  | .hbm, ⟨108, _⟩ => ⟨S50000x1, .i32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .f32⟩
  | .hbm, ⟨113, _⟩ => ⟨S50000x64, .f32⟩
  | .hbm, ⟨114, _⟩ => ⟨S50000x64, .f32⟩
  | .hbm, ⟨115, _⟩ => ⟨S1x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | .hbm, ⟨121, _⟩ => ⟨S_, .f32⟩
  | .hbm, ⟨122, _⟩ => ⟨S50000x64, .f32⟩
  | .hbm, ⟨123, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call1_cst : Ref sig .tc := ⟨.hbm, 121, rfl⟩
abbrev main_call1_v0 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S_S64x64 : S_.BroadcastsInDim S64x64 (![] : Fin 0 → Fin S64x64.rank)
  bcast_S64x1_S64x64_0_1 : S64x1.BroadcastsInDim S64x64 (![0, 1] : Fin 2 → Fin S64x64.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  gather_S64x64_S50000x1_S50000x64_1_0_n_n_0_1_164_wf : GatherDims.WF S64x64 S50000x1 S50000x64 [1] [0] [] [0] [] 1 ![1, 64]

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf

class Facts : Prop extends Facts₀ where

variable [Facts]
-- ==== Proof.KB.Reg0.lean ====
import proofs.«420247_j44633300140134_1_alg».proof.Proof.Gen.Kernel.Launch
import proofs.«420247_j44633300140134_1_alg».proof.Proof.Gen.Kernel.Skeleton
import proofs.«420247_j44633300140134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the dense product, one block of 10000 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds the point's row block at every point: the window is an input, never
    idle, never cut, and the body leaves the block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The weight window's buffer holds the whole weight matrix at every point, although it is fetched at the
    first point only: where it is not fetched its block index has not moved, so the block it kept from the
    point before is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

abbrev r0_big : Rect S10000x64 := Rect.unit (s := S10000x64) ![0, 0] S10000x64.size inb_S10000x64_S10000x64_0_0
abbrev r0_sq : Rect S64x64 := Rect.unit (s := S64x64) ![0, 0] S64x64.size inb_S64x64_S64x64_0_0

/-- The output block after the body: the product of the row block with the weight block. -/
def out0 (x0 : Vec F S10000x64 .f32) (x1 : Vec F S64x64 .f32) : Vec F S10000x64 .f32 :=
  View.canon [⟨r0_big, k0_pay1 (View.ld x0 r0_big) (View.ld x1 r0_sq)⟩]

/-- The one store is through the full rectangle of the 10000×64 buffer, so it covers every index of it. -/
theorem cover0_2 (p0 : Vec F S10000x64 .f32) (y : S10000x64.Idx) :
    ∃ pc ∈ ([⟨r0_big, p0⟩] : List (View.Piece (Elt F) S10000x64 .f32)), y ∈ pc.1.set :=
  View.cover_of_tiled [⟨r0_big, p0⟩] S10000x64.size (by rfl) y

set_option maxHeartbeats 1000000 in
/-- The body on whole buffers: with the two inputs' buffers reading `x0`, `x1` and the output's buffer at
    anything, it runs to a state where the inputs' read what they did and the output's reads `out0 x0 x1`.
    The body reads the output's buffer once before it overwrites it; the value read is never used, and the
    full-rectangle store that follows leaves nothing of the old contents. -/
theorem sound_kernel0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`: the invariant, what the core owes, and each window's current buffer
    at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies at those blocks;
    the invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Reg1.lean ====
import proofs.«420247_j44633300140134_1_alg».proof.Proof.Gen.Kernel.Launch
import proofs.«420247_j44633300140134_1_alg».proof.Proof.Gen.Kernel.Skeleton
import proofs.«420247_j44633300140134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the per-graph sums of the activations, accumulated over the grid in a scratch buffer carried between points

At the first point the accumulator is reset to zero; at every point the block's contribution is added to it and
the accumulator is copied whole into the output block, which is written back after the last point only. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S10000x64 := Rect.unit (s := S10000x64) ![0, 0] S10000x64.size inb_S10000x64_S10000x64_0_0
abbrev r1_sq : Rect S64x64 := Rect.unit (s := S64x64) ![0, 0] S64x64.size inb_S64x64_S64x64_0_0
abbrev r1_row : Rect S1x64 := Rect.unit (s := S1x64) ![0, 0] S1x64.size inb_S1x64_S1x64_0_0

/-- The scratch accumulator as a memref. -/
abbrev scM1 : Memref sig .tc .vmem S64x64 .f32 := Memref.whole cc1_scratch0

/-- The accumulator after the reset: the zero block. -/
def zero1 : Vec F S64x64 .f32 := k1_pay1 (F := F)

/-- One point's update of the accumulator `a` from the point's input blocks: `a` plus the product of the first block,
    transposed, with the second. -/
def step1 (x0 x1 : Vec F S10000x64 .f32) (a : Vec F S64x64 .f32) : Vec F S64x64 .f32 := k1_pay2 x0 x1 a

/-- What the accumulator, and with it the output block, holds after the body at point `n`. -/
def acc1 (c : Dev nD) : (n : ℕ) → n < cfg1.N → Vec F S64x64 .f32
  | 0, hn => step1 (iblk1 V c 0 ⟨0, hn⟩) (iblk1 V c 1 ⟨0, hn⟩) (zero1 (F := F))
  | n + 1, hn => step1 (iblk1 V c 0 ⟨n + 1, hn⟩) (iblk1 V c 1 ⟨n + 1, hn⟩) (acc1 c n (Nat.lt_of_succ_lt hn))

/-- At the first point the update starts from the zero block. -/
theorem acc1_first (c : Dev nD) (t : Fin cfg1.N) (hz : t.val = 0) :
    acc1 V c t.val t.isLt = step1 (iblk1 V c 0 t) (iblk1 V c 1 t) (zero1 (F := F)) := by
  obtain ⟨n, hn⟩ := t
  cases n with
  | zero => rfl
  | succ n => exact absurd hz (Nat.succ_ne_zero n)

/-- At any later point it starts from what the point before left. -/
theorem acc1_later (c : Dev nD) (t : Fin cfg1.N) (hz : t.val ≠ 0) :
    acc1 V c t.val t.isLt
      = step1 (iblk1 V c 0 t) (iblk1 V c 1 t) (acc1 V c (t.val - 1) (Nat.lt_of_le_of_lt (Nat.sub_le _ _) t.isLt)) := by
  obtain ⟨n, hn⟩ := t
  cases n with
  | zero => exact absurd rfl hz
  | succ n => rfl

/-- The region invariant before position `n`: before the first point the class's (every scratch at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The class invariant with the accumulator taken out of the scoped rest as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The proof data: arrays as the region finds them; inputs at their blocks; the output block at the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_out (c : Dev nD) (t : Fin cfg1.N) : (dat1 V c).after 2 t = acc1 V c t.val t.isLt := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- An input window's current buffer holds its block at every point, fetched there or not: unfetched, the block
    index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The reset condition -/

/-- The condition of the body's one branch, as the body computes it from the grid coordinate. -/
abbrev cond1 (i : grid1.Coords) : Prop :=
  (Scalar.cmpi .ne (Scalar.extui (Scalar.cmpi .eq (BitVec.ofNat 32 (i 0).val) 0#32)) 0#32) = 1#1

/-- It holds at the first point and at no other. -/
theorem hcond1 : ∀ t : Fin cfg1.N, cond1 (grid1.coords t) ↔ t.val = 0 :=
  (by decide +kernel : ∀ t : Fin grid1.N, cond1 (grid1.coords t) ↔ t.val = 0)

/-! ## Whole-buffer accesses

Every load and store of the body goes through the rectangle that is the whole buffer at zero offsets: a load
through it reads the contents, a store through it, made last, leaves its payload, and a load of what such a store
left reads that payload back. -/

theorem hz1 : (![0, 0] : Fin 2 → Nat) = fun _ => 0 := funext fun a => by fin_cases a <;> rfl

/-- One store through the whole-buffer rectangle covers the buffer. -/
theorem cover1_one (p : Vec F S64x64 .f32) (y : S64x64.Idx) :
    ∃ pc ∈ ([⟨r1_sq, p⟩] : List (View.Piece (Elt F) S64x64 .f32)), y ∈ pc.1.set :=
  ⟨_, List.mem_singleton_self _, View.mem_set_unit_zero hz1 inb_S64x64_S64x64_0_0 y⟩

/-- So does a list whose last store goes through it. -/
theorem cover1_cons (p : Vec F S64x64 .f32) (L : List (View.Piece (Elt F) S64x64 .f32)) (y : S64x64.Idx) :
    ∃ pc ∈ ((⟨r1_sq, p⟩ : View.Piece (Elt F) S64x64 .f32) :: L), y ∈ pc.1.set :=
  ⟨_, List.mem_cons_self .., View.mem_set_unit_zero hz1 inb_S64x64_S64x64_0_0 y⟩

/-- A load through the whole-buffer rectangle of what a list of stores left whose last went through it reads that
    last store's payload. -/
theorem readCov1_cons {sg : RefSig} {κ : Kind} {sp : Space} (v : View sg κ sp S64x64 .f32) (p : Vec F S64x64 .f32)
    (L : List (View.Piece (Elt F) S64x64 .f32)) :
    v.readCov ((⟨r1_sq, p⟩ : View.Piece (Elt F) S64x64 .f32) :: L) r1_sq.toLoadRect = p := by
  rw [View.readCov_eq_canon_ld _ _ _ (cover1_cons p L), View.canon_cons_unit_zero hz1, View.ld_unit_zero hz1]

/-! ## The body's triple, case by case -/

set_option maxHeartbeats 1000000 in
/-- At the first point: the accumulator, found at anything, is reset and then updated; the output block, found at
    anything, receives a copy of it. -/
theorem sound_kernel1_first (c : Dev nD) (E : Set ℕ) (i : grid1.Coords) (hc : cond1 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (x0 x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (step1 x0 x1 (zero1 (F := F)))
            ∗ owns (c : Thread nD τ) arg4 fullShare (step1 x0 x1 (zero1 (F := F)))) -∗ K ⟨⟩))
      ⊢ wp frame (wpE (defs₀ (F := F)) Variants.none c none) E (cc1__reduce_sum_kernel i arg1 harg1 arg2 harg2 arg3 harg3 arg4 harg4) K := by
  simp only [cc1__reduce_sum_kernel_eq_skeleton]; unfold cc1__reduce_sum_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_one _), View.canon_unit_zero hz1, readCov1_cons, readCov1_cons]
    simp only [View.readAt_eq_ld, View.ld_unit_zero (S := S10000x64) hz1]
    rfl
  iexists _; isplitr
  swap; · iexact H4
  ipureintro
  sl_unfold_words
  rw [View.read_writes_eq_canon _ _ _ (cover1_cons _ _), View.canon_cons_unit_zero hz1, readCov1_cons]
  simp only [View.readAt_eq_ld, View.ld_unit_zero (S := S10000x64) hz1]
  rfl

set_option maxHeartbeats 1000000 in
/-- At any later point: the accumulator, found at `a`, is updated; the output block receives a copy of it. -/
theorem sound_kernel1_later (c : Dev nD) (E : Set ℕ) (i : grid1.Coords) (hc : ¬cond1 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (x0 x1 : Vec F S10000x64 .f32) (a : Vec F S64x64 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (step1 x0 x1 a)
            ∗ owns (c : Thread nD τ) arg4 fullShare (step1 x0 x1 a)) -∗ K ⟨⟩))
      ⊢ wp frame (wpE (defs₀ (F := F)) Variants.none c none) E (cc1__reduce_sum_kernel i arg1 harg1 arg2 harg2 arg3 harg3 arg4 harg4) K := by
  simp only [cc1__reduce_sum_kernel_eq_skeleton]; unfold cc1__reduce_sum_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_one _), View.canon_unit_zero hz1, readCov1_cons]
    simp only [View.readAt_eq_ld, View.ld_unit_zero (S := S10000x64) hz1, View.ld_unit_zero (S := S64x64) hz1]
    rfl
  iexists _; isplitr
  swap; · iexact H4
  ipureintro
  sl_unfold_words
  rw [View.read_writes_eq_canon _ _ _ (cover1_one _), View.canon_unit_zero hz1]
  simp only [View.readAt_eq_ld, View.ld_unit_zero (S := S10000x64) hz1, View.ld_unit_zero (S := S64x64) hz1]
  rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1600000 in
/-- The body at any point. The inputs' buffers hold their blocks. At the first point the invariant is the class's:
    it hands the body the accumulator at anything and the reset case applies. At a later point it hands the
    accumulator at what the point before left, and the update case applies. Either way the accumulator comes back
    at this point's contents, the rest of the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    after1_0, after1_1, after1_out, PhiS1_castSucc]
  by_cases hz : t.val = 0
  · rw [PhiS1_zero V c _ _ hz, PhiA1_eq, acc1_first V c t hz]
    iintro ⟨⟨⟨HS, HR⟩, Hg⟩, Ho, ⟨%d0, H0⟩, ⟨%d1, H1⟩, ⟨%d2, H2⟩⟩
    iapply (sound_kernel1_first c Set.univ (grid1.coords t) ((hcond1 t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [PhiS1_pos V c _ _ hz, acc1_later V c t hz]
    iintro ⟨⟨HS, HR, Hg⟩, Ho, ⟨%d0, H0⟩, ⟨%d1, H1⟩, ⟨%d2, H2⟩⟩
    iapply (sound_kernel1_later c Set.univ (grid1.coords t) (fun h => hz ((hcond1 t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the accumulator's named contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the class invariant back (the accumulator's contents forgotten). -/
theorem hout1 (c : Dev nD) : (dat1 V c).Φ (Fin.last cfg1.N) ⊢ (Pipeline.ΦA spec1 c : sProp 𝕄) :=
  Phi1_out V c _ (by rw [Fin.val_last]; have : cfg1.N = 5 := N_1; omega)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Reg2.lean ====
import proofs.«420247_j44633300140134_1_alg».proof.Proof.Gen.Kernel.Launch
import proofs.«420247_j44633300140134_1_alg».proof.Proof.Gen.Kernel.Skeleton
import proofs.«420247_j44633300140134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the per-graph sums of the squared centred activations, accumulated over the grid in a scratch buffer carried between points

At the first point the accumulator is reset to zero; at every point the block's contribution is added to it and
the accumulator is copied whole into the output block, which is written back after the last point only. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S10000x64 := Rect.unit (s := S10000x64) ![0, 0] S10000x64.size inb_S10000x64_S10000x64_0_0
abbrev r2_sq : Rect S64x64 := Rect.unit (s := S64x64) ![0, 0] S64x64.size inb_S64x64_S64x64_0_0
abbrev r2_row : Rect S1x64 := Rect.unit (s := S1x64) ![0, 0] S1x64.size inb_S1x64_S1x64_0_0

/-- The scratch accumulator as a memref. -/
abbrev scM2 : Memref sig .tc .vmem S64x64 .f32 := Memref.whole cc2_scratch0

/-- The accumulator after the reset: the zero splat. -/
def zero2 : Vec F S64x64 .f32 := k2_pay1 (F := F)

/-- One point's update of the accumulator `a` from the point's input blocks (indicator `x0`, activations `x1`,
    means `x2`, mean scale `x3`): `a` plus the block's sums of squared centred activations. -/
def step2 (x0 x1 : Vec F S10000x64 .f32) (x2 : Vec F S64x64 .f32) (x3 : Vec F S1x64 .f32) (a : Vec F S64x64 .f32) : Vec F S64x64 .f32 :=
  k2_pay2 x0 x2 x3 x1 a

/-- What the accumulator, and with it the output block, holds after the body at point `n`. -/
def acc2 (c : Dev nD) : (n : ℕ) → n < cfg2.N → Vec F S64x64 .f32
  | 0, hn => step2 (iblk2 V c 0 ⟨0, hn⟩) (iblk2 V c 1 ⟨0, hn⟩) (iblk2 V c 2 ⟨0, hn⟩) (iblk2 V c 3 ⟨0, hn⟩) (zero2 (F := F))
  | n + 1, hn => step2 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn))

/-- The region invariant before position `n`: before the first point the class's (every scratch at anything);
    afterwards the accumulator at what the point before left, the other scoped buffers at anything, the generator
    register at some state. -/
def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

/-- The proof data: arrays as the region finds them; inputs at their blocks; the output block at the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_out (c : Dev nD) (t : Fin cfg2.N) : (dat2 V c).after 4 t = acc2 V c t.val t.isLt := by
  dsimp only [dat2]

/-! ## The accumulator, point by point -/

theorem acc2_zero (c : Dev nD) (t : Fin cfg2.N) (h0 : t.val = 0) :
    acc2 V c t.val t.isLt = step2 (iblk2 V c 0 t) (iblk2 V c 1 t) (iblk2 V c 2 t) (iblk2 V c 3 t) (zero2 (F := F)) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt = step2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h0
  | succ n => rfl

/-! ## The inputs' buffers hold their blocks

An input window's current buffer holds its block of the array at every point, whether the pipeline fetched it there or
not: unfetched, the block index has not moved and the body left the block in place. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The reset's condition

The body resets the accumulator exactly where the grid coordinate is zero: at the first point. -/

abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-! ## Whole-buffer stores and loads

Every access of the body is through the rectangle that is the whole buffer, so a store leaves its payload whatever
was stored before, and a load after it reads that payload. -/

theorem hz_r2 : (![0, 0] : Fin 2 → Nat) = fun _ => 0 := funext fun a => by fin_cases a <;> rfl

theorem read_writes_last2 (v : View sig .tc .vmem S64x64 .f32) (f : v.ty.Contents (Elt F)) (w : S64x64.Idx → Elt F .f32)
    (L : List (View.Piece (Elt F) S64x64 .f32)) :
    v.read (Elt F) (v.writes (Elt F) f (⟨Rect.unit (s := S64x64) ![0, 0] S64x64.size inb_S64x64_S64x64_0_0, w⟩ :: L)) = w := by
  rw [View.read_writes_eq_canon _ _ _ (fun y => ⟨_, List.mem_cons_self .., View.mem_set_unit_zero hz_r2 inb_S64x64_S64x64_0_0 y⟩),
    View.canon_cons_unit_zero hz_r2]

theorem readCov_last2 (v : View sig .tc .vmem S64x64 .f32) (w : S64x64.Idx → Elt F .f32)
    (L : List (View.Piece (Elt F) S64x64 .f32)) :
    v.readCov (⟨Rect.unit (s := S64x64) ![0, 0] S64x64.size inb_S64x64_S64x64_0_0, w⟩ :: L)
      (Rect.unit (s := S64x64) ![0, 0] S64x64.size inb_S64x64_S64x64_0_0).toLoadRect = w := by
  rw [View.readCov_eq_canon_ld _ _ _ (fun y => ⟨_, List.mem_cons_self .., View.mem_set_unit_zero hz_r2 inb_S64x64_S64x64_0_0 y⟩),
    View.canon_cons_unit_zero hz_r2, View.ld_unit_zero hz_r2]

/-! ## The body's triple, in its two control cases -/

set_option maxHeartbeats 1000000 in
/-- At the first point: the accumulator, found at anything, is reset and then updated from the input blocks; the output's
    buffer, found at anything, receives a copy of it. -/
theorem sound_kernel2_first (c : Dev nD) (E : Set ℕ) (i : grid2.Coords) (hc : cond2 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (x0 x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (step2 x0 x1 x2 x3 (zero2 (F := F)))
            ∗ owns (c : Thread nD τ) arg6 fullShare (step2 x0 x1 x2 x3 (zero2 (F := F)))) -∗ K ⟨⟩))
      ⊢ wp frame (wpE (defs₀ (F := F)) Variants.none c none) E
          (cc2__reduce_var_kernel i arg1 harg1 arg2 harg2 arg3 harg3 arg4 harg4 arg5 harg5 arg6 harg6) K := by
  simp only [cc2__reduce_var_kernel_eq_skeleton]; unfold cc2__reduce_var_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_last2, readCov_last2, readCov_last2]
    simp only [View.readAt_eq_ld, View.ld_unit_zero (S := S10000x64) hz_r2, View.ld_unit_zero (S := S64x64) hz_r2,
      View.ld_unit_zero (S := S1x64) hz_r2, step2, zero2]
  iexists _; isplitr
  swap; · iexact H6
  ipureintro
  sl_unfold_words
  rw [read_writes_last2, readCov_last2]
  simp only [View.readAt_eq_ld, View.ld_unit_zero (S := S10000x64) hz_r2, View.ld_unit_zero (S := S64x64) hz_r2,
    View.ld_unit_zero (S := S1x64) hz_r2, step2, zero2]

set_option maxHeartbeats 1000000 in
/-- At a later point: the accumulator, found at `a`, is updated from the input blocks; the output's buffer, found at
    anything, receives a copy of it. -/
theorem sound_kernel2_later (c : Dev nD) (E : Set ℕ) (i : grid2.Coords) (hc : ¬cond2 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (x0 x1 : Vec F S10000x64 .f32) (x2 : Vec F S64x64 .f32) (x3 : Vec F S1x64 .f32) (a : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (step2 x0 x1 x2 x3 a)
            ∗ owns (c : Thread nD τ) arg6 fullShare (step2 x0 x1 x2 x3 a)) -∗ K ⟨⟩))
      ⊢ wp frame (wpE (defs₀ (F := F)) Variants.none c none) E
          (cc2__reduce_var_kernel i arg1 harg1 arg2 harg2 arg3 harg3 arg4 harg4 arg5 harg5 arg6 harg6) K := by
  simp only [cc2__reduce_var_kernel_eq_skeleton]; unfold cc2__reduce_var_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_last2, readCov_last2]
    simp only [View.readAt_eq_ld, View.ld_unit_zero (S := S10000x64) hz_r2, View.ld_unit_zero (S := S64x64) hz_r2,
      View.ld_unit_zero (S := S1x64) hz_r2, step2]
  iexists _; isplitr
  swap; · iexact H6
  ipureintro
  sl_unfold_words
  rw [read_writes_last2]
  simp only [View.readAt_eq_ld, View.ld_unit_zero (S := S10000x64) hz_r2, View.ld_unit_zero (S := S64x64) hz_r2,
    View.ld_unit_zero (S := S1x64) hz_r2, step2]

/-! ## The invariant, opened -/

/-- The scoped buffers that are no staging buffer of this call, split at the call's own accumulator. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 2000000 in
/-- The body at any point. The inputs' buffers hold their blocks. At the first point the invariant is the class's, which
    hands the accumulator over at anything, and the reset case applies; at a later point the invariant hands it over at
    what the point before left, and the other case applies. Either way the accumulator and the output's buffer come back
    at this point's value, the other scoped buffers, the generator register and what the core owes untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_out]
  by_cases h0 : t.val = 0
  · rw [PhiS2_castSucc V c t, PhiS2_zero V c _ _ h0, PhiA2_eq, acc2_zero V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel2_first c Set.univ (grid2.coords t) ((hcond2 t).mpr h0) _ _ _ _ _ _ _ _ _ _ _ _
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · rw [PhiS2_castSucc V c t, PhiS2_pos V c _ _ h0, acc2_pos V c t h0]
    iintro ⟨⟨HS, HR, Hg⟩, Ho, ⟨%d0, H0⟩, ⟨%d1, H1⟩, ⟨%d2, H2⟩, ⟨%d3, H3⟩, ⟨%d4, H4⟩⟩
    iapply (sound_kernel2_later c Set.univ (grid2.coords t) (fun h => h0 ((hcond2 t).mp h)) _ _ _ _ _ _ _ _ _ _ _ _
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _
/-- After the last point the invariant gives the class invariant back (the accumulator's contents forgotten). -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5 := N_2; omega), PhiA2_eq]
  iintro ⟨HS, HR, Hg⟩
  isplitl [HS HR]
  · isplitl [HS]; · iexists _; iexact HS
    iexact HR
  iexact Hg

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Reg3.lean ====
import proofs.«420247_j44633300140134_1_alg».proof.Proof.Gen.Kernel.Launch
import proofs.«420247_j44633300140134_1_alg».proof.Proof.Gen.Kernel.Skeleton
import proofs.«420247_j44633300140134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: normalise, rescale, shift and rectify, one block of 10000 rows per grid point -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_big : Rect S10000x64 := Rect.unit (s := S10000x64) ![0, 0] S10000x64.size inb_S10000x64_S10000x64_0_0
abbrev r3_sq : Rect S64x64 := Rect.unit (s := S64x64) ![0, 0] S64x64.size inb_S64x64_S64x64_0_0
abbrev r3_row : Rect S1x64 := Rect.unit (s := S1x64) ![0, 0] S1x64.size inb_S1x64_S1x64_0_0

/-- The output block after the body, from the blocks of the indicator, the activations, the mean and variance
    tables and the three parameter rows. -/
def out3 (x0 x1 : Vec F S10000x64 .f32) (x2 x3 : Vec F S64x64 .f32) (x4 x5 x6 : Vec F S1x64 .f32) : Vec F S10000x64 .f32 :=
  View.canon [⟨r3_big, k3_pay1 (View.ld x0 r3_big) (View.ld x2 r3_sq) (View.ld x3 r3_sq) (View.ld x1 r3_big) (View.ld x6 r3_row) (View.ld x4 r3_row) (View.ld x5 r3_row)⟩]

/-! ## What the body finds in an input window's buffer

Every input window here is uncut and never idle, and the body leaves its buffer as it found it.  So at every point
the current buffer holds the block the window's index map names there, whether the transfer happened at this point
(windows 0 and 1, whose block moves with the point) or only at the first one (windows 2 to 6, whose block is the whole
array at every point): an unfetched buffer still holds the previous point's block, and the index has not moved. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblk : ∀ s, dat.blockOf 0 s = iblk3 V c 0 s := fun s => by unfold Dat.blockOf iblk3; rw [hA]
  rw [dat.before_in_eq_fetched 0 rfl (fun _ => rfl) (fun _ _ _ => rfl) (fun s => by rw [hafter, ← hblk]) t d]
  unfold Dat.fetched; rw [hblk]; try rfl

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblk : ∀ s, dat.blockOf 1 s = iblk3 V c 1 s := fun s => by unfold Dat.blockOf iblk3; rw [hA]
  rw [dat.before_in_eq_fetched 1 rfl (fun _ => rfl) (fun _ _ _ => rfl) (fun s => by rw [hafter, ← hblk]) t d]
  unfold Dat.fetched; rw [hblk]; try rfl

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblk : ∀ s, dat.blockOf 2 s = iblk3 V c 2 s := fun s => by unfold Dat.blockOf iblk3; rw [hA]
  rw [dat.before_in_eq_fetched 2 rfl (fun _ => rfl) (fun _ _ _ => rfl) (fun s => by rw [hafter, ← hblk]) t d]
  unfold Dat.fetched; rw [hblk]; try rfl

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblk : ∀ s, dat.blockOf 3 s = iblk3 V c 3 s := fun s => by unfold Dat.blockOf iblk3; rw [hA]
  rw [dat.before_in_eq_fetched 3 rfl (fun _ => rfl) (fun _ _ _ => rfl) (fun s => by rw [hafter, ← hblk]) t d]
  unfold Dat.fetched; rw [hblk]; try rfl

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t := by
  have hblk : ∀ s, dat.blockOf 4 s = iblk3 V c 4 s := fun s => by unfold Dat.blockOf iblk3; rw [hA]
  rw [dat.before_in_eq_fetched 4 rfl (fun _ => rfl) (fun _ _ _ => rfl) (fun s => by rw [hafter, ← hblk]) t d]
  unfold Dat.fetched; rw [hblk]; try rfl

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t := by
  have hblk : ∀ s, dat.blockOf 5 s = iblk3 V c 5 s := fun s => by unfold Dat.blockOf iblk3; rw [hA]
  rw [dat.before_in_eq_fetched 5 rfl (fun _ => rfl) (fun _ _ _ => rfl) (fun s => by rw [hafter, ← hblk]) t d]
  unfold Dat.fetched; rw [hblk]; try rfl

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t := by
  have hblk : ∀ s, dat.blockOf 6 s = iblk3 V c 6 s := fun s => by unfold Dat.blockOf iblk3; rw [hA]
  rw [dat.before_in_eq_fetched 6 rfl (fun _ => rfl) (fun _ _ _ => rfl) (fun s => by rw [hafter, ← hblk]) t d]
  unfold Dat.fetched; rw [hblk]; try rfl

/-! ## The body's one store fills the output buffer -/

/-- The single store is through the rectangle of the whole 10000×64 block, so every index of the buffer lies in it. -/
theorem cover3 (p : Vec F S10000x64 .f32) (y : S10000x64.Idx) :
    ∃ pc ∈ ([⟨r3_big, p⟩] : List (View.Piece (Elt F) S10000x64 .f32)), y ∈ pc.1.set :=
  View.cover_of_tiled [⟨r3_big, p⟩] S10000x64.size (by rfl) y

/-! ## The body's triple -/

set_option maxHeartbeats 1000000 in
/-- The kernel body on whole staging memrefs: the seven inputs' at read contents `x0 … x6`, the output's at anything
    (the body loads it once, and drops the value, before it stores).  It runs to the continuation with the inputs'
    buffers as they were and the output's at `out3` of the inputs. -/
theorem sound_kernel3 (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S10000x64 .f32) (harg8 : arg8.IsWhole)
    (x0 x1 : Vec F S10000x64 .f32) (x2 x3 : Vec F S64x64 .f32) (x4 x5 x6 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out3 x0 x1 x2 x3 x4 x5 x6)) -∗ K ⟨⟩))
      ⊢ wp frame (wpE (defs₀ (F := F)) Variants.none c none) E
          (cc3__finalize_kernel i arg1 harg1 arg2 harg2 arg3 harg3 arg4 harg4 arg5 harg5 arg6 harg6 arg7 harg7 arg8 harg8) K := by
  simp only [cc3__finalize_kernel_eq_skeleton]; unfold cc3__finalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_7 (c : Dev nD) (t : Fin cfg3.N) : (dat3 V c).after 7 t = out3 (iblk3 V c 0 t) (iblk3 V c 1 t) (iblk3 V c 2 t) (iblk3 V c 3 t) (iblk3 V c 4 t) (iblk3 V c 5 t) (iblk3 V c 6 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (fun _ => by dsimp only [dat3]) t d
theorem before3_1 (c : Dev nD) (t : Fin cfg3.N) (d) : (dat3 V c).before 1 t d = iblk3 V c 1 t :=
  before3_1_of V (dat3 V c) (A_eq3 V c 1) (fun _ => by dsimp only [dat3]) t d
theorem before3_2 (c : Dev nD) (t : Fin cfg3.N) (d) : (dat3 V c).before 2 t d = iblk3 V c 2 t :=
  before3_2_of V (dat3 V c) (A_eq3 V c 2) (fun _ => by dsimp only [dat3]) t d
theorem before3_3 (c : Dev nD) (t : Fin cfg3.N) (d) : (dat3 V c).before 3 t d = iblk3 V c 3 t :=
  before3_3_of V (dat3 V c) (A_eq3 V c 3) (fun _ => by dsimp only [dat3]) t d
theorem before3_4 (c : Dev nD) (t : Fin cfg3.N) (d) : (dat3 V c).before 4 t d = iblk3 V c 4 t :=
  before3_4_of V (dat3 V c) (A_eq3 V c 4) (fun _ => by dsimp only [dat3]) t d
theorem before3_5 (c : Dev nD) (t : Fin cfg3.N) (d) : (dat3 V c).before 5 t d = iblk3 V c 5 t :=
  before3_5_of V (dat3 V c) (A_eq3 V c 5) (fun _ => by dsimp only [dat3]) t d
theorem before3_6 (c : Dev nD) (t : Fin cfg3.N) (d) : (dat3 V c).before 6 t d = iblk3 V c 6 t :=
  before3_6_of V (dat3 V c) (A_eq3 V c 6) (fun _ => by dsimp only [dat3]) t d

/-- What the inputs' buffers hold after the body: what they held. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]

/-! ## The obligation at one point, the windows written out one by one -/

/-- What the body is called with at point `t`: the invariant, what the core owes, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and
    what the core owes are not read and do not change from a point to the next. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Fold.lean ====
import proofs.«420247_j44633300140134_1_alg».proof.Proof.Gen.Kernel.Launch
import proofs.«420247_j44633300140134_1_alg».proof.Proof.Gen.Kernel.Skeleton
import proofs.«420247_j44633300140134_1_alg».proof.Proof.Gen.Kernel.Points
import proofs.«420247_j44633300140134_1_alg».proof.Proof.Gen.Kernel.Regions
import proofs.«420247_j44633300140134_1_alg».proof.Proof.KB.Reg0
import proofs.«420247_j44633300140134_1_alg».proof.Proof.KB.Reg1
import proofs.«420247_j44633300140134_1_alg».proof.Proof.KB.Reg2
import proofs.«420247_j44633300140134_1_alg».proof.Proof.KB.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between @main's nine items

@main is: region 0; three stretches of host operations; region 1; a stretch; region 2; a stretch; region 3.
`WJ c` is what core `c`'s unscoped buffers hold after item J−1: a stretch applies its operations; a region
leaves its arrays at what its write-backs fold to and every other buffer alone.  `VJ` is `WJ` read at the
TensorCore's references, the form a region's proof data take. -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host stretches that follow region 0 (region 1's entry is `W4`). -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b

/-- After region 1. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the stretch that divides by the graph sizes (region 2's entry). -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- After region 2. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the second dividing stretch (region 3's entry). -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- After region 3: the end of @main. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## A region changes nothing but its output array

An input window's array is handed back as it was found (no write-back ever touches it), and a buffer that is no
window of the region is bypassed. -/

theorem W1_keep (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    rw [W1_arr]
    have hin : (cfg0.win w).isOut = false := by
      match w, hb with
      | ⟨0, _⟩, _ => rfl
      | ⟨1, _⟩, _ => rfl
      | ⟨2, _⟩, hb => exact absurd rfl hb
    exact ((dat0 (V0 m ρ) c).arrAt_in w hin _).trans (A_eq0 (V0 m ρ) c w)
  · exact W1_of_ne m ρ c b (fun w e => h ⟨w, e⟩)

theorem W5_keep (c : Dev nD) (b : Ref sig .tc) (hb : b ≠ main_v58) :
    W5 m ρ c (Proc.devRef .tc b) = W4 m ρ c (Proc.devRef .tc b) := by
  by_cases h : ∃ w, Pipeline.arrRef spec1 w = b
  · obtain ⟨w, rfl⟩ := h
    rw [W5_arr]
    have hin : (cfg1.win w).isOut = false := by
      match w, hb with
      | ⟨0, _⟩, _ => rfl
      | ⟨1, _⟩, _ => rfl
      | ⟨2, _⟩, hb => exact absurd rfl hb
    exact ((dat1 (V4 m ρ) c).arrAt_in w hin _).trans (A_eq1 (V4 m ρ) c w)
  · exact W5_of_ne m ρ c b (fun w e => h ⟨w, e⟩)

theorem W7_keep (c : Dev nD) (b : Ref sig .tc) (hb : b ≠ main_v62) :
    W7 m ρ c (Proc.devRef .tc b) = W6 m ρ c (Proc.devRef .tc b) := by
  by_cases h : ∃ w, Pipeline.arrRef spec2 w = b
  · obtain ⟨w, rfl⟩ := h
    rw [W7_arr]
    have hin : (cfg2.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact ((dat2 (V6 m ρ) c).arrAt_in w hin _).trans (A_eq2 (V6 m ρ) c w)
  · exact W7_of_ne m ρ c b (fun w e => h ⟨w, e⟩)

theorem W9_keep (c : Dev nD) (b : Ref sig .tc) (hb : b ≠ main_v66) :
    W9 m ρ c (Proc.devRef .tc b) = W8 m ρ c (Proc.devRef .tc b) := by
  by_cases h : ∃ w, Pipeline.arrRef spec3 w = b
  · obtain ⟨w, rfl⟩ := h
    rw [W9_arr]
    have hin : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact ((dat3 (V8 m ρ) c).arrAt_in w hin _).trans (A_eq3 (V8 m ρ) c w)
  · exact W9_of_ne m ρ c b (fun w e => h ⟨w, e⟩)

/-! ## A host stretch changes only what its operations write -/

theorem W2_keep (c : Dev nD) (r : Ref sig .tc) (h : r ∉ hostOps1_W) : W2 m ρ c (Proc.devRef .tc r) = W1 m ρ c (Proc.devRef .tc r) :=
  StableHlo.after_of_writes_sub hostOps1 _ hostOps1_writes h
theorem W3_keep (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W4_keep (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W6_keep (c : Dev nD) (r : Ref sig .tc) (h : r ∉ hostOps2_W) : W6 m ρ c (Proc.devRef .tc r) = W5 m ρ c (Proc.devRef .tc r) :=
  StableHlo.after_of_writes_sub hostOps2 _ hostOps2_writes h
theorem W8_keep (c : Dev nD) (r : Ref sig .tc) (h : r ∉ hostOps3_W) : W8 m ρ c (Proc.devRef .tc r) = W7 m ρ c (Proc.devRef .tc r) :=
  StableHlo.after_of_writes_sub hostOps3 _ hostOps3_writes h

/-- A buffer that no host operation writes and that is no region's output array ends as launched: every argument array does. -/
theorem W9_kept (c : Dev nD) (r : Ref sig .tc) (h0 : r ≠ main_v0) (h1 : r ∉ hostOps1_W) (h2 : r ∉ hostOps1_1_W) (h3 : r ∉ hostOps1_2_W)
    (h4 : r ≠ main_v58) (h5 : r ∉ hostOps2_W) (h6 : r ≠ main_v62) (h7 : r ∉ hostOps3_W) (h8 : r ≠ main_v66) :
    W9 m ρ c (Proc.devRef .tc r) = m ((c : Thread nD τ).loc r) :=
  (W9_keep m ρ c r h8).trans <| (W8_keep m ρ c r h7).trans <| (W7_keep m ρ c r h6).trans <| (W6_keep m ρ c r h5).trans <|
    (W5_keep m ρ c r h4).trans <| (W4_keep m ρ c r h3).trans <| (W3_keep m ρ c r h2).trans <| (W2_keep m ρ c r h1).trans <|
    (W1_keep m ρ c r h0).trans rfl

end Cert.Kernel.Fr

end
-- ==== Proof.KB.Run.lean ====
import proofs.«420247_j44633300140134_1_alg».proof.Proof.Gen.Kernel.Launch
import proofs.«420247_j44633300140134_1_alg».proof.Proof.Gen.Kernel.Skeleton
import proofs.«420247_j44633300140134_1_alg».proof.Proof.Gen.Kernel.Points
import proofs.«420247_j44633300140134_1_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of @main: its nine items run one after another

@main is nine items: region 0; the host stretches `hostOps1`, `hostOps1_1`, `hostOps1_2`; region 1; the stretch
`hostOps2`; region 2; the stretch `hostOps3`; region 3.  Between two items a core holds every unscoped buffer whole
at the boundary's contents (`W0 … W9`), beside its generator register at some state and its dues at nothing. -/

/-- The prefetched tables' admissible contents: no pipeline has a table. -/
abbrev adm : (p : Fin 4) → (pcfgs (F := F) p).Adm := fun p => (cfgs p).toPCfg_adm

/-- Every pipeline's proof data, each at the contents its region is entered with: a literal match on the pipeline's
    index, so that the configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V6 m ρ) c
  | ⟨3, _⟩ => fun c => dat3 (V8 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state (a region's
    invariant takes it in and gives it back) and its dues, at nothing. -/
abbrev R (c : Dev nD) : sProp 𝕄 := iprop((∃ r, prngReg c r) ∗ ∃ W, owes (c : Thread nD τ) (0 : CellTallies nD τ sig Unit) W)

/-- A host stretch as a segment: a line of operations over the unscoped references from the contents `W`, `R` riding
    along; it ends with those references at the operations applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues (the chain ends at it beside the core owing nothing): every unscoped buffer
    at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W0`, left with them at `W1`.  Its
    arrays are split out of the unscoped buffers on entry and put back, at what the write-backs fold to, on exit; the
    generator register goes into the region invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left with them at `W5`.  Its
    arrays are split out of the unscoped buffers on entry and put back, at what the write-backs fold to, on exit; the
    generator register goes into the region invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V4 m ρ) c)
    unfold Pipeline.ΦA
    iintro ⟨Hp, -, Hr⟩
    isplitl [Hr]; · iexact Hr
    iexact Hp
  hout c := by
    refine BIBase.Entails.trans (hout1 (V4 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`.  Its
    arrays are split out of the unscoped buffers on entry and put back, at what the write-backs fold to, on exit; the
    generator register goes into the region invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V6 m ρ) c)
    unfold Pipeline.ΦA
    iintro ⟨Hp, -, Hr⟩
    isplitl [Hr]; · iexact Hr
    iexact Hp
  hout c := by
    refine BIBase.Entails.trans (hout2 (V6 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W8`, left with them at `W9`.  Its
    arrays are split out of the unscoped buffers on entry and put back, at what the write-backs fold to, on exit; the
    generator register goes into the region invariant and comes back; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order: a region per kernel call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ) ]

set_option backward.isDefEq.respectTransparency.types false in
/-- THE RUN. From any memory with zero counters every weakly fair execution of @main on the TensorCores terminates,
    nothing faulting, and in every final state each unscoped buffer holds what the fold through @main's nine items
    leaves in it (`W9`). -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      -- @main is the chain of its nine items, and so is the run of the nine segments
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    -- each item is entered with exactly what the one before it left
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      -- the launch deals each core its unscoped buffers at the launch memory, its register and its dues at nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      -- holding every unscoped buffer whole at `W9` beside a final state, that state's memory holds `W9` there
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.Kernel.Fr

end
-- ==== Proof.KI.Reg0.lean ====
import proofs.«420247_j44633300140134_1_alg».proof.Proof.Gen.KernelIdeal.Launch
import proofs.«420247_j44633300140134_1_alg».proof.Proof.Gen.KernelIdeal.Skeleton
import proofs.«420247_j44633300140134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the dense product, one block of 10000 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds the point's row block at every point: the window is an input, never
    idle, never cut, and the body leaves the block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The weight window's buffer holds the whole weight matrix at every point, although it is fetched at the
    first point only: where it is not fetched its block index has not moved, so the block it kept from the
    point before is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

abbrev r0_big : Rect S10000x64 := Rect.unit (s := S10000x64) ![0, 0] S10000x64.size inb_S10000x64_S10000x64_0_0
abbrev r0_sq : Rect S64x64 := Rect.unit (s := S64x64) ![0, 0] S64x64.size inb_S64x64_S64x64_0_0

/-- The output block after the body: the product of the row block with the weight block. -/
def out0 (x0 : Vec F S10000x64 .f32) (x1 : Vec F S64x64 .f32) : Vec F S10000x64 .f32 :=
  View.canon [⟨r0_big, k0_pay1 (View.ld x0 r0_big) (View.ld x1 r0_sq)⟩]

/-- The one store is through the full rectangle of the 10000×64 buffer, so it covers every index of it. -/
theorem cover0_2 (p0 : Vec F S10000x64 .f32) (y : S10000x64.Idx) :
    ∃ pc ∈ ([⟨r0_big, p0⟩] : List (View.Piece (Elt F) S10000x64 .f32)), y ∈ pc.1.set :=
  View.cover_of_tiled [⟨r0_big, p0⟩] S10000x64.size (by rfl) y

set_option maxHeartbeats 1000000 in
/-- The body on whole buffers: with the two inputs' buffers reading `x0`, `x1` and the output's buffer at
    anything, it runs to a state where the inputs' read what they did and the output's reads `out0 x0 x1`.
    The body reads the output's buffer once before it overwrites it; the value read is never used, and the
    full-rectangle store that follows leaves nothing of the old contents. -/
theorem sound_kernel0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`: the invariant, what the core owes, and each window's current buffer
    at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies at those blocks;
    the invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«420247_j44633300140134_1_alg».proof.Proof.Gen.KernelIdeal.Launch
import proofs.«420247_j44633300140134_1_alg».proof.Proof.Gen.KernelIdeal.Skeleton
import proofs.«420247_j44633300140134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the per-graph sums of the activations, accumulated over the grid in a scratch buffer carried between points

At the first point the accumulator is reset to zero; at every point the block's contribution is added to it and
the accumulator is copied whole into the output block, which is written back after the last point only. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S10000x64 := Rect.unit (s := S10000x64) ![0, 0] S10000x64.size inb_S10000x64_S10000x64_0_0
abbrev r1_sq : Rect S64x64 := Rect.unit (s := S64x64) ![0, 0] S64x64.size inb_S64x64_S64x64_0_0
abbrev r1_row : Rect S1x64 := Rect.unit (s := S1x64) ![0, 0] S1x64.size inb_S1x64_S1x64_0_0

/-- The scratch accumulator as a memref. -/
abbrev scM1 : Memref sig .tc .vmem S64x64 .f32 := Memref.whole cc1_scratch0

/-- The accumulator after the reset: the zero block. -/
def zero1 : Vec F S64x64 .f32 := k1_pay1 (F := F)

/-- One point's update of the accumulator `a` from the point's input blocks: `a` plus the product of the first block,
    transposed, with the second. -/
def step1 (x0 x1 : Vec F S10000x64 .f32) (a : Vec F S64x64 .f32) : Vec F S64x64 .f32 := k1_pay2 x0 x1 a

/-- What the accumulator, and with it the output block, holds after the body at point `n`. -/
def acc1 (c : Dev nD) : (n : ℕ) → n < cfg1.N → Vec F S64x64 .f32
  | 0, hn => step1 (iblk1 V c 0 ⟨0, hn⟩) (iblk1 V c 1 ⟨0, hn⟩) (zero1 (F := F))
  | n + 1, hn => step1 (iblk1 V c 0 ⟨n + 1, hn⟩) (iblk1 V c 1 ⟨n + 1, hn⟩) (acc1 c n (Nat.lt_of_succ_lt hn))

/-- At the first point the update starts from the zero block. -/
theorem acc1_first (c : Dev nD) (t : Fin cfg1.N) (hz : t.val = 0) :
    acc1 V c t.val t.isLt = step1 (iblk1 V c 0 t) (iblk1 V c 1 t) (zero1 (F := F)) := by
  obtain ⟨n, hn⟩ := t
  cases n with
  | zero => rfl
  | succ n => exact absurd hz (Nat.succ_ne_zero n)

/-- At any later point it starts from what the point before left. -/
theorem acc1_later (c : Dev nD) (t : Fin cfg1.N) (hz : t.val ≠ 0) :
    acc1 V c t.val t.isLt
      = step1 (iblk1 V c 0 t) (iblk1 V c 1 t) (acc1 V c (t.val - 1) (Nat.lt_of_le_of_lt (Nat.sub_le _ _) t.isLt)) := by
  obtain ⟨n, hn⟩ := t
  cases n with
  | zero => exact absurd rfl hz
  | succ n => rfl

/-- The region invariant before position `n`: before the first point the class's (every scratch at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The class invariant with the accumulator taken out of the scoped rest as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The proof data: arrays as the region finds them; inputs at their blocks; the output block at the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_out (c : Dev nD) (t : Fin cfg1.N) : (dat1 V c).after 2 t = acc1 V c t.val t.isLt := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- An input window's current buffer holds its block at every point, fetched there or not: unfetched, the block
    index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The reset condition -/

/-- The condition of the body's one branch, as the body computes it from the grid coordinate. -/
abbrev cond1 (i : grid1.Coords) : Prop :=
  (Scalar.cmpi .ne (Scalar.extui (Scalar.cmpi .eq (BitVec.ofNat 32 (i 0).val) 0#32)) 0#32) = 1#1

/-- It holds at the first point and at no other. -/
theorem hcond1 : ∀ t : Fin cfg1.N, cond1 (grid1.coords t) ↔ t.val = 0 :=
  (by decide +kernel : ∀ t : Fin grid1.N, cond1 (grid1.coords t) ↔ t.val = 0)

/-! ## Whole-buffer accesses

Every load and store of the body goes through the rectangle that is the whole buffer at zero offsets: a load
through it reads the contents, a store through it, made last, leaves its payload, and a load of what such a store
left reads that payload back. -/

theorem hz1 : (![0, 0] : Fin 2 → Nat) = fun _ => 0 := funext fun a => by fin_cases a <;> rfl

/-- One store through the whole-buffer rectangle covers the buffer. -/
theorem cover1_one (p : Vec F S64x64 .f32) (y : S64x64.Idx) :
    ∃ pc ∈ ([⟨r1_sq, p⟩] : List (View.Piece (Elt F) S64x64 .f32)), y ∈ pc.1.set :=
  ⟨_, List.mem_singleton_self _, View.mem_set_unit_zero hz1 inb_S64x64_S64x64_0_0 y⟩

/-- So does a list whose last store goes through it. -/
theorem cover1_cons (p : Vec F S64x64 .f32) (L : List (View.Piece (Elt F) S64x64 .f32)) (y : S64x64.Idx) :
    ∃ pc ∈ ((⟨r1_sq, p⟩ : View.Piece (Elt F) S64x64 .f32) :: L), y ∈ pc.1.set :=
  ⟨_, List.mem_cons_self .., View.mem_set_unit_zero hz1 inb_S64x64_S64x64_0_0 y⟩

/-- A load through the whole-buffer rectangle of what a list of stores left whose last went through it reads that
    last store's payload. -/
theorem readCov1_cons {sg : RefSig} {κ : Kind} {sp : Space} (v : View sg κ sp S64x64 .f32) (p : Vec F S64x64 .f32)
    (L : List (View.Piece (Elt F) S64x64 .f32)) :
    v.readCov ((⟨r1_sq, p⟩ : View.Piece (Elt F) S64x64 .f32) :: L) r1_sq.toLoadRect = p := by
  rw [View.readCov_eq_canon_ld _ _ _ (cover1_cons p L), View.canon_cons_unit_zero hz1, View.ld_unit_zero hz1]

/-! ## The body's triple, case by case -/

set_option maxHeartbeats 1000000 in
/-- At the first point: the accumulator, found at anything, is reset and then updated; the output block, found at
    anything, receives a copy of it. -/
theorem sound_kernel1_first (c : Dev nD) (E : Set ℕ) (i : grid1.Coords) (hc : cond1 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (x0 x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (step1 x0 x1 (zero1 (F := F)))
            ∗ owns (c : Thread nD τ) arg4 fullShare (step1 x0 x1 (zero1 (F := F)))) -∗ K ⟨⟩))
      ⊢ wp frame (wpE (defs₀ (F := F)) Variants.none c none) E (cc1__reduce_sum_kernel i arg1 harg1 arg2 harg2 arg3 harg3 arg4 harg4) K := by
  simp only [cc1__reduce_sum_kernel_eq_skeleton]; unfold cc1__reduce_sum_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_one _), View.canon_unit_zero hz1, readCov1_cons, readCov1_cons]
    simp only [View.readAt_eq_ld, View.ld_unit_zero (S := S10000x64) hz1]
    rfl
  iexists _; isplitr
  swap; · iexact H4
  ipureintro
  sl_unfold_words
  rw [View.read_writes_eq_canon _ _ _ (cover1_cons _ _), View.canon_cons_unit_zero hz1, readCov1_cons]
  simp only [View.readAt_eq_ld, View.ld_unit_zero (S := S10000x64) hz1]
  rfl

set_option maxHeartbeats 1000000 in
/-- At any later point: the accumulator, found at `a`, is updated; the output block receives a copy of it. -/
theorem sound_kernel1_later (c : Dev nD) (E : Set ℕ) (i : grid1.Coords) (hc : ¬cond1 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (x0 x1 : Vec F S10000x64 .f32) (a : Vec F S64x64 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (step1 x0 x1 a)
            ∗ owns (c : Thread nD τ) arg4 fullShare (step1 x0 x1 a)) -∗ K ⟨⟩))
      ⊢ wp frame (wpE (defs₀ (F := F)) Variants.none c none) E (cc1__reduce_sum_kernel i arg1 harg1 arg2 harg2 arg3 harg3 arg4 harg4) K := by
  simp only [cc1__reduce_sum_kernel_eq_skeleton]; unfold cc1__reduce_sum_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_one _), View.canon_unit_zero hz1, readCov1_cons]
    simp only [View.readAt_eq_ld, View.ld_unit_zero (S := S10000x64) hz1, View.ld_unit_zero (S := S64x64) hz1]
    rfl
  iexists _; isplitr
  swap; · iexact H4
  ipureintro
  sl_unfold_words
  rw [View.read_writes_eq_canon _ _ _ (cover1_one _), View.canon_unit_zero hz1]
  simp only [View.readAt_eq_ld, View.ld_unit_zero (S := S10000x64) hz1, View.ld_unit_zero (S := S64x64) hz1]
  rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1600000 in
/-- The body at any point. The inputs' buffers hold their blocks. At the first point the invariant is the class's:
    it hands the body the accumulator at anything and the reset case applies. At a later point it hands the
    accumulator at what the point before left, and the update case applies. Either way the accumulator comes back
    at this point's contents, the rest of the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    after1_0, after1_1, after1_out, PhiS1_castSucc]
  by_cases hz : t.val = 0
  · rw [PhiS1_zero V c _ _ hz, PhiA1_eq, acc1_first V c t hz]
    iintro ⟨⟨⟨HS, HR⟩, Hg⟩, Ho, ⟨%d0, H0⟩, ⟨%d1, H1⟩, ⟨%d2, H2⟩⟩
    iapply (sound_kernel1_first c Set.univ (grid1.coords t) ((hcond1 t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [PhiS1_pos V c _ _ hz, acc1_later V c t hz]
    iintro ⟨⟨HS, HR, Hg⟩, Ho, ⟨%d0, H0⟩, ⟨%d1, H1⟩, ⟨%d2, H2⟩⟩
    iapply (sound_kernel1_later c Set.univ (grid1.coords t) (fun h => hz ((hcond1 t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the accumulator's named contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the class invariant back (the accumulator's contents forgotten). -/
theorem hout1 (c : Dev nD) : (dat1 V c).Φ (Fin.last cfg1.N) ⊢ (Pipeline.ΦA spec1 c : sProp 𝕄) :=
  Phi1_out V c _ (by rw [Fin.val_last]; have : cfg1.N = 5 := N_1; omega)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
import proofs.«420247_j44633300140134_1_alg».proof.Proof.Gen.KernelIdeal.Launch
import proofs.«420247_j44633300140134_1_alg».proof.Proof.Gen.KernelIdeal.Skeleton
import proofs.«420247_j44633300140134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the per-graph sums of the squared centred activations, accumulated over the grid in a scratch buffer carried between points

At the first point the accumulator is reset to zero; at every point the block's contribution is added to it and
the accumulator is copied whole into the output block, which is written back after the last point only. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S10000x64 := Rect.unit (s := S10000x64) ![0, 0] S10000x64.size inb_S10000x64_S10000x64_0_0
abbrev r2_sq : Rect S64x64 := Rect.unit (s := S64x64) ![0, 0] S64x64.size inb_S64x64_S64x64_0_0
abbrev r2_row : Rect S1x64 := Rect.unit (s := S1x64) ![0, 0] S1x64.size inb_S1x64_S1x64_0_0

/-- The scratch accumulator as a memref. -/
abbrev scM2 : Memref sig .tc .vmem S64x64 .f32 := Memref.whole cc2_scratch0

/-- The accumulator after the reset: the zero splat. -/
def zero2 : Vec F S64x64 .f32 := k2_pay1 (F := F)

/-- One point's update of the accumulator `a` from the point's input blocks (indicator `x0`, activations `x1`,
    means `x2`, mean scale `x3`): `a` plus the block's sums of squared centred activations. -/
def step2 (x0 x1 : Vec F S10000x64 .f32) (x2 : Vec F S64x64 .f32) (x3 : Vec F S1x64 .f32) (a : Vec F S64x64 .f32) : Vec F S64x64 .f32 :=
  k2_pay2 x0 x2 x3 x1 a

/-- What the accumulator, and with it the output block, holds after the body at point `n`. -/
def acc2 (c : Dev nD) : (n : ℕ) → n < cfg2.N → Vec F S64x64 .f32
  | 0, hn => step2 (iblk2 V c 0 ⟨0, hn⟩) (iblk2 V c 1 ⟨0, hn⟩) (iblk2 V c 2 ⟨0, hn⟩) (iblk2 V c 3 ⟨0, hn⟩) (zero2 (F := F))
  | n + 1, hn => step2 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn))

/-- The region invariant before position `n`: before the first point the class's (every scratch at anything);
    afterwards the accumulator at what the point before left, the other scoped buffers at anything, the generator
    register at some state. -/
def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

/-- The proof data: arrays as the region finds them; inputs at their blocks; the output block at the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_out (c : Dev nD) (t : Fin cfg2.N) : (dat2 V c).after 4 t = acc2 V c t.val t.isLt := by
  dsimp only [dat2]

/-! ## The accumulator, point by point -/

theorem acc2_zero (c : Dev nD) (t : Fin cfg2.N) (h0 : t.val = 0) :
    acc2 V c t.val t.isLt = step2 (iblk2 V c 0 t) (iblk2 V c 1 t) (iblk2 V c 2 t) (iblk2 V c 3 t) (zero2 (F := F)) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt = step2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h0
  | succ n => rfl

/-! ## The inputs' buffers hold their blocks

An input window's current buffer holds its block of the array at every point, whether the pipeline fetched it there or
not: unfetched, the block index has not moved and the body left the block in place. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The reset's condition

The body resets the accumulator exactly where the grid coordinate is zero: at the first point. -/

abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-! ## Whole-buffer stores and loads

Every access of the body is through the rectangle that is the whole buffer, so a store leaves its payload whatever
was stored before, and a load after it reads that payload. -/

theorem hz_r2 : (![0, 0] : Fin 2 → Nat) = fun _ => 0 := funext fun a => by fin_cases a <;> rfl

theorem read_writes_last2 (v : View sig .tc .vmem S64x64 .f32) (f : v.ty.Contents (Elt F)) (w : S64x64.Idx → Elt F .f32)
    (L : List (View.Piece (Elt F) S64x64 .f32)) :
    v.read (Elt F) (v.writes (Elt F) f (⟨Rect.unit (s := S64x64) ![0, 0] S64x64.size inb_S64x64_S64x64_0_0, w⟩ :: L)) = w := by
  rw [View.read_writes_eq_canon _ _ _ (fun y => ⟨_, List.mem_cons_self .., View.mem_set_unit_zero hz_r2 inb_S64x64_S64x64_0_0 y⟩),
    View.canon_cons_unit_zero hz_r2]

theorem readCov_last2 (v : View sig .tc .vmem S64x64 .f32) (w : S64x64.Idx → Elt F .f32)
    (L : List (View.Piece (Elt F) S64x64 .f32)) :
    v.readCov (⟨Rect.unit (s := S64x64) ![0, 0] S64x64.size inb_S64x64_S64x64_0_0, w⟩ :: L)
      (Rect.unit (s := S64x64) ![0, 0] S64x64.size inb_S64x64_S64x64_0_0).toLoadRect = w := by
  rw [View.readCov_eq_canon_ld _ _ _ (fun y => ⟨_, List.mem_cons_self .., View.mem_set_unit_zero hz_r2 inb_S64x64_S64x64_0_0 y⟩),
    View.canon_cons_unit_zero hz_r2, View.ld_unit_zero hz_r2]

/-! ## The body's triple, in its two control cases -/

set_option maxHeartbeats 1000000 in
/-- At the first point: the accumulator, found at anything, is reset and then updated from the input blocks; the output's
    buffer, found at anything, receives a copy of it. -/
theorem sound_kernel2_first (c : Dev nD) (E : Set ℕ) (i : grid2.Coords) (hc : cond2 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (x0 x1 : Vec F S10000x64 .f32) (x2 : Vec F S64x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (step2 x0 x1 x2 x3 (zero2 (F := F)))
            ∗ owns (c : Thread nD τ) arg6 fullShare (step2 x0 x1 x2 x3 (zero2 (F := F)))) -∗ K ⟨⟩))
      ⊢ wp frame (wpE (defs₀ (F := F)) Variants.none c none) E
          (cc2__reduce_var_kernel i arg1 harg1 arg2 harg2 arg3 harg3 arg4 harg4 arg5 harg5 arg6 harg6) K := by
  simp only [cc2__reduce_var_kernel_eq_skeleton]; unfold cc2__reduce_var_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_last2, readCov_last2, readCov_last2]
    simp only [View.readAt_eq_ld, View.ld_unit_zero (S := S10000x64) hz_r2, View.ld_unit_zero (S := S64x64) hz_r2,
      View.ld_unit_zero (S := S1x64) hz_r2, step2, zero2]
  iexists _; isplitr
  swap; · iexact H6
  ipureintro
  sl_unfold_words
  rw [read_writes_last2, readCov_last2]
  simp only [View.readAt_eq_ld, View.ld_unit_zero (S := S10000x64) hz_r2, View.ld_unit_zero (S := S64x64) hz_r2,
    View.ld_unit_zero (S := S1x64) hz_r2, step2, zero2]

set_option maxHeartbeats 1000000 in
/-- At a later point: the accumulator, found at `a`, is updated from the input blocks; the output's buffer, found at
    anything, receives a copy of it. -/
theorem sound_kernel2_later (c : Dev nD) (E : Set ℕ) (i : grid2.Coords) (hc : ¬cond2 i)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (x0 x1 : Vec F S10000x64 .f32) (x2 : Vec F S64x64 .f32) (x3 : Vec F S1x64 .f32) (a : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (step2 x0 x1 x2 x3 a)
            ∗ owns (c : Thread nD τ) arg6 fullShare (step2 x0 x1 x2 x3 a)) -∗ K ⟨⟩))
      ⊢ wp frame (wpE (defs₀ (F := F)) Variants.none c none) E
          (cc2__reduce_var_kernel i arg1 harg1 arg2 harg2 arg3 harg3 arg4 harg4 arg5 harg5 arg6 harg6) K := by
  simp only [cc2__reduce_var_kernel_eq_skeleton]; unfold cc2__reduce_var_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_last2, readCov_last2]
    simp only [View.readAt_eq_ld, View.ld_unit_zero (S := S10000x64) hz_r2, View.ld_unit_zero (S := S64x64) hz_r2,
      View.ld_unit_zero (S := S1x64) hz_r2, step2]
  iexists _; isplitr
  swap; · iexact H6
  ipureintro
  sl_unfold_words
  rw [read_writes_last2]
  simp only [View.readAt_eq_ld, View.ld_unit_zero (S := S10000x64) hz_r2, View.ld_unit_zero (S := S64x64) hz_r2,
    View.ld_unit_zero (S := S1x64) hz_r2, step2]

/-! ## The invariant, opened -/

/-- The scoped buffers that are no staging buffer of this call, split at the call's own accumulator. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 2000000 in
/-- The body at any point. The inputs' buffers hold their blocks. At the first point the invariant is the class's, which
    hands the accumulator over at anything, and the reset case applies; at a later point the invariant hands it over at
    what the point before left, and the other case applies. Either way the accumulator and the output's buffer come back
    at this point's value, the other scoped buffers, the generator register and what the core owes untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_out]
  by_cases h0 : t.val = 0
  · rw [PhiS2_castSucc V c t, PhiS2_zero V c _ _ h0, PhiA2_eq, acc2_zero V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel2_first c Set.univ (grid2.coords t) ((hcond2 t).mpr h0) _ _ _ _ _ _ _ _ _ _ _ _
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · rw [PhiS2_castSucc V c t, PhiS2_pos V c _ _ h0, acc2_pos V c t h0]
    iintro ⟨⟨HS, HR, Hg⟩, Ho, ⟨%d0, H0⟩, ⟨%d1, H1⟩, ⟨%d2, H2⟩, ⟨%d3, H3⟩, ⟨%d4, H4⟩⟩
    iapply (sound_kernel2_later c Set.univ (grid2.coords t) (fun h => h0 ((hcond2 t).mp h)) _ _ _ _ _ _ _ _ _ _ _ _
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _
/-- After the last point the invariant gives the class invariant back (the accumulator's contents forgotten). -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5 := N_2; omega), PhiA2_eq]
  iintro ⟨HS, HR, Hg⟩
  isplitl [HS HR]
  · isplitl [HS]; · iexists _; iexact HS
    iexact HR
  iexact Hg

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
import proofs.«420247_j44633300140134_1_alg».proof.Proof.Gen.KernelIdeal.Launch
import proofs.«420247_j44633300140134_1_alg».proof.Proof.Gen.KernelIdeal.Skeleton
import proofs.«420247_j44633300140134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: normalise, rescale, shift and rectify, one block of 10000 rows per grid point -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_big : Rect S10000x64 := Rect.unit (s := S10000x64) ![0, 0] S10000x64.size inb_S10000x64_S10000x64_0_0
abbrev r3_sq : Rect S64x64 := Rect.unit (s := S64x64) ![0, 0] S64x64.size inb_S64x64_S64x64_0_0
abbrev r3_row : Rect S1x64 := Rect.unit (s := S1x64) ![0, 0] S1x64.size inb_S1x64_S1x64_0_0

/-- The output block after the body, from the blocks of the indicator, the activations, the mean and variance
    tables and the three parameter rows. -/
def out3 (x0 x1 : Vec F S10000x64 .f32) (x2 x3 : Vec F S64x64 .f32) (x4 x5 x6 : Vec F S1x64 .f32) : Vec F S10000x64 .f32 :=
  View.canon [⟨r3_big, k3_pay1 (View.ld x0 r3_big) (View.ld x2 r3_sq) (View.ld x3 r3_sq) (View.ld x1 r3_big) (View.ld x6 r3_row) (View.ld x4 r3_row) (View.ld x5 r3_row)⟩]

/-! ## What the body finds in an input window's buffer

Every input window here is uncut and never idle, and the body leaves its buffer as it found it.  So at every point
the current buffer holds the block the window's index map names there, whether the transfer happened at this point
(windows 0 and 1, whose block moves with the point) or only at the first one (windows 2 to 6, whose block is the whole
array at every point): an unfetched buffer still holds the previous point's block, and the index has not moved. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblk : ∀ s, dat.blockOf 0 s = iblk3 V c 0 s := fun s => by unfold Dat.blockOf iblk3; rw [hA]
  rw [dat.before_in_eq_fetched 0 rfl (fun _ => rfl) (fun _ _ _ => rfl) (fun s => by rw [hafter, ← hblk]) t d]
  unfold Dat.fetched; rw [hblk]; try rfl

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblk : ∀ s, dat.blockOf 1 s = iblk3 V c 1 s := fun s => by unfold Dat.blockOf iblk3; rw [hA]
  rw [dat.before_in_eq_fetched 1 rfl (fun _ => rfl) (fun _ _ _ => rfl) (fun s => by rw [hafter, ← hblk]) t d]
  unfold Dat.fetched; rw [hblk]; try rfl

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblk : ∀ s, dat.blockOf 2 s = iblk3 V c 2 s := fun s => by unfold Dat.blockOf iblk3; rw [hA]
  rw [dat.before_in_eq_fetched 2 rfl (fun _ => rfl) (fun _ _ _ => rfl) (fun s => by rw [hafter, ← hblk]) t d]
  unfold Dat.fetched; rw [hblk]; try rfl

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblk : ∀ s, dat.blockOf 3 s = iblk3 V c 3 s := fun s => by unfold Dat.blockOf iblk3; rw [hA]
  rw [dat.before_in_eq_fetched 3 rfl (fun _ => rfl) (fun _ _ _ => rfl) (fun s => by rw [hafter, ← hblk]) t d]
  unfold Dat.fetched; rw [hblk]; try rfl

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t := by
  have hblk : ∀ s, dat.blockOf 4 s = iblk3 V c 4 s := fun s => by unfold Dat.blockOf iblk3; rw [hA]
  rw [dat.before_in_eq_fetched 4 rfl (fun _ => rfl) (fun _ _ _ => rfl) (fun s => by rw [hafter, ← hblk]) t d]
  unfold Dat.fetched; rw [hblk]; try rfl

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t := by
  have hblk : ∀ s, dat.blockOf 5 s = iblk3 V c 5 s := fun s => by unfold Dat.blockOf iblk3; rw [hA]
  rw [dat.before_in_eq_fetched 5 rfl (fun _ => rfl) (fun _ _ _ => rfl) (fun s => by rw [hafter, ← hblk]) t d]
  unfold Dat.fetched; rw [hblk]; try rfl

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t := by
  have hblk : ∀ s, dat.blockOf 6 s = iblk3 V c 6 s := fun s => by unfold Dat.blockOf iblk3; rw [hA]
  rw [dat.before_in_eq_fetched 6 rfl (fun _ => rfl) (fun _ _ _ => rfl) (fun s => by rw [hafter, ← hblk]) t d]
  unfold Dat.fetched; rw [hblk]; try rfl

/-! ## The body's one store fills the output buffer -/

/-- The single store is through the rectangle of the whole 10000×64 block, so every index of the buffer lies in it. -/
theorem cover3 (p : Vec F S10000x64 .f32) (y : S10000x64.Idx) :
    ∃ pc ∈ ([⟨r3_big, p⟩] : List (View.Piece (Elt F) S10000x64 .f32)), y ∈ pc.1.set :=
  View.cover_of_tiled [⟨r3_big, p⟩] S10000x64.size (by rfl) y

/-! ## The body's triple -/

set_option maxHeartbeats 1000000 in
/-- The kernel body on whole staging memrefs: the seven inputs' at read contents `x0 … x6`, the output's at anything
    (the body loads it once, and drops the value, before it stores).  It runs to the continuation with the inputs'
    buffers as they were and the output's at `out3` of the inputs. -/
theorem sound_kernel3 (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S10000x64 .f32) (harg8 : arg8.IsWhole)
    (x0 x1 : Vec F S10000x64 .f32) (x2 x3 : Vec F S64x64 .f32) (x4 x5 x6 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out3 x0 x1 x2 x3 x4 x5 x6)) -∗ K ⟨⟩))
      ⊢ wp frame (wpE (defs₀ (F := F)) Variants.none c none) E
          (cc3__finalize_kernel i arg1 harg1 arg2 harg2 arg3 harg3 arg4 harg4 arg5 harg5 arg6 harg6 arg7 harg7 arg8 harg8) K := by
  simp only [cc3__finalize_kernel_eq_skeleton]; unfold cc3__finalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_7 (c : Dev nD) (t : Fin cfg3.N) : (dat3 V c).after 7 t = out3 (iblk3 V c 0 t) (iblk3 V c 1 t) (iblk3 V c 2 t) (iblk3 V c 3 t) (iblk3 V c 4 t) (iblk3 V c 5 t) (iblk3 V c 6 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (fun _ => by dsimp only [dat3]) t d
theorem before3_1 (c : Dev nD) (t : Fin cfg3.N) (d) : (dat3 V c).before 1 t d = iblk3 V c 1 t :=
  before3_1_of V (dat3 V c) (A_eq3 V c 1) (fun _ => by dsimp only [dat3]) t d
theorem before3_2 (c : Dev nD) (t : Fin cfg3.N) (d) : (dat3 V c).before 2 t d = iblk3 V c 2 t :=
  before3_2_of V (dat3 V c) (A_eq3 V c 2) (fun _ => by dsimp only [dat3]) t d
theorem before3_3 (c : Dev nD) (t : Fin cfg3.N) (d) : (dat3 V c).before 3 t d = iblk3 V c 3 t :=
  before3_3_of V (dat3 V c) (A_eq3 V c 3) (fun _ => by dsimp only [dat3]) t d
theorem before3_4 (c : Dev nD) (t : Fin cfg3.N) (d) : (dat3 V c).before 4 t d = iblk3 V c 4 t :=
  before3_4_of V (dat3 V c) (A_eq3 V c 4) (fun _ => by dsimp only [dat3]) t d
theorem before3_5 (c : Dev nD) (t : Fin cfg3.N) (d) : (dat3 V c).before 5 t d = iblk3 V c 5 t :=
  before3_5_of V (dat3 V c) (A_eq3 V c 5) (fun _ => by dsimp only [dat3]) t d
theorem before3_6 (c : Dev nD) (t : Fin cfg3.N) (d) : (dat3 V c).before 6 t d = iblk3 V c 6 t :=
  before3_6_of V (dat3 V c) (A_eq3 V c 6) (fun _ => by dsimp only [dat3]) t d

/-- What the inputs' buffers hold after the body: what they held. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]

/-! ## The obligation at one point, the windows written out one by one -/

/-- What the body is called with at point `t`: the invariant, what the core owes, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and
    what the core owes are not read and do not change from a point to the next. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Fold.lean ====
import proofs.«420247_j44633300140134_1_alg».proof.Proof.Gen.KernelIdeal.Launch
import proofs.«420247_j44633300140134_1_alg».proof.Proof.Gen.KernelIdeal.Skeleton
import proofs.«420247_j44633300140134_1_alg».proof.Proof.Gen.KernelIdeal.Points
import proofs.«420247_j44633300140134_1_alg».proof.Proof.Gen.KernelIdeal.Regions
import proofs.«420247_j44633300140134_1_alg».proof.Proof.KI.Reg0
import proofs.«420247_j44633300140134_1_alg».proof.Proof.KI.Reg1
import proofs.«420247_j44633300140134_1_alg».proof.Proof.KI.Reg2
import proofs.«420247_j44633300140134_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between @main's nine items

@main is: region 0; three stretches of host operations; region 1; a stretch; region 2; a stretch; region 3.
`WJ c` is what core `c`'s unscoped buffers hold after item J−1: a stretch applies its operations; a region
leaves its arrays at what its write-backs fold to and every other buffer alone.  `VJ` is `WJ` read at the
TensorCore's references, the form a region's proof data take. -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host stretches that follow region 0 (region 1's entry is `W4`). -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b

/-- After region 1. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the stretch that divides by the graph sizes (region 2's entry). -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- After region 2. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the second dividing stretch (region 3's entry). -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- After region 3: the end of @main. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## A region changes nothing but its output array

An input window's array is handed back as it was found (no write-back ever touches it), and a buffer that is no
window of the region is bypassed. -/

theorem W1_keep (c : Dev nD) (b : Ref sig .tc) (hb : b ≠ main_v0) :
    W1 m ρ c (Proc.devRef .tc b) = W0 m ρ c (Proc.devRef .tc b) := by
  by_cases h : ∃ w, Pipeline.arrRef spec0 w = b
  · obtain ⟨w, rfl⟩ := h
    rw [W1_arr]
    have hin : (cfg0.win w).isOut = false := by
      match w, hb with
      | ⟨0, _⟩, _ => rfl
      | ⟨1, _⟩, _ => rfl
      | ⟨2, _⟩, hb => exact absurd rfl hb
    exact ((dat0 (V0 m ρ) c).arrAt_in w hin _).trans (A_eq0 (V0 m ρ) c w)
  · exact W1_of_ne m ρ c b (fun w e => h ⟨w, e⟩)

theorem W5_keep (c : Dev nD) (b : Ref sig .tc) (hb : b ≠ main_v58) :
    W5 m ρ c (Proc.devRef .tc b) = W4 m ρ c (Proc.devRef .tc b) := by
  by_cases h : ∃ w, Pipeline.arrRef spec1 w = b
  · obtain ⟨w, rfl⟩ := h
    rw [W5_arr]
    have hin : (cfg1.win w).isOut = false := by
      match w, hb with
      | ⟨0, _⟩, _ => rfl
      | ⟨1, _⟩, _ => rfl
      | ⟨2, _⟩, hb => exact absurd rfl hb
    exact ((dat1 (V4 m ρ) c).arrAt_in w hin _).trans (A_eq1 (V4 m ρ) c w)
  · exact W5_of_ne m ρ c b (fun w e => h ⟨w, e⟩)

theorem W7_keep (c : Dev nD) (b : Ref sig .tc) (hb : b ≠ main_v62) :
    W7 m ρ c (Proc.devRef .tc b) = W6 m ρ c (Proc.devRef .tc b) := by
  by_cases h : ∃ w, Pipeline.arrRef spec2 w = b
  · obtain ⟨w, rfl⟩ := h
    rw [W7_arr]
    have hin : (cfg2.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact ((dat2 (V6 m ρ) c).arrAt_in w hin _).trans (A_eq2 (V6 m ρ) c w)
  · exact W7_of_ne m ρ c b (fun w e => h ⟨w, e⟩)

theorem W9_keep (c : Dev nD) (b : Ref sig .tc) (hb : b ≠ main_v66) :
    W9 m ρ c (Proc.devRef .tc b) = W8 m ρ c (Proc.devRef .tc b) := by
  by_cases h : ∃ w, Pipeline.arrRef spec3 w = b
  · obtain ⟨w, rfl⟩ := h
    rw [W9_arr]
    have hin : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact ((dat3 (V8 m ρ) c).arrAt_in w hin _).trans (A_eq3 (V8 m ρ) c w)
  · exact W9_of_ne m ρ c b (fun w e => h ⟨w, e⟩)

/-! ## A host stretch changes only what its operations write -/

theorem W2_keep (c : Dev nD) (r : Ref sig .tc) (h : r ∉ hostOps1_W) : W2 m ρ c (Proc.devRef .tc r) = W1 m ρ c (Proc.devRef .tc r) :=
  StableHlo.after_of_writes_sub hostOps1 _ hostOps1_writes h
theorem W3_keep (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W4_keep (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W6_keep (c : Dev nD) (r : Ref sig .tc) (h : r ∉ hostOps2_W) : W6 m ρ c (Proc.devRef .tc r) = W5 m ρ c (Proc.devRef .tc r) :=
  StableHlo.after_of_writes_sub hostOps2 _ hostOps2_writes h
theorem W8_keep (c : Dev nD) (r : Ref sig .tc) (h : r ∉ hostOps3_W) : W8 m ρ c (Proc.devRef .tc r) = W7 m ρ c (Proc.devRef .tc r) :=
  StableHlo.after_of_writes_sub hostOps3 _ hostOps3_writes h

/-- A buffer that no host operation writes and that is no region's output array ends as launched: every argument array does. -/
theorem W9_kept (c : Dev nD) (r : Ref sig .tc) (h0 : r ≠ main_v0) (h1 : r ∉ hostOps1_W) (h2 : r ∉ hostOps1_1_W) (h3 : r ∉ hostOps1_2_W)
    (h4 : r ≠ main_v58) (h5 : r ∉ hostOps2_W) (h6 : r ≠ main_v62) (h7 : r ∉ hostOps3_W) (h8 : r ≠ main_v66) :
    W9 m ρ c (Proc.devRef .tc r) = m ((c : Thread nD τ).loc r) :=
  (W9_keep m ρ c r h8).trans <| (W8_keep m ρ c r h7).trans <| (W7_keep m ρ c r h6).trans <| (W6_keep m ρ c r h5).trans <|
    (W5_keep m ρ c r h4).trans <| (W4_keep m ρ c r h3).trans <| (W3_keep m ρ c r h2).trans <| (W2_keep m ρ c r h1).trans <|
    (W1_keep m ρ c r h0).trans rfl

end Cert.KernelIdeal.Fr

end
-- ==== Proof.KI.Run.lean ====
import proofs.«420247_j44633300140134_1_alg».proof.Proof.Gen.KernelIdeal.Launch
import proofs.«420247_j44633300140134_1_alg».proof.Proof.Gen.KernelIdeal.Skeleton
import proofs.«420247_j44633300140134_1_alg».proof.Proof.Gen.KernelIdeal.Points
import proofs.«420247_j44633300140134_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of @main: its nine items run one after another

@main is nine items: region 0; the host stretches `hostOps1`, `hostOps1_1`, `hostOps1_2`; region 1; the stretch
`hostOps2`; region 2; the stretch `hostOps3`; region 3.  Between two items a core holds every unscoped buffer whole
at the boundary's contents (`W0 … W9`), beside its generator register at some state and its dues at nothing. -/

/-- The prefetched tables' admissible contents: no pipeline has a table. -/
abbrev adm : (p : Fin 4) → (pcfgs (F := F) p).Adm := fun p => (cfgs p).toPCfg_adm

/-- Every pipeline's proof data, each at the contents its region is entered with: a literal match on the pipeline's
    index, so that the configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V6 m ρ) c
  | ⟨3, _⟩ => fun c => dat3 (V8 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state (a region's
    invariant takes it in and gives it back) and its dues, at nothing. -/
abbrev R (c : Dev nD) : sProp 𝕄 := iprop((∃ r, prngReg c r) ∗ ∃ W, owes (c : Thread nD τ) (0 : CellTallies nD τ sig Unit) W)

/-- A host stretch as a segment: a line of operations over the unscoped references from the contents `W`, `R` riding
    along; it ends with those references at the operations applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues (the chain ends at it beside the core owing nothing): every unscoped buffer
    at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W0`, left with them at `W1`.  Its
    arrays are split out of the unscoped buffers on entry and put back, at what the write-backs fold to, on exit; the
    generator register goes into the region invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left with them at `W5`.  Its
    arrays are split out of the unscoped buffers on entry and put back, at what the write-backs fold to, on exit; the
    generator register goes into the region invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V4 m ρ) c)
    unfold Pipeline.ΦA
    iintro ⟨Hp, -, Hr⟩
    isplitl [Hr]; · iexact Hr
    iexact Hp
  hout c := by
    refine BIBase.Entails.trans (hout1 (V4 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`.  Its
    arrays are split out of the unscoped buffers on entry and put back, at what the write-backs fold to, on exit; the
    generator register goes into the region invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V6 m ρ) c)
    unfold Pipeline.ΦA
    iintro ⟨Hp, -, Hr⟩
    isplitl [Hr]; · iexact Hr
    iexact Hp
  hout c := by
    refine BIBase.Entails.trans (hout2 (V6 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W8`, left with them at `W9`.  Its
    arrays are split out of the unscoped buffers on entry and put back, at what the write-backs fold to, on exit; the
    generator register goes into the region invariant and comes back; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order: a region per kernel call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ) ]

set_option backward.isDefEq.respectTransparency.types false in
/-- THE RUN. From any memory with zero counters every weakly fair execution of @main on the TensorCores terminates,
    nothing faulting, and in every final state each unscoped buffer holds what the fold through @main's nine items
    leaves in it (`W9`). -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      -- @main is the chain of its nine items, and so is the run of the nine segments
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    -- each item is entered with exactly what the one before it left
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      -- the launch deals each core its unscoped buffers at the launch memory, its register and its dues at nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      -- holding every unscoped buffer whole at `W9` beside a final state, that state's memory holds `W9` there
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Fr

end
-- ==== Proof.Spec.lean ====
/-
  The mathematics of the certificate, with no program in sight: each stage of the graph-convolution /
  graph-normalisation pipeline as ONE function of whole arrays, index by index, over the extended reals.

  Nodes n < 50000, features f < 64, graphs g < 64.  `lin` is the dense product x·W.  `oh` is the
  graph-membership indicator of a label vector (1 where node n carries label g, else 0); `cnt` its column
  sums (the graph sizes); `segsum oh o` the per-graph sums  Σₙ oh[n,g]·o[n,f];  `spread oh M` hands every
  node the row of its graph,  Σ_g oh[n,g]·M[g,f];  `dv` divides a per-graph table by the graph sizes;
  `centered` subtracts the scaled per-graph mean, `varsum` sums its squares per graph, and `fin` is
  the normalised, affinely rescaled and rectified result.  `ktail` composes them from the aggregated
  activations `o` and the label vector: the whole normalisation as the kernel computes it.
-/
import Idealize.ShloMosaic.PureOps.Ideal
import Idealize.ShloMosaic.Lib.ValueIdx

noncomputable section

open scoped BigOperators

namespace Cert.Spec

open Idealize.ShloMosaic Idealize.ShloMosaic.ValueIdx

abbrev T50000x64 : Shape := ⟨2, ![50000, 64]⟩
abbrev T64x64 : Shape := ⟨2, ![64, 64]⟩
abbrev T1x64 : Shape := ⟨2, ![1, 64]⟩
abbrev T64 : Shape := ⟨1, ![64]⟩
abbrev T50000 : Shape := ⟨1, ![50000]⟩

/-- The variance floor, the word both programs carry. -/
abbrev eps : EReal := Ideal.ofBits .f32 0x3727C5AC#32

/-- The dense product: row i of x against column j of w. -/
def lin (x : T50000x64.Idx → EReal) (w : T64x64.Idx → EReal) : T50000x64.Idx → EReal :=
  fun i => ∑ k : Fin 64, x (ix2 (i 0) k) * w (ix2 k (i 1))

/-- Membership indicator: 1 where node n carries label g, else 0. -/
def oh (batch : T50000.Idx → BitVec 32) : T50000x64.Idx → EReal :=
  fun i => if batch (ix1 (i 0)) = BitVec.ofNat 32 (i 1).val then 1 else 0

/-- Graph sizes: the indicator's column sums. -/
def cnt (o : T50000x64.Idx → EReal) : T64.Idx → EReal :=
  fun g => ∑ n : Fin 50000, o (ix2 n (g 0))

/-- Per-graph sums of a node array, weighted by the indicator. -/
def segsum (o a : T50000x64.Idx → EReal) : T64x64.Idx → EReal :=
  fun j => ∑ n : Fin 50000, o (ix2 n (j 0)) * a (ix2 n (j 1))

/-- Every node receives its graph's row of a per-graph table. -/
def spread (o : T50000x64.Idx → EReal) (M : T64x64.Idx → EReal) : T50000x64.Idx → EReal :=
  fun i => ∑ g : Fin 64, o (ix2 (i 0) g) * M (ix2 g (i 1))

/-- A per-graph table divided, row by row, by the graph sizes. -/
def dv (s : T64x64.Idx → EReal) (c : T64.Idx → EReal) : T64x64.Idx → EReal :=
  fun j => Ideal.div (s j) (c (ix1 (j 0)))

/-- A feature vector laid out as a one-row table. -/
def row (v : T64.Idx → EReal) : T1x64.Idx → EReal := fun i => v (ix1 (i 1))

/-- Activations minus the scaled mean of the node's graph. -/
def centered (o a : T50000x64.Idx → EReal) (mean : T64x64.Idx → EReal) (gms : T1x64.Idx → EReal) :
    T50000x64.Idx → EReal :=
  fun i => a i - gms (ix2 0 (i 1)) * spread o mean i

/-- Per-graph sums of the squared centred activations. -/
def varsum (o a : T50000x64.Idx → EReal) (mean : T64x64.Idx → EReal) (gms : T1x64.Idx → EReal) :
    T64x64.Idx → EReal :=
  segsum o (fun i => centered o a mean gms i * centered o a mean gms i)

/-- Normalise by the graph's variance, rescale, shift, rectify. -/
def fin (o a : T50000x64.Idx → EReal) (mean var : T64x64.Idx → EReal) (gw gb gms : T1x64.Idx → EReal) :
    T50000x64.Idx → EReal :=
  fun i => max (gw (ix2 0 (i 1)) * (centered o a mean gms i * Ideal.rsqrt (spread o var i + eps))
      + gb (ix2 0 (i 1))) (Ideal.ofBits .f32 0x00000000#32)

/-- The whole normalisation from the aggregated activations `a` and the labels, as the kernel stages it. -/
def ktail (a : T50000x64.Idx → EReal) (gw gb gms : T64.Idx → EReal) (batch : T50000.Idx → BitVec 32) :
    T50000x64.Idx → EReal :=
  let o := oh batch
  let c := cnt o
  let mean := dv (segsum o a) c
  let var := dv (varsum o a mean (row gms)) c
  fin o a mean var (row gw) (row gb) (row gms)

end Cert.Spec

end
-- ==== Proof.KI.Val0.lean ====
import proofs.«420247_j44633300140134_1_alg».proof.Proof.KI.Reg0
import proofs.«420247_j44633300140134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The product block at an index

The body narrows both loaded blocks to the 16-bit format, multiplies them into a zero accumulator and stores the
result. Over the extended reals the narrowing changes nothing and the zero accumulator adds nothing, so the stored
block at (p, q) is the plain sum over k of (row block)[p, k] · (weights)[k, q]. -/

/-- The two zero offsets of a whole-buffer rectangle, as the constant-zero function. -/
theorem zero_off : (![0, 0] : Fin 2 → Nat) = fun _ => 0 :=
  funext fun a => match a with | ⟨0, _⟩ => rfl | ⟨1, _⟩ => rfl

/-- The product reads its left operand at (output row, contraction index): the row axis. -/
theorem lhs_prod_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- The contracted axis of the left operand. -/
theorem lhs_prod_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The product reads its right operand at (contraction index, output column): the contracted axis. -/
theorem rhs_prod_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The column axis of the right operand. -/
theorem rhs_prod_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The stored block at row `p`, column `q`: Σₖ x0[p, k] · x1[k, q]. -/
theorem pay_apply (x0 : S10000x64.Idx → EReal) (x1 : S64x64.Idx → EReal) (p : Fin 10000) (q : Fin 64) :
    k0_pay1 (F := Ideal) x0 x1 (ix2 p q) = ∑ k : Fin 64, x0 (ix2 p k) * x1 (ix2 k q) := by
  unfold k0_pay1
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_prod_0 _ _
      | ⟨1, _⟩ => exact (lhs_prod_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs_prod_0 _ _).trans hk
      | ⟨1, _⟩ => exact rhs_prod_1 _ _)
  rw [el, er]
  rfl

/-- If the row block `x0` is rows `row p` of a whole array `X` and the weight block `x1` is the whole weight array
    `W`, the stored block at (p, q) is the dense product of `X` and `W` at (row p, q). -/
theorem block_apply (X : S50000x64.Idx → EReal) (W x1 : S64x64.Idx → EReal) (x0 : S10000x64.Idx → EReal)
    (row : Fin 10000 → Fin 50000)
    (h0 : ∀ p k, x0 (ix2 p k) = X (ix2 (row p) k)) (h1 : ∀ k q, x1 (ix2 k q) = W (ix2 k q))
    (p : Fin 10000) (q : Fin 64) :
    k0_pay1 (F := Ideal) x0 x1 (ix2 p q) = Cert.Spec.lin X W (ix2 (row p) q) := by
  rw [pay_apply]
  show _ = ∑ k : Fin 64, X (ix2 (row p) k) * W (ix2 k q)
  exact Finset.sum_congr rfl fun k _ => by rw [h0, h1]

/-! ## From the blocks to the array

Grid point `t` handles rows 10000·t … 10000·t + 9999: the row-block window and the output window both sit at block
(t, 0), the weight window always at block (0, 0). So an element (p, q) of a block lives at row 10000·t + p of its
array, and the five output blocks tile the 50000 rows. -/

/-- Where the three windows sit at point `t`, decided over the five points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array row that row `p` of point `t`'s block is. -/
def rowAt (t : Fin cfg0.N) (p : Fin 10000) : Fin 50000 :=
  ⟨t.val * 10000 + p.val, by have h : t.val < 5 := lt_of_lt_of_eq t.isLt N_0; have := p.isLt; omega⟩

/-- What point `t` writes back is block `t` of the dense product of the two argument arrays. -/
theorem flushed_eq (c : Dev nD) (t : Fin cfg0.N) :
    (dat0 (F := Ideal) V c).flushed 2 t
      = ((cfg0.win 2).blk t).view.read (Elt Ideal) (Cert.Spec.lin (V c main_arg0) (V c main_arg1)) := by
  show (cfg0.win 2).cut (grid0.coords t) ((dat0 (F := Ideal) V c).after 2 t) = _
  rw [after0_2]
  unfold out0
  rw [View.canon_unit_zero zero_off]
  simp only [View.ld_unit_zero (S := S10000x64) zero_off, View.ld_unit_zero (S := S64x64) zero_off]
  obtain ⟨e00, e01, e10, e11, e20, e21⟩ := idx_facts t
  funext j
  obtain ⟨p, q, rfl⟩ : ∃ (p : Fin 10000) (q : Fin 64), j = ix2 p q := ⟨j 0, j 1, eq_ix2 j⟩
  have hout : ((cfg0.win 2).blk t).view.emb (ix2 p q) = ix2 (rowAt t p) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (F := Ideal) (iblk0 V c 0 t) (iblk0 V c 1 t) (ix2 p q)
    = Cert.Spec.lin (V c main_arg0) (V c main_arg1) (((cfg0.win 2).blk t).view.emb (ix2 p q))
  rw [hout]
  refine block_apply (V c main_arg0) (V c main_arg1) (iblk0 V c 1 t) (iblk0 V c 0 t) (rowAt t) ?_ ?_ p q
  · intro p k
    show V c main_arg0 (((cfg0.win 0).blk t).view.emb (ix2 p k)) = V c main_arg0 (ix2 (rowAt t p) k)
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  · intro k q
    show V c main_arg1 (((cfg0.win 1).blk t).view.emb (ix2 k q)) = V c main_arg1 (ix2 k q)
    refine congrArg _ ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Row r of the output array is written by point r / 10000; every point writes its block back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  let t : Fin cfg0.N := ⟨(i 0).val / 10000, lt_of_lt_of_eq (show (i 0).val / 10000 < 5 by omega) N_0.symm⟩
  have ht : t.val = (i 0).val / 10000 := rfl
  obtain ⟨-, -, -, -, e20, e21⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After region 0 its output array is the dense product of the two argument arrays: the row blocks the
    five grid points write tile the array, and each is the product of its rows with the whole weight matrix. -/
theorem val0 (c : Dev nD) :
    (dat0 (F := Ideal) V c).arrAt 2 cfg0.N = Cert.Spec.lin (V c main_arg0) (V c main_arg1) :=
  (dat0 (F := Ideal) V c).arrAt_eq_of_cover 2 _ (fun t _ => flushed_eq V c t) cover

end Cert.KernelIdeal.Val

end
-- ==== Proof.KI.Val1.lean ====
import proofs.«420247_j44633300140134_1_alg».proof.Proof.KI.Reg1
import proofs.«420247_j44633300140134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

open scoped BigOperators

/-! # Region 1 at the ideal values: the output array is the per-graph sums

The accumulator starts at zero and every point adds, at entry (p, q), the sum over the point's 10000 rows of
indicator[row, p] · activation[row, q]. The five row blocks are consecutive, so after the last point the entry is the
sum over all 50000 rows, in row order: the per-graph sum. The one write-back, after the last point, copies the
accumulator into the 64×64 output array, whose single block is the whole array. -/

/-! ## The matrix product's operand indices

The product contracts the row axis of both blocks: at output entry (p, q) and contraction position k the left operand
is read at (k, p) and the right at (k, q). -/

theorem lhs1_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs1_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs1_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs1_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- The product of the first block, transposed, with the second, into a zero accumulator, at an entry: the sum over the
    block's rows of the two operands' products. -/
theorem mm1_apply (l r : FVec Ideal S10000x64 .bf16) (j : S64x64.Idx) :
    matmul (F := Ideal) dot_S10000x64_S10000x64_S64x64_0_0_1_1_n_n none l r (constant S64x64 .f32 0x00000000#32) j
      = ∑ k : Fin 10000, l (ix2 k (j 0)) * r (ix2 k (j 1)) := by
  simp only [matmul]
  rw [Ideal.matmul_constant_zero_apply, ← Equiv.sum_comp (ValueIdx.contrEquiv1 dot_S10000x64_S10000x64_S64x64_0_0_1_1_n_n 10000 rfl rfl).symm]
  refine Finset.sum_congr rfl fun k _ => ?_
  have hk := ValueIdx.contrEquiv1_symm_val dot_S10000x64_S10000x64_S64x64_0_0_1_1_n_n 10000 rfl rfl k
  have el : dot_S10000x64_S10000x64_S64x64_0_0_1_1_n_n.lhsIdx j ((ValueIdx.contrEquiv1 dot_S10000x64_S10000x64_S64x64_0_0_1_1_n_n 10000 rfl rfl).symm k) = ix2 k (j 0) := funext fun a => Fin.ext (by
    match a with
    | ⟨0, _⟩ => exact (lhs1_0 _ _).trans hk
    | ⟨1, _⟩ => exact lhs1_1 _ _)
  have er : dot_S10000x64_S10000x64_S64x64_0_0_1_1_n_n.rhsIdx j ((ValueIdx.contrEquiv1 dot_S10000x64_S10000x64_S64x64_0_0_1_1_n_n 10000 rfl rfl).symm k) = ix2 k (j 1) := funext fun a => Fin.ext (by
    match a with
    | ⟨0, _⟩ => exact (rhs1_0 _ _).trans hk
    | ⟨1, _⟩ => exact rhs1_1 _ _)
  rw [el, er]
  rfl

/-! ## One point's update and the reset, at an entry -/

/-- One point's update at an entry: the accumulator there plus the block's contribution (the changes of float format
    and the same-shape casts are the identity on the extended reals). -/
theorem step1_apply (x0 x1 : Vec Ideal S10000x64 .f32) (a : Vec Ideal S64x64 .f32) (j : S64x64.Idx) :
    step1 (F := Ideal) x0 x1 a j = a j + ∑ k : Fin 10000, x0 (ix2 k (j 0)) * x1 (ix2 k (j 1)) := by
  unfold step1 k1_pay2
  simp only [shapeCast_self]
  show a j + matmul (F := Ideal) dot_S10000x64_S10000x64_S64x64_0_0_1_1_n_n none (truncf .bf16 x0 bitsLt_bf16_f32)
    (truncf .bf16 x1 bitsLt_bf16_f32) (constant S64x64 .f32 0x00000000#32) j = _
  rw [mm1_apply]
  rfl

/-- The reset block is zero everywhere. -/
theorem zero1_apply (j : S64x64.Idx) : zero1 (F := Ideal) j = 0 := by
  unfold zero1 k1_pay1
  simp only [shapeCast_self]
  show Ideal.ofBits .f32 0x00000000#32 = 0
  exact Ideal.ofBits_zero_f32

/-! ## The sum over the rows, in row order -/

/-- Row `r`'s term of the per-graph sum at entry (p, q); zero past the last row. -/
def rowTerm (o a : Cert.Spec.T50000x64.Idx → EReal) (p q : Fin 64) (r : ℕ) : EReal :=
  if h : r < 50000 then o (ix2 ⟨r, h⟩ p) * a (ix2 ⟨r, h⟩ q) else 0

/-- The per-graph sum at entry (p, q) is the sum of the row terms over the first 50000 naturals. -/
theorem segsum_range (o a : Cert.Spec.T50000x64.Idx → EReal) (p q : Fin 64) :
    Cert.Spec.segsum o a (ix2 p q) = ∑ r ∈ Finset.range 50000, rowTerm o a p q r := by
  rw [← Fin.sum_univ_eq_sum_range (fun r => rowTerm o a p q r) 50000]
  unfold Cert.Spec.segsum
  refine Finset.sum_congr rfl fun n _ => ?_
  unfold rowTerm
  rw [dif_pos n.isLt]

/-- The rows before a point's block, then the block's 10000. -/
theorem sum_block (f : ℕ → EReal) (n : ℕ) :
    ∑ r ∈ Finset.range (10000 * (n + 1)), f r
      = ∑ r ∈ Finset.range (10000 * n), f r + ∑ k : Fin 10000, f (10000 * n + k.val) := by
  rw [Nat.mul_succ, Finset.sum_range_add, Fin.sum_univ_eq_sum_range (fun r => f (10000 * n + r)) 10000]

/-- One update carries the partial sum over the rows before block `n` to the partial sum through block `n`, when the
    block's products are the row terms of its rows. -/
theorem step_sum (f : ℕ → EReal) (x0 x1 : Vec Ideal S10000x64 .f32) (a : Vec Ideal S64x64 .f32) (p q : Fin 64) (n : ℕ)
    (ha : a (ix2 p q) = ∑ r ∈ Finset.range (10000 * n), f r)
    (hx : ∀ k : Fin 10000, x0 (ix2 k p) * x1 (ix2 k q) = f (10000 * n + k.val)) :
    step1 (F := Ideal) x0 x1 a (ix2 p q) = ∑ r ∈ Finset.range (10000 * (n + 1)), f r := by
  rw [step1_apply, ha, sum_block]
  exact congrArg (_ + ·) (Finset.sum_congr rfl fun k _ => hx k)

/-! ## The blocks read off the arrays -/

/-- The block index of the three windows, decided over the grid: the two inputs' row block is the point's number,
    the output's never moves. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The two input blocks at a point and the two input arrays, at their literal types. -/
abbrev blkO (c : Dev nD) (t : Fin cfg1.N) : Vec Ideal S10000x64 .f32 := iblk1 (F := Ideal) V c 0 t
abbrev blkA (c : Dev nD) (t : Fin cfg1.N) : Vec Ideal S10000x64 .f32 := iblk1 (F := Ideal) V c 1 t
abbrev arrO (c : Dev nD) : Vec Ideal S50000x64 .f32 := V c main_v53
abbrev arrA (c : Dev nD) : Vec Ideal S50000x64 .f32 := V c main_v46

/-- Row `k` of the indicator's block at point `t` is row `10000 t + k` of the indicator. -/
theorem blkO_apply (c : Dev nD) (t : Fin cfg1.N) (k : Fin 10000) (p : Fin 64) (h : 10000 * t.val + k.val < 50000) :
    blkO V c t (ix2 k p) = arrO V c (ix2 ⟨10000 * t.val + k.val, h⟩ p) := by
  obtain ⟨e0, e1, -, -, -, -⟩ := idx_facts1 t
  unfold blkO iblk1
  rw [View.read_apply]
  show V c main_v53 _ = V c main_v53 _
  congr 1
  funext a
  apply Fin.ext
  match a with
  | ⟨0, _⟩ => show win1_0.index t (0 : Fin 2) * 10000 + 1 * k.val = 10000 * t.val + k.val; rw [e0]; omega
  | ⟨1, _⟩ => show win1_0.index t (1 : Fin 2) * 64 + 1 * p.val = p.val; rw [e1]; omega

/-- The same for the activations. -/
theorem blkA_apply (c : Dev nD) (t : Fin cfg1.N) (k : Fin 10000) (q : Fin 64) (h : 10000 * t.val + k.val < 50000) :
    blkA V c t (ix2 k q) = arrA V c (ix2 ⟨10000 * t.val + k.val, h⟩ q) := by
  obtain ⟨-, -, e0, e1, -, -⟩ := idx_facts1 t
  unfold blkA iblk1
  rw [View.read_apply]
  show V c main_v46 _ = V c main_v46 _
  congr 1
  funext a
  apply Fin.ext
  match a with
  | ⟨0, _⟩ => show win1_1.index t (0 : Fin 2) * 10000 + 1 * k.val = 10000 * t.val + k.val; rw [e0]; omega
  | ⟨1, _⟩ => show win1_1.index t (1 : Fin 2) * 64 + 1 * q.val = q.val; rw [e1]; omega

/-- So the blocks' products at a point are the row terms of the point's rows. -/
theorem blk_term (c : Dev nD) (t : Fin cfg1.N) (p q : Fin 64) (k : Fin 10000) :
    blkO V c t (ix2 k p) * blkA V c t (ix2 k q) = rowTerm (arrO V c) (arrA V c) p q (10000 * t.val + k.val) := by
  have h : 10000 * t.val + k.val < 50000 := by
    have := t.isLt; have : cfg1.N = 5 := N_1; have := k.isLt; omega
  rw [blkO_apply V c t k p h, blkA_apply V c t k q h]
  unfold rowTerm
  rw [dif_pos h]

/-! ## The accumulator is the partial sum -/

/-- After point `n` the accumulator's entry (p, q) is the sum of the row terms over the rows of blocks 0 … n: by
    induction on the point. -/
theorem acc1_eq (c : Dev nD) (p q : Fin 64) : ∀ (n : ℕ) (hn : n < cfg1.N),
    acc1 (F := Ideal) V c n hn (ix2 p q) = ∑ r ∈ Finset.range (10000 * (n + 1)), rowTerm (arrO V c) (arrA V c) p q r
  | 0, hn => by
    show step1 (F := Ideal) (blkO V c ⟨0, hn⟩) (blkA V c ⟨0, hn⟩) (zero1 (F := Ideal)) (ix2 p q) = _
    exact step_sum (rowTerm (arrO V c) (arrA V c) p q) (blkO V c ⟨0, hn⟩) (blkA V c ⟨0, hn⟩) (zero1 (F := Ideal)) p q 0
      (by rw [zero1_apply, Nat.mul_zero, Finset.range_zero, Finset.sum_empty])
      (fun k => blk_term V c ⟨0, hn⟩ p q k)
  | n + 1, hn => by
    show step1 (F := Ideal) (blkO V c ⟨n + 1, hn⟩) (blkA V c ⟨n + 1, hn⟩) (acc1 (F := Ideal) V c n (Nat.lt_of_succ_lt hn)) (ix2 p q) = _
    exact step_sum (rowTerm (arrO V c) (arrA V c) p q) (blkO V c ⟨n + 1, hn⟩) (blkA V c ⟨n + 1, hn⟩)
      (acc1 (F := Ideal) V c n (Nat.lt_of_succ_lt hn)) p q (n + 1) (acc1_eq c p q n (Nat.lt_of_succ_lt hn))
      (fun k => blk_term V c ⟨n + 1, hn⟩ p q k)

/-- After the last point it is the per-graph sum. -/
theorem acc1_last (c : Dev nD) (n : ℕ) (hn : n < cfg1.N) (h4 : n = 4) (j : S64x64.Idx) :
    acc1 (F := Ideal) V c n hn j = Cert.Spec.segsum (arrO V c) (arrA V c) j := by
  obtain ⟨p, q, rfl⟩ : ∃ (p : Fin 64) (q : Fin 64), j = ix2 p q := ⟨j 0, j 1, eq_ix2 j⟩
  rw [acc1_eq V c p q n hn, segsum_range, h4]

/-! ## From the block to the array -/

/-- What the one write-back writes is the per-graph sums, read through the output's block, which is the whole array. -/
theorem flushed1_eq (c : Dev nD) (t : Fin cfg1.N) (hf : (cfg1.win 2).flush t = true) :
    (dat1 (F := Ideal) V c).flushed 2 t
      = ((cfg1.win 2).blk t).view.read (Elt Ideal) (Cert.Spec.segsum (arrO V c) (arrA V c)) := by
  have h4 : t.val = 4 := by
    have := (flush1_2 t).mp hf; have := t.isLt; have : cfg1.N = 5 := N_1; omega
  obtain ⟨-, -, -, -, e0, e1⟩ := idx_facts1 t
  show (cfg1.win 2).cut (grid1.coords t) ((dat1 (F := Ideal) V c).after 2 t) = _
  rw [after1_out, show acc1 (F := Ideal) V c t.val t.isLt = Cert.Spec.segsum (arrO V c) (arrA V c) from
    funext (acc1_last V c t.val t.isLt h4)]
  have hz' : (fun a => win1_2.index t a * main_v58.ty.shape.size a) = fun _ => 0 := funext fun a => by
    match a with
    | ⟨0, _⟩ => show win1_2.index t (0 : Fin 2) * 64 = 0; rw [e0]
    | ⟨1, _⟩ => show win1_2.index t (1 : Fin 2) * 64 = 0; rw [e1]
  exact (Memref.read_access_unit_zero (Elt Ideal) main_v58 hz' (fun a => by rw [congrFun hz' a]; simp)
    (Cert.Spec.segsum (arrO V c) (arrA V c))).symm

/-- Every entry of the output array lies in the block the last point writes back. -/
theorem cover1 (i : S64x64.Idx) :
    ∃ t : Fin cfg1.N, (cfg1.win 2).flush t = true ∧ i ∈ ((cfg1.win 2).blk t).view.set := by
  refine ⟨t1_4, (flush1_2 t1_4).mpr rfl, ?_⟩
  obtain ⟨-, -, -, -, e0, e1⟩ := idx_facts1 t1_4
  show i ∈ ((View.whole main_v58).slice (win1_2.rect t1_4)).set
  rw [View.set_slice_whole, Rect.mem_set_unit]
  intro a
  have h0 : (i 0).val < 64 := (i 0).isLt
  have h1 : (i 1).val < 64 := (i 1).isLt
  match a with
  | ⟨0, _⟩ => show win1_2.index t1_4 (0 : Fin 2) * 64 ≤ (i 0).val ∧ (i 0).val < win1_2.index t1_4 (0 : Fin 2) * 64 + 64; rw [e0]; omega
  | ⟨1, _⟩ => show win1_2.index t1_4 (1 : Fin 2) * 64 ≤ (i 1).val ∧ (i 1).val < win1_2.index t1_4 (1 : Fin 2) * 64 + 64; rw [e1]; omega

/-- After region 1 its output array holds the per-graph sums of the activations: the accumulator after the
    last point is the sum over the five row blocks of indicatorᵀ · activations. -/
theorem val1 (c : Dev nD) :
    (dat1 (F := Ideal) V c).arrAt 2 cfg1.N = Cert.Spec.segsum (V c main_v53) (V c main_v46) :=
  (dat1 (F := Ideal) V c).arrAt_eq_of_cover 2 (Cert.Spec.segsum (arrO V c) (arrA V c)) (flushed1_eq V c) cover1

end Cert.KernelIdeal.Val

end
-- ==== Proof.KI.Val2Pay.lean ====
/-
  One grid point's update of region 2's accumulator, read at an entry, at the extended reals: the accumulator's
  entry (g, f) grows by the block's sum over its rows r of  indicator[r, g] · (centred[r, f])²,  where
  centred[r, f] = activation[r, f] − scale[f] · Σ_g' indicator[r, g'] · mean[g', f]  (the two matrix products
  into zero accumulators are plain sums; a change of float format is the identity).
-/
import proofs.«420247_j44633300140134_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open scoped BigOperators

/-! ## The two matrix products' operand indices

The first product contracts the left operand's columns against the right operand's rows: at result entry (r, f) and
contraction position k it reads the left operand at (r, k) and the right one at (k, f).  The second contracts the ROWS
of both operands: at result entry (g, f) and contraction position k it reads the left operand at (k, g) and the right
one at (k, f). -/

private theorem lhs_mm1_0 (i : S10000x64.Idx) (q : Cert.KernelIdeal.dot_S10000x64_S64x64_S10000x64_1_0_0_1_n_n.contr.Idx) :
    (Cert.KernelIdeal.dot_S10000x64_S64x64_S10000x64_1_0_0_1_n_n.lhsIdx i q 0).val = (i 0).val := by
  unfold DotDims.lhsIdx
  rw [dif_neg (show ¬(0 : Fin S10000x64.rank) ∈ Cert.KernelIdeal.dot_S10000x64_S64x64_S10000x64_1_0_0_1_n_n.lhsBatch by decide), dif_pos (show (0 : Fin S10000x64.rank) ∈ Cert.KernelIdeal.dot_S10000x64_S64x64_S10000x64_1_0_0_1_n_n.lhsNonContracting by decide)]
  rfl
private theorem lhs_mm1_1 (i : S10000x64.Idx) (q : Cert.KernelIdeal.dot_S10000x64_S64x64_S10000x64_1_0_0_1_n_n.contr.Idx) :
    (Cert.KernelIdeal.dot_S10000x64_S64x64_S10000x64_1_0_0_1_n_n.lhsIdx i q 1).val = (q ⟨0, by decide⟩).val :=
  Cert.KernelIdeal.dot_S10000x64_S64x64_S10000x64_1_0_0_1_n_n.lhsIdx_val_of_single rfl i q
private theorem rhs_mm1_0 (i : S10000x64.Idx) (q : Cert.KernelIdeal.dot_S10000x64_S64x64_S10000x64_1_0_0_1_n_n.contr.Idx) :
    (Cert.KernelIdeal.dot_S10000x64_S64x64_S10000x64_1_0_0_1_n_n.rhsIdx i q 0).val = (q ⟨0, by decide⟩).val :=
  Cert.KernelIdeal.dot_S10000x64_S64x64_S10000x64_1_0_0_1_n_n.rhsIdx_val_of_single rfl i q
private theorem rhs_mm1_1 (i : S10000x64.Idx) (q : Cert.KernelIdeal.dot_S10000x64_S64x64_S10000x64_1_0_0_1_n_n.contr.Idx) :
    (Cert.KernelIdeal.dot_S10000x64_S64x64_S10000x64_1_0_0_1_n_n.rhsIdx i q 1).val = (i 1).val := by
  unfold DotDims.rhsIdx
  rw [dif_neg (show ¬(1 : Fin S64x64.rank) ∈ Cert.KernelIdeal.dot_S10000x64_S64x64_S10000x64_1_0_0_1_n_n.rhsBatch by decide), dif_pos (show (1 : Fin S64x64.rank) ∈ Cert.KernelIdeal.dot_S10000x64_S64x64_S10000x64_1_0_0_1_n_n.rhsNonContracting by decide)]
  rfl

private theorem lhs_mm2_0 (j : S64x64.Idx) (q : Cert.KernelIdeal.dot_S10000x64_S10000x64_S64x64_0_0_1_1_n_n.contr.Idx) :
    (Cert.KernelIdeal.dot_S10000x64_S10000x64_S64x64_0_0_1_1_n_n.lhsIdx j q 0).val = (q ⟨0, by decide⟩).val :=
  Cert.KernelIdeal.dot_S10000x64_S10000x64_S64x64_0_0_1_1_n_n.lhsIdx_val_of_single rfl j q
private theorem lhs_mm2_1 (j : S64x64.Idx) (q : Cert.KernelIdeal.dot_S10000x64_S10000x64_S64x64_0_0_1_1_n_n.contr.Idx) :
    (Cert.KernelIdeal.dot_S10000x64_S10000x64_S64x64_0_0_1_1_n_n.lhsIdx j q 1).val = (j 0).val := by
  unfold DotDims.lhsIdx
  rw [dif_neg (show ¬(1 : Fin S10000x64.rank) ∈ Cert.KernelIdeal.dot_S10000x64_S10000x64_S64x64_0_0_1_1_n_n.lhsBatch by decide), dif_pos (show (1 : Fin S10000x64.rank) ∈ Cert.KernelIdeal.dot_S10000x64_S10000x64_S64x64_0_0_1_1_n_n.lhsNonContracting by decide)]
  rfl
private theorem rhs_mm2_0 (j : S64x64.Idx) (q : Cert.KernelIdeal.dot_S10000x64_S10000x64_S64x64_0_0_1_1_n_n.contr.Idx) :
    (Cert.KernelIdeal.dot_S10000x64_S10000x64_S64x64_0_0_1_1_n_n.rhsIdx j q 0).val = (q ⟨0, by decide⟩).val :=
  Cert.KernelIdeal.dot_S10000x64_S10000x64_S64x64_0_0_1_1_n_n.rhsIdx_val_of_single rfl j q
private theorem rhs_mm2_1 (j : S64x64.Idx) (q : Cert.KernelIdeal.dot_S10000x64_S10000x64_S64x64_0_0_1_1_n_n.contr.Idx) :
    (Cert.KernelIdeal.dot_S10000x64_S10000x64_S64x64_0_0_1_1_n_n.rhsIdx j q 1).val = (j 1).val := by
  unfold DotDims.rhsIdx
  rw [dif_neg (show ¬(1 : Fin S10000x64.rank) ∈ Cert.KernelIdeal.dot_S10000x64_S10000x64_S64x64_0_0_1_1_n_n.rhsBatch by decide), dif_pos (show (1 : Fin S10000x64.rank) ∈ Cert.KernelIdeal.dot_S10000x64_S10000x64_S64x64_0_0_1_1_n_n.rhsNonContracting by decide)]
  rfl

/-- The first product into a zero accumulator, at entry (r, f): the sum over k of  A[r, k] · B[k, f]. -/
private theorem mm1_apply (A : FVec Ideal S10000x64 .bf16) (B : FVec Ideal S64x64 .bf16) (r : Fin 10000) (f : Fin 64) :
    matmul Cert.KernelIdeal.dot_S10000x64_S64x64_S10000x64_1_0_0_1_n_n none A B (constant (F := Ideal) S10000x64 .f32 0x00000000#32) (ix2 r f)
      = ∑ k : Fin 64, A (ix2 r k) * B (ix2 k f) := by
  refine (Ideal.matmul_constant_zero_apply Cert.KernelIdeal.dot_S10000x64_S64x64_S10000x64_1_0_0_1_n_n none A B (ix2 r f)).trans ?_
  rw [← Equiv.sum_comp (ValueIdx.contrEquiv1 Cert.KernelIdeal.dot_S10000x64_S64x64_S10000x64_1_0_0_1_n_n 64 rfl rfl).symm]
  refine Finset.sum_congr rfl fun k _ => ?_
  have hk := ValueIdx.contrEquiv1_symm_val Cert.KernelIdeal.dot_S10000x64_S64x64_S10000x64_1_0_0_1_n_n 64 rfl rfl k
  have el : Cert.KernelIdeal.dot_S10000x64_S64x64_S10000x64_1_0_0_1_n_n.lhsIdx (ix2 r f) ((ValueIdx.contrEquiv1 Cert.KernelIdeal.dot_S10000x64_S64x64_S10000x64_1_0_0_1_n_n 64 rfl rfl).symm k) = ix2 r k := funext fun a => Fin.ext (by
    match a with
    | ⟨0, _⟩ => exact lhs_mm1_0 _ _
    | ⟨1, _⟩ => exact (lhs_mm1_1 _ _).trans hk)
  have er : Cert.KernelIdeal.dot_S10000x64_S64x64_S10000x64_1_0_0_1_n_n.rhsIdx (ix2 r f) ((ValueIdx.contrEquiv1 Cert.KernelIdeal.dot_S10000x64_S64x64_S10000x64_1_0_0_1_n_n 64 rfl rfl).symm k) = ix2 k f := funext fun a => Fin.ext (by
    match a with
    | ⟨0, _⟩ => exact (rhs_mm1_0 _ _).trans hk
    | ⟨1, _⟩ => exact rhs_mm1_1 _ _)
  rw [el, er]

/-- The second product into a zero accumulator, at entry (g, f): the sum over the rows k of  A[k, g] · B[k, f]. -/
private theorem mm2_apply (A B : FVec Ideal S10000x64 .bf16) (g f : Fin 64) :
    matmul Cert.KernelIdeal.dot_S10000x64_S10000x64_S64x64_0_0_1_1_n_n none A B (constant (F := Ideal) S64x64 .f32 0x00000000#32) (ix2 g f)
      = ∑ k : Fin 10000, A (ix2 k g) * B (ix2 k f) := by
  refine (Ideal.matmul_constant_zero_apply Cert.KernelIdeal.dot_S10000x64_S10000x64_S64x64_0_0_1_1_n_n none A B (ix2 g f)).trans ?_
  rw [← Equiv.sum_comp (ValueIdx.contrEquiv1 Cert.KernelIdeal.dot_S10000x64_S10000x64_S64x64_0_0_1_1_n_n 10000 rfl rfl).symm]
  refine Finset.sum_congr rfl fun k _ => ?_
  have hk := ValueIdx.contrEquiv1_symm_val Cert.KernelIdeal.dot_S10000x64_S10000x64_S64x64_0_0_1_1_n_n 10000 rfl rfl k
  have el : Cert.KernelIdeal.dot_S10000x64_S10000x64_S64x64_0_0_1_1_n_n.lhsIdx (ix2 g f) ((ValueIdx.contrEquiv1 Cert.KernelIdeal.dot_S10000x64_S10000x64_S64x64_0_0_1_1_n_n 10000 rfl rfl).symm k) = ix2 k g := funext fun a => Fin.ext (by
    match a with
    | ⟨0, _⟩ => exact (lhs_mm2_0 _ _).trans hk
    | ⟨1, _⟩ => exact lhs_mm2_1 _ _)
  have er : Cert.KernelIdeal.dot_S10000x64_S10000x64_S64x64_0_0_1_1_n_n.rhsIdx (ix2 g f) ((ValueIdx.contrEquiv1 Cert.KernelIdeal.dot_S10000x64_S10000x64_S64x64_0_0_1_1_n_n 10000 rfl rfl).symm k) = ix2 k f := funext fun a => Fin.ext (by
    match a with
    | ⟨0, _⟩ => exact (rhs_mm2_0 _ _).trans hk
    | ⟨1, _⟩ => exact rhs_mm2_1 _ _)
  rw [el, er]

/-- A block's centred activation at row `r`, feature `f`. -/
def cenBlk (x0 x1 : Vec Ideal S10000x64 .f32) (x2 : Vec Ideal S64x64 .f32) (x3 : Vec Ideal S1x64 .f32)
    (r : Fin 10000) (f : Fin 64) : EReal :=
  x1 (ix2 r f) - x3 (ix2 0 f) * ∑ g' : Fin 64, x0 (ix2 r g') * x2 (ix2 g' f)

/-- The centred block as the payload spells it (the activations minus the broadcast scale row times the first product),
    read at (r, f). -/
private theorem cen_apply (x0 x1 : Vec Ideal S10000x64 .f32) (x2 : Vec Ideal S64x64 .f32) (x3 : Vec Ideal S1x64 .f32)
    (r : Fin 10000) (f : Fin 64) :
    subf x1 (mulf (broadcastTo S10000x64 x3 broadcasts_S1x64_S10000x64)
        (matmul Cert.KernelIdeal.dot_S10000x64_S64x64_S10000x64_1_0_0_1_n_n none (truncf .bf16 x0 bitsLt_bf16_f32) (truncf .bf16 x2 bitsLt_bf16_f32)
          (constant (F := Ideal) S10000x64 .f32 0x00000000#32))) (ix2 r f)
      = cenBlk x0 x1 x2 x3 r f := by
  unfold cenBlk
  refine congrArg (x1 (ix2 r f) - ·) ?_
  refine congrArg₂ (· * ·) ?_ ?_
  · exact broadcastTo_1b_ab_apply x3 broadcasts_S1x64_S10000x64 r f
  · exact mm1_apply (truncf .bf16 x0 bitsLt_bf16_f32) (truncf .bf16 x2 bitsLt_bf16_f32) r f

/-- The reset accumulator is zero everywhere. -/
theorem zero2_apply (g f : Fin 64) : zero2 (F := Ideal) (ix2 g f) = 0 := by
  unfold zero2 k2_pay1
  rw [shapeCast_self]
  -- a splat of the zero word, whose value is 0
  show Ideal.ofBits .f32 0x00000000#32 = 0
  exact Ideal.ofBits_zero_f32

/-- One point's update, entry by entry. -/
theorem step2_apply (x0 x1 : Vec Ideal S10000x64 .f32) (x2 : Vec Ideal S64x64 .f32) (x3 : Vec Ideal S1x64 .f32)
    (a : Vec Ideal S64x64 .f32) (g f : Fin 64) :
    step2 (F := Ideal) x0 x1 x2 x3 a (ix2 g f)
      = a (ix2 g f) + ∑ r : Fin 10000, x0 (ix2 r g) * (cenBlk x0 x1 x2 x3 r f * cenBlk x0 x1 x2 x3 r f) := by
  unfold step2 k2_pay2
  -- a cast to the same shape changes nothing
  simp only [shapeCast_self]
  -- the accumulator's entry plus the second product's entry
  refine congrArg (a (ix2 g f) + ·) ?_
  refine (mm2_apply _ _ g f).trans ?_
  refine Finset.sum_congr rfl fun r _ => ?_
  -- a change of float format is the identity; the right factor is the square of the centred block
  have hc := cen_apply x0 x1 x2 x3 r f
  exact congrArg (x0 (ix2 r g) * ·) (congrArg₂ (· * ·) hc hc)

end Cert.KernelIdeal.Val

end
-- ==== Proof.KI.Val2.lean ====
/-
  Region 2's output array after the region: the per-graph sums of the squared centred activations.

  The grid walks the 50000 nodes in five blocks of 10000 rows. The accumulator starts at zero and after point t holds,
  at entry (g, f), the sum over the rows below 10000·(t + 1) of  indicator[row, g] · centred[row, f]²  — by induction on
  the point, each point adding its own block's rows, a block's row r being the arrays' row 10000·t + r (the means and
  the mean scale are whole at every point). After the last point that is the sum over all rows, and the one write-back
  (after the last point, of the whole 64×64 block) puts it in the output array.
-/
import proofs.«420247_j44633300140134_1_alg».proof.Proof.KI.Val2Pay
import proofs.«420247_j44633300140134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The arrays and the blocks, at their literal types -/

/-- The indicator, the activations, the means and the mean scale as the region finds them. -/
abbrev oA2 (c : Dev nD) : S50000x64.Idx → EReal := V c main_v53
abbrev aA2 (c : Dev nD) : S50000x64.Idx → EReal := V c main_v46
abbrev mA2 (c : Dev nD) : S64x64.Idx → EReal := V c main_v61
abbrev sA2 (c : Dev nD) : S1x64.Idx → EReal := V c main_v57

/-- Their blocks at point `t`. -/
abbrev oB2 (c : Dev nD) (t : Fin cfg2.N) : Vec Ideal S10000x64 .f32 := iblk2 V c 0 t
abbrev aB2 (c : Dev nD) (t : Fin cfg2.N) : Vec Ideal S10000x64 .f32 := iblk2 V c 1 t
abbrev mB2 (c : Dev nD) (t : Fin cfg2.N) : Vec Ideal S64x64 .f32 := iblk2 V c 2 t
abbrev sB2 (c : Dev nD) (t : Fin cfg2.N) : Vec Ideal S1x64 .f32 := iblk2 V c 3 t

/-! ## Where a block's entry sits in its array -/

/-- The block indices, decided over the grid: the node-indexed windows move one block of rows per point, the others stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r` of the indicator's block at point `t` is the array's row `10000·t + r`. -/
theorem oB2_apply (c : Dev nD) (t : Fin cfg2.N) (r : Fin 10000) (g : Fin 64) (R : Fin 50000)
    (hR : R.val = t.val * 10000 + r.val) : oB2 V c t (ix2 r g) = oA2 V c (ix2 R g) := by
  obtain ⟨e0, e1, -⟩ := idx_facts2 t
  show V c main_v53 (((cfg2.win 0).blk t).view.emb (ix2 r g)) = V c main_v53 (ix2 R g)
  refine congrArg (V c main_v53) (funext fun a => Fin.ext ?_)
  match a with
  | ⟨0, _⟩ => show win2_0.index t (0 : Fin 2) * 10000 + 1 * r.val = R.val; omega
  | ⟨1, _⟩ => show win2_0.index t (1 : Fin 2) * 64 + 1 * g.val = g.val; omega

/-- The same for the activations. -/
theorem aB2_apply (c : Dev nD) (t : Fin cfg2.N) (r : Fin 10000) (f : Fin 64) (R : Fin 50000)
    (hR : R.val = t.val * 10000 + r.val) : aB2 V c t (ix2 r f) = aA2 V c (ix2 R f) := by
  obtain ⟨-, -, e0, e1, -⟩ := idx_facts2 t
  show V c main_v46 (((cfg2.win 1).blk t).view.emb (ix2 r f)) = V c main_v46 (ix2 R f)
  refine congrArg (V c main_v46) (funext fun a => Fin.ext ?_)
  match a with
  | ⟨0, _⟩ => show win2_1.index t (0 : Fin 2) * 10000 + 1 * r.val = R.val; omega
  | ⟨1, _⟩ => show win2_1.index t (1 : Fin 2) * 64 + 1 * f.val = f.val; omega

/-- The means' block is the whole table at every point. -/
theorem mB2_apply (c : Dev nD) (t : Fin cfg2.N) (g f : Fin 64) : mB2 V c t (ix2 g f) = mA2 V c (ix2 g f) := by
  obtain ⟨-, -, -, -, e0, e1, -⟩ := idx_facts2 t
  show V c main_v61 (((cfg2.win 2).blk t).view.emb (ix2 g f)) = V c main_v61 (ix2 g f)
  refine congrArg (V c main_v61) (funext fun a => Fin.ext ?_)
  match a with
  | ⟨0, _⟩ => show win2_2.index t (0 : Fin 2) * 64 + 1 * g.val = g.val; omega
  | ⟨1, _⟩ => show win2_2.index t (1 : Fin 2) * 64 + 1 * f.val = f.val; omega

/-- So is the mean scale's. -/
theorem sB2_apply (c : Dev nD) (t : Fin cfg2.N) (f : Fin 64) : sB2 V c t (ix2 0 f) = sA2 V c (ix2 0 f) := by
  obtain ⟨-, -, -, -, -, -, e0, e1, -⟩ := idx_facts2 t
  show V c main_v57 (((cfg2.win 3).blk t).view.emb (ix2 (0 : Fin 1) f)) = V c main_v57 (ix2 (0 : Fin 1) f)
  refine congrArg (V c main_v57) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 64 + 1 * f.val = f.val; omega

/-- A block's centred activation is the arrays' at the block's row. -/
theorem cenBlk2_eq (c : Dev nD) (t : Fin cfg2.N) (r : Fin 10000) (f : Fin 64) (R : Fin 50000)
    (hR : R.val = t.val * 10000 + r.val) :
    cenBlk (oB2 V c t) (aB2 V c t) (mB2 V c t) (sB2 V c t) r f
      = Cert.Spec.centered (oA2 V c) (aA2 V c) (mA2 V c) (sA2 V c) (ix2 R f) := by
  show aB2 V c t (ix2 r f) - sB2 V c t (ix2 0 f) * ∑ g' : Fin 64, oB2 V c t (ix2 r g') * mB2 V c t (ix2 g' f)
    = aA2 V c (ix2 R f) - sA2 V c (ix2 0 f) * ∑ g' : Fin 64, oA2 V c (ix2 R g') * mA2 V c (ix2 g' f)
  rw [aB2_apply V c t r f R hR, sB2_apply V c t f]
  refine congrArg (fun s => aA2 V c (ix2 R f) - sA2 V c (ix2 0 f) * s) (Finset.sum_congr rfl fun g' _ => ?_)
  rw [oB2_apply V c t r g' R hR, mB2_apply V c t g' f]

/-! ## The sum over the nodes, row by row -/

/-- Row `k`'s contribution to entry (g, f) of the result; nothing past the last row. -/
def rowTerm2 (o a : S50000x64.Idx → EReal) (mean : S64x64.Idx → EReal) (gms : S1x64.Idx → EReal) (g f : Fin 64) (k : ℕ) : EReal :=
  if h : k < 50000 then
    o (ix2 ⟨k, h⟩ g) * (Cert.Spec.centered o a mean gms (ix2 ⟨k, h⟩ f) * Cert.Spec.centered o a mean gms (ix2 ⟨k, h⟩ f))
  else 0

/-- The specification's entry is the sum of all rows' contributions. -/
theorem varsum_eq_range2 (o a : S50000x64.Idx → EReal) (mean : S64x64.Idx → EReal) (gms : S1x64.Idx → EReal) (g f : Fin 64) :
    Cert.Spec.varsum o a mean gms (ix2 g f) = ∑ k ∈ Finset.range 50000, rowTerm2 o a mean gms g f k := by
  rw [Finset.sum_range]
  show ∑ n : Fin 50000, o (ix2 n g) * (Cert.Spec.centered o a mean gms (ix2 n f) * Cert.Spec.centered o a mean gms (ix2 n f)) = _
  refine Finset.sum_congr rfl fun n _ => ?_
  unfold rowTerm2; rw [dif_pos n.isLt]

/-- One point's addend is the contributions of its block's rows. -/
theorem block_sum2 (c : Dev nD) (t : Fin cfg2.N) (g f : Fin 64) :
    ∑ r : Fin 10000, oB2 V c t (ix2 r g)
        * (cenBlk (oB2 V c t) (aB2 V c t) (mB2 V c t) (sB2 V c t) r f * cenBlk (oB2 V c t) (aB2 V c t) (mB2 V c t) (sB2 V c t) r f)
      = ∑ r ∈ Finset.range 10000, rowTerm2 (oA2 V c) (aA2 V c) (mA2 V c) (sA2 V c) g f (t.val * 10000 + r) := by
  rw [Finset.sum_range]
  refine Finset.sum_congr rfl fun r _ => ?_
  have hN : cfg2.N = 5 := N_2
  have hR : t.val * 10000 + r.val < 50000 := by have := t.isLt; have := r.isLt; omega
  unfold rowTerm2; rw [dif_pos hR]
  rw [oB2_apply V c t r g ⟨_, hR⟩ rfl, cenBlk2_eq V c t r f ⟨_, hR⟩ rfl]

/-! ## The accumulator after each point -/

/-- After point `n` the accumulator holds the contributions of the rows below `10000·(n + 1)`. -/
theorem acc2_eq (c : Dev nD) : ∀ (n : ℕ) (hn : n < cfg2.N) (g f : Fin 64),
    acc2 (F := Ideal) V c n hn (ix2 g f)
      = ∑ k ∈ Finset.range ((n + 1) * 10000), rowTerm2 (oA2 V c) (aA2 V c) (mA2 V c) (sA2 V c) g f k
  | 0, hn, g, f => by
    rw [show acc2 (F := Ideal) V c 0 hn
      = step2 (oB2 V c ⟨0, hn⟩) (aB2 V c ⟨0, hn⟩) (mB2 V c ⟨0, hn⟩) (sB2 V c ⟨0, hn⟩) (zero2 (F := Ideal)) from rfl]
    refine (step2_apply (oB2 V c ⟨0, hn⟩) (aB2 V c ⟨0, hn⟩) (mB2 V c ⟨0, hn⟩) (sB2 V c ⟨0, hn⟩) (zero2 (F := Ideal)) g f).trans ?_
    rw [zero2_apply, zero_add, block_sum2 V c ⟨0, hn⟩ g f]
    show ∑ r ∈ Finset.range 10000, rowTerm2 (oA2 V c) (aA2 V c) (mA2 V c) (sA2 V c) g f (0 * 10000 + r) = _
    rw [show (0 + 1) * 10000 = 10000 from rfl]
    exact Finset.sum_congr rfl fun r _ => by rw [Nat.zero_mul, Nat.zero_add]
  | n + 1, hn, g, f => by
    rw [show acc2 (F := Ideal) V c (n + 1) hn
      = step2 (oB2 V c ⟨n + 1, hn⟩) (aB2 V c ⟨n + 1, hn⟩) (mB2 V c ⟨n + 1, hn⟩) (sB2 V c ⟨n + 1, hn⟩)
          (acc2 (F := Ideal) V c n (Nat.lt_of_succ_lt hn)) from rfl]
    refine (step2_apply (oB2 V c ⟨n + 1, hn⟩) (aB2 V c ⟨n + 1, hn⟩) (mB2 V c ⟨n + 1, hn⟩) (sB2 V c ⟨n + 1, hn⟩)
      (acc2 (F := Ideal) V c n (Nat.lt_of_succ_lt hn)) g f).trans ?_
    rw [acc2_eq c n (Nat.lt_of_succ_lt hn) g f, block_sum2 V c ⟨n + 1, hn⟩ g f,
      show (n + 1 + 1) * 10000 = (n + 1) * 10000 + 10000 from Nat.succ_mul _ _, Finset.sum_range_add]

/-- After the last point it holds the specification's sums. -/
theorem acc2_last (c : Dev nD) (h : 4 < cfg2.N) :
    acc2 (F := Ideal) V c 4 h = Cert.Spec.varsum (oA2 V c) (aA2 V c) (mA2 V c) (sA2 V c) := by
  funext j
  obtain ⟨g, f, rfl⟩ : ∃ (g f : Fin 64), j = ix2 g f := ⟨j 0, j 1, eq_ix2 j⟩
  rw [acc2_eq V c 4 h g f, varsum_eq_range2]

/-! ## The output array -/

/-- The one write-back, after the last point, writes the whole table: the accumulator's contents then. -/
theorem flushed2_eq (c : Dev nD) (t : Fin cfg2.N) (hf : (cfg2.win 4).flush t = true) :
    (dat2 (F := Ideal) V c).flushed 4 t
      = ((cfg2.win 4).blk t).view.read (Elt Ideal) (Cert.Spec.varsum (oA2 V c) (aA2 V c) (mA2 V c) (sA2 V c)) := by
  have hN : cfg2.N = 5 := N_2
  have h4 : t.val = 4 := by have := (flush2_4 t).mp hf; have := t.isLt; omega
  obtain rfl : t = t2_4 := Fin.ext h4
  show (cfg2.win 4).cut (grid2.coords t2_4) ((dat2 (F := Ideal) V c).after 4 t2_4) = _
  rw [after2_out, show acc2 (F := Ideal) V c t2_4.val t2_4.isLt = _ from acc2_last V c t2_4.isLt]
  have hz' : (fun a => win2_4.index t2_4 a * main_v62.ty.shape.size a) = fun _ => 0 := funext fun a => by fin_cases a <;> decide
  exact (Memref.read_access_unit_zero (Elt Ideal) main_v62 hz' (fun a => by rw [congrFun hz' a]; simp)
    (Cert.Spec.varsum (oA2 V c) (aA2 V c) (mA2 V c) (sA2 V c))).symm

/-- After region 2 its output array holds the per-graph sums of the squared centred activations. -/
theorem val2 (c : Dev nD) :
    (dat2 (F := Ideal) V c).arrAt 4 cfg2.N = Cert.Spec.varsum (V c main_v53) (V c main_v46) (V c main_v61) (V c main_v57) :=
  (dat2 (F := Ideal) V c).arrAt_eq_of_cover 4 (Cert.Spec.varsum (oA2 V c) (aA2 V c) (mA2 V c) (sA2 V c))
    (flushed2_eq V c) fun i =>
    ⟨t2_4, (flush2_4 t2_4).mpr rfl, by
      show i ∈ ((View.whole main_v62).slice (win2_4.rect t2_4)).set
      rw [View.set_slice_whole, Rect.mem_set_unit]
      intro a
      have h0 : (i 0 : Nat) < 64 := (i 0).isLt
      have h1 : (i 1 : Nat) < 64 := (i 1).isLt
      match a with
      | ⟨0, _⟩ =>
        show win2_4.index t2_4 0 * win2_4.size 0 ≤ (i 0 : Nat) ∧ (i 0 : Nat) < win2_4.index t2_4 0 * win2_4.size 0 + win2_4.xsize (grid2.coords t2_4) 0
        rw [show win2_4.index t2_4 0 * win2_4.size 0 = 0 from by decide +kernel, show win2_4.xsize (grid2.coords t2_4) 0 = 64 from by decide +kernel]; omega
      | ⟨1, _⟩ =>
        show win2_4.index t2_4 1 * win2_4.size 1 ≤ (i 1 : Nat) ∧ (i 1 : Nat) < win2_4.index t2_4 1 * win2_4.size 1 + win2_4.xsize (grid2.coords t2_4) 1
        rw [show win2_4.index t2_4 1 * win2_4.size 1 = 0 from by decide +kernel, show win2_4.xsize (grid2.coords t2_4) 1 = 64 from by decide +kernel]; omega⟩

end Cert.KernelIdeal.Val

end
-- ==== Proof.KI.Val3.lean ====
import proofs.«420247_j44633300140134_1_alg».proof.Proof.KI.Reg3
import proofs.«420247_j44633300140134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! # Region 3, read index by index

The body computes, for a block of 10000 node rows, two products of the membership indicator with a per-graph table
(the means and the variances: each node receives its graph's row), centres the activations by the scaled mean row,
multiplies by the reciprocal square root of the variance row plus the floor, rescales, shifts and rectifies.  Every
step but the two products is pointwise; a product's entry is a sum over the 64 graphs. -/

/-! ## The product's index maps

Output entry (p, q) of the product pairs left entry (p, g) with right entry (g, q), g running over the contracted axis. -/

theorem lhs3_0 (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs3_1 (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
theorem rhs3_0 (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
theorem rhs3_1 (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into a zero accumulator, at entry (p, q): the sum over the graphs g of left (p, g) times right (g, q). -/
theorem mm3_apply {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ g : Fin 64, l (ix2 p g) * r (ix2 g q) := by
  show FloatOps.matmul dot_S10000x64_S64x64_S10000x64_1_0_0_1_n_n none l r (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun g _ => ?_
  have hg := contrEquiv1_symm_val dot_S10000x64_S64x64_S10000x64_1_0_0_1_n_n 64 rfl rfl g
  have el : dot_S10000x64_S64x64_S10000x64_1_0_0_1_n_n.lhsIdx (ix2 p q) ((contrEquiv1 dot_S10000x64_S64x64_S10000x64_1_0_0_1_n_n 64 rfl rfl).symm g) = ix2 p g := funext fun a => Fin.ext (by
    match a with
    | ⟨0, _⟩ => exact lhs3_0 _ _
    | ⟨1, _⟩ => exact (lhs3_1 _ _).trans hg)
  have er : dot_S10000x64_S64x64_S10000x64_1_0_0_1_n_n.rhsIdx (ix2 p q) ((contrEquiv1 dot_S10000x64_S64x64_S10000x64_1_0_0_1_n_n 64 rfl rfl).symm g) = ix2 g q := funext fun a => Fin.ext (by
    match a with
    | ⟨0, _⟩ => exact (rhs3_0 _ _).trans hg
    | ⟨1, _⟩ => exact rhs3_1 _ _)
  rw [el, er]

/-- A parameter row handed to every node row: entry (p, q) of the broadcast is entry (0, q) of the row. -/
theorem bcast3_apply (v : FVec Ideal S1x64 .f32) (p : Fin 10000) (q : Fin 64) :
    broadcastTo S10000x64 v broadcasts_S1x64_S10000x64 (ix2 p q) = v (ix2 0 q) :=
  broadcastTo_apply v broadcasts_S1x64_S10000x64 (ix2 p q) (ix2 0 q) (fun a => by
    match a with
    | ⟨0, _⟩ => rfl
    | ⟨1, _⟩ => rfl)

/-- The reciprocal square root is taken entry by entry. -/
theorem rsqrt3_apply {s : Shape} {φ : FTy} (x : FVec Ideal s φ) (i : s.Idx) : rsqrt x i = Ideal.rsqrt (x i) := rfl

/-- The body's stored value at entry (p, q) of the block, from the entries of the seven loaded blocks. -/
theorem pay3_apply (v0 v11 : Vec Ideal S10000x64 .f32) (v3 v6 : Vec Ideal S64x64 .f32) (v13 v15 v17 : Vec Ideal S1x64 .f32)
    (p : Fin 10000) (q : Fin 64) :
    k3_pay1 v0 v3 v6 v11 v13 v15 v17 (ix2 p q)
      = max (v15 (ix2 0 q) * ((v11 (ix2 p q) - v13 (ix2 0 q) * ∑ g : Fin 64, v0 (ix2 p g) * v3 (ix2 g q))
            * Ideal.rsqrt ((∑ g : Fin 64, v0 (ix2 p g) * v6 (ix2 g q)) + Cert.Spec.eps)) + v17 (ix2 0 q))
          (Ideal.ofBits .f32 0x00000000#32) := by
  unfold k3_pay1
  simp only [shapeCast_self]
  rw [maximumf_apply, addf_apply, mulf_apply, mulf_apply, subf_apply, mulf_apply]
  rw [bcast3_apply, bcast3_apply, bcast3_apply, mm3_apply]
  rw [rsqrt3_apply, addf_apply, mm3_apply]
  rfl

/-! ## One block of rows

Let a block of 10000 node rows sit in the node arrays at the rows `row p`.  If the two node blocks the body loads are
those rows of the indicator and of the activations, and the five small blocks are the whole tables and parameter
rows, then what the body stores at (p, q) is the normalised result at (row p, q): the two products are the node's
graph's row of the mean and of the variance table, and the rest is the same pointwise expression. -/

theorem blk3_apply (o a : Vec Ideal S50000x64 .f32) (mean var : Vec Ideal S64x64 .f32) (gw gb gms : Vec Ideal S1x64 .f32)
    (x0 x1 : Vec Ideal S10000x64 .f32) (x2 x3 : Vec Ideal S64x64 .f32) (x4 x5 x6 : Vec Ideal S1x64 .f32)
    (row : Fin 10000 → Fin 50000)
    (h0 : ∀ (p : Fin 10000) (g : Fin 64), x0 (ix2 p g) = o (ix2 (row p) g))
    (h1 : ∀ (p : Fin 10000) (q : Fin 64), x1 (ix2 p q) = a (ix2 (row p) q))
    (h2 : x2 = mean) (h3 : x3 = var) (h4 : x4 = gw) (h5 : x5 = gb) (h6 : x6 = gms)
    (p : Fin 10000) (q : Fin 64) :
    k3_pay1 x0 x2 x3 x1 x6 x4 x5 (ix2 p q) = Cert.Spec.fin o a mean var gw gb gms (ix2 (row p) q) := by
  subst h2; subst h3; subst h4; subst h5; subst h6
  rw [pay3_apply]
  simp only [h0, h1]
  rfl

/-! ## Where the blocks sit

The grid has five points; at point t the indicator's, the activations' and the output's blocks are block t of the
node axis (rows 10000·t … 10000·t + 9999, all 64 columns), and each of the five small windows is its whole array. -/

theorem hz3 : (![0, 0] : Fin 2 → Nat) = fun _ => 0 := funext fun a => by fin_cases a <;> rfl

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The result array, as one function of the region-entry arrays. -/
abbrev G3 (c : Dev nD) : S50000x64.Idx → EReal :=
  Cert.Spec.fin (V c main_v53) (V c main_v46) (V c main_v61) (V c main_v65) (V c main_v55) (V c main_v56) (V c main_v57)

/-- What point t writes back is block t of the result. -/
theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7]
  unfold out3
  rw [View.canon_unit_zero hz3]
  simp only [View.ld_unit_zero (S := S10000x64) hz3, View.ld_unit_zero (S := S64x64) hz3, View.ld_unit_zero (S := S1x64) hz3]
  obtain ⟨a0, a1, b0, b1, c0, c1, d0, d1, e0, e1, f0, f1, g0, g1, o0, o1⟩ := idx3 t
  have ht : t.val < 5 := lt_of_lt_of_eq t.isLt N_3
  funext j
  obtain ⟨p, q, rfl⟩ : ∃ (p : Fin 10000) (q : Fin 64), j = ix2 p q := ⟨j 0, j 1, eq_ix2 j⟩
  show k3_pay1 (iblk3 V c 0 t) (iblk3 V c 2 t) (iblk3 V c 3 t) (iblk3 V c 1 t) (iblk3 V c 6 t) (iblk3 V c 4 t) (iblk3 V c 5 t) (ix2 p q)
    = G3 V c (((cfg3.win 7).blk t).view.emb (ix2 p q))
  refine (blk3_apply (V c main_v53) (V c main_v46) (V c main_v61) (V c main_v65) (V c main_v55) (V c main_v56) (V c main_v57)
    (iblk3 V c 0 t) (iblk3 V c 1 t) (iblk3 V c 2 t) (iblk3 V c 3 t) (iblk3 V c 4 t) (iblk3 V c 5 t) (iblk3 V c 6 t)
    (fun p => ⟨t.val * 10000 + p.val, by have := p.isLt; omega⟩) ?_ ?_ ?_ ?_ ?_ ?_ ?_ p q).trans ?_
  · intro p g
    show V c main_v53 (((cfg3.win 0).blk t).view.emb (ix2 p g)) = _
    refine congrArg (V c main_v53) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * g.val = g.val; omega
  · intro p q
    show V c main_v46 (((cfg3.win 1).blk t).view.emb (ix2 p q)) = _
    refine congrArg (V c main_v46) (funext fun a => Fin.ext ?_)
    match a with
    | ⟨0, _⟩ => show win3_1.index t (0 : Fin 2) * 10000 + 1 * p.val = t.val * 10000 + p.val; omega
    | ⟨1, _⟩ => show win3_1.index t (1 : Fin 2) * 64 + 1 * q.val = q.val; omega
  · funext y
    show V c main_v61 (((cfg3.win 2).blk t).view.emb y) = V c main_v61 y
    refine congrArg (V c main_v61) (funext fun a => Fin.ext ?_)
    match a with
    | ⟨0, _⟩ => show win3_2.index t (0 : Fin 2) * 64 + 1 * (y 0).val = (y 0).val; omega
    | ⟨1, _⟩ => show win3_2.index t (1 : Fin 2) * 64 + 1 * (y 1).val = (y 1).val; omega
  · funext y
    show V c main_v65 (((cfg3.win 3).blk t).view.emb y) = V c main_v65 y
    refine congrArg (V c main_v65) (funext fun a => Fin.ext ?_)
    match a with
    | ⟨0, _⟩ => show win3_3.index t (0 : Fin 2) * 64 + 1 * (y 0).val = (y 0).val; omega
    | ⟨1, _⟩ => show win3_3.index t (1 : Fin 2) * 64 + 1 * (y 1).val = (y 1).val; omega
  · funext y
    show V c main_v55 (((cfg3.win 4).blk t).view.emb y) = V c main_v55 y
    refine congrArg (V c main_v55) (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega
  · funext y
    show V c main_v56 (((cfg3.win 5).blk t).view.emb y) = V c main_v56 y
    refine congrArg (V c main_v56) (funext fun a => Fin.ext ?_)
    match a with
    | ⟨0, _⟩ => show win3_5.index t (0 : Fin 2) * 1 + 1 * (y 0).val = (y 0).val; omega
    | ⟨1, _⟩ => show win3_5.index t (1 : Fin 2) * 64 + 1 * (y 1).val = (y 1).val; omega
  · funext y
    show V c main_v57 (((cfg3.win 6).blk t).view.emb y) = V c main_v57 y
    refine congrArg (V c main_v57) (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega
  · refine congrArg (G3 V c) (funext fun a => Fin.ext ?_)
    match a with
    | ⟨0, _⟩ => show t.val * 10000 + p.val = win3_7.index t (0 : Fin 2) * 10000 + 1 * p.val; omega
    | ⟨1, _⟩ => show q.val = win3_7.index t (1 : Fin 2) * 64 + 1 * q.val; omega

/-! ## The blocks fill the array -/

/-- An index of the output array lies in point t's block when each coordinate is in the block's range on its axis. -/
theorem mem_blk3 (t : Fin cfg3.N) (i : S50000x64.Idx) :
    i ∈ ((cfg3.win 7).blk t).view.set ↔ ∀ a : Fin 2, win3_7.index t a * S10000x64.size a ≤ (i a).val ∧ (i a).val < win3_7.index t a * S10000x64.size a + S10000x64.size a := by
  show i ∈ ((View.whole main_v66).slice (win3_7.rect t)).set ↔ _
  rw [View.set_slice_whole, Rect.mem_set_unit]
  exact Iff.rfl

/-- Row r of the output lies in the block of point r / 10000, which is written back like every point's. -/
theorem rows_covered3 (i : S50000x64.Idx) :
    ∃ t : Fin cfg3.N, (cfg3.win 7).flush t = true ∧ i ∈ ((cfg3.win 7).blk t).view.set := by
  have hi0 : (i 0).val < 50000 := (i 0).isLt
  have hi1 : (i 1).val < 64 := (i 1).isLt
  obtain ⟨t, ht⟩ : ∃ t : Fin cfg3.N, t.val = (i 0).val / 10000 :=
    ⟨⟨(i 0).val / 10000, lt_of_lt_of_eq (by omega : (i 0).val / 10000 < 5) N_3.symm⟩, rfl⟩
  obtain ⟨a0, a1, b0, b1, c0, c1, d0, d1, e0, e1, f0, f1, g0, g1, o0, o1⟩ := idx3 t
  refine ⟨t, flush3_7 t, ?_⟩
  rw [mem_blk3]
  intro a
  match a with
  | ⟨0, _⟩ => show win3_7.index t (0 : Fin 2) * 10000 ≤ (i 0).val ∧ (i 0).val < win3_7.index t (0 : Fin 2) * 10000 + 10000; omega
  | ⟨1, _⟩ => show win3_7.index t (1 : Fin 2) * 64 ≤ (i 1).val ∧ (i 1).val < win3_7.index t (1 : Fin 2) * 64 + 64; omega

/-- After region 3 its output array is the normalised, rescaled, shifted and rectified activations. -/
theorem val3 (c : Dev nD) :
    (dat3 (F := Ideal) V c).arrAt 7 cfg3.N
      = Cert.Spec.fin (V c main_v53) (V c main_v46) (V c main_v61) (V c main_v65) (V c main_v55) (V c main_v56) (V c main_v57) :=
  (dat3 (F := Ideal) V c).arrAt_eq_of_cover 7 (G3 V c) (fun t _ => flushed3_eq V c t) (fun i => rows_covered3 i)

end Cert.KernelIdeal.Val

end
-- ==== Proof.RefAgg.lean ====
/-
  The reference read as three functions.  Its @main first forms the dense product `h = x·W`, then AGGREGATES `h`
  over the edges (degree normalisation, gather, scatter-add, bias) into the activations `a`, then NORMALISES `a`
  per graph.  `agg` is the aggregation as one function of `h`, the bias and the edge list; `tail` the
  normalisation as one function of `a`, the three parameter vectors and the label vector.  Both are spelt over the
  reference's own stages, so that the reference's result is `tail (agg (x·W) …) …` by unfolding definitions.
-/
import proofs.«420247_j44633300140134_1_alg».proof.Proof.RefRead
import proofs.«420247_j44633300140134_1_alg».proof.Proof.Spec

noncomputable section

namespace Cert.ReferenceIdeal.RefVal

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The aggregation: each node sums its neighbours' (and its own) transformed features, weighted by the symmetric
    degree normalisation, and adds the bias. -/
def agg (h : (⟨S50000x64, .f32⟩ : BufTy).Contents (Elt F)) (x2 : (⟨S64, .f32⟩ : BufTy).Contents (Elt F)) (x6 : (⟨S2x800000, .i32⟩ : BufTy).Contents (Elt F)) : (⟨S50000x64, .f32⟩ : BufTy).Contents (Elt F) :=
  addf (Host.scatterAdd scatter_S50000x64_S850000x1_S850000x64_1_0_0_1 (val_main_v41 (F := F)) (val_main_v42 (F := F) x6)
      (mulf (val_main_v39 (F := F) x6) (Host.gather gather_S50000x64_S850000x1_S850000x64_1_0_n_n_0_1_164 h (val_main_v37 (F := F) x6))))
    (val_main_v45 (F := F) x2)

/-- The reference's activations are the aggregation of its dense product. -/
theorem v46_eq (x0 : (⟨S50000x64, .f32⟩ : BufTy).Contents (Elt F)) (x1 : (⟨S64x64, .f32⟩ : BufTy).Contents (Elt F)) (x2 : (⟨S64, .f32⟩ : BufTy).Contents (Elt F)) (x6 : (⟨S2x800000, .i32⟩ : BufTy).Contents (Elt F)) :
    val_main_v46 (F := F) x0 x1 x2 x6 = agg (val_main_v7 (F := F) x0 x1) x2 x6 := by
  -- the sum stage, the scatter stage, the product stage and the gather stage opened once each; the leaves stay closed
  unfold val_main_v46 val_main_v43 val_main_v40 val_main_v38 agg
  rfl

/-- Per-graph means of the activations `a`: scatter-add by label, divided by the graph sizes. -/
def tmean (a : (⟨S50000x64, .f32⟩ : BufTy).Contents (Elt F)) (x7 : (⟨S50000, .i32⟩ : BufTy).Contents (Elt F)) : (⟨S64x64, .f32⟩ : BufTy).Contents (Elt F) :=
  Host.divf (Host.scatterAdd scatter_S64x64_S50000x1_S50000x64_1_0_0_1 (val_main_v52 (F := F)) (val_main_v53 (F := F) x7) a) (val_main_v55 (F := F) x7)

/-- Activations minus the scaled mean of the node's graph (gathered by label). -/
def tcen (a : (⟨S50000x64, .f32⟩ : BufTy).Contents (Elt F)) (x5 : (⟨S64, .f32⟩ : BufTy).Contents (Elt F)) (x7 : (⟨S50000, .i32⟩ : BufTy).Contents (Elt F)) : (⟨S50000x64, .f32⟩ : BufTy).Contents (Elt F) :=
  subf a (mulf (val_main_v65 (F := F) x5) (Host.gather gather_S64x64_S50000x1_S50000x64_1_0_n_n_0_1_164 (tmean a x7) (val_main_v62 (F := F) x7)))

/-- Per-graph variances: scatter-add of the squared centred activations, divided by the graph sizes. -/
def tvar (a : (⟨S50000x64, .f32⟩ : BufTy).Contents (Elt F)) (x5 : (⟨S64, .f32⟩ : BufTy).Contents (Elt F)) (x7 : (⟨S50000, .i32⟩ : BufTy).Contents (Elt F)) : (⟨S64x64, .f32⟩ : BufTy).Contents (Elt F) :=
  Host.divf (Host.scatterAdd scatter_S64x64_S50000x1_S50000x64_1_0_0_1 (val_main_v69 (F := F)) (val_main_v70 (F := F) x7) (mulf (tcen a x5 x7) (tcen a x5 x7))) (val_main_v72 (F := F) x7)

/-- The normalisation: centre, divide by the root of the graph's variance plus the floor, rescale, shift, rectify. -/
def tail (a : (⟨S50000x64, .f32⟩ : BufTy).Contents (Elt F)) (x3 x4 x5 : (⟨S64, .f32⟩ : BufTy).Contents (Elt F)) (x7 : (⟨S50000, .i32⟩ : BufTy).Contents (Elt F)) : (⟨S50000x64, .f32⟩ : BufTy).Contents (Elt F) :=
  maximumf (addf (mulf (val_main_v86 (F := F) x3)
      (mulf (tcen a x5 x7) (Host.rsqrt (addf (Host.gather gather_S64x64_S50000x1_S50000x64_1_0_n_n_0_1_164 (tvar a x5 x7) (val_main_v79 (F := F) x7)) (val_main_v81 (F := F))))))
    (val_main_v89 (F := F) x4)) (val_main_call1_v0 (F := F))

/-- The reference's result is the normalisation of its activations. -/
theorem v91_eq (x0 : (⟨S50000x64, .f32⟩ : BufTy).Contents (Elt F)) (x1 : (⟨S64x64, .f32⟩ : BufTy).Contents (Elt F)) (x2 x3 x4 x5 : (⟨S64, .f32⟩ : BufTy).Contents (Elt F)) (x6 : (⟨S2x800000, .i32⟩ : BufTy).Contents (Elt F)) (x7 : (⟨S50000, .i32⟩ : BufTy).Contents (Elt F)) :
    val_main_v91 (F := F) x0 x1 x2 x3 x4 x5 x6 x7 = tail (val_main_v46 (F := F) x0 x1 x2 x6) x3 x4 x5 x7 := by
  -- every stage from the rectifier down to the first per-graph sum opened once; the activations stay one closed term
  unfold val_main_v91 val_main_v90 val_main_v87 val_main_v84 val_main_v83 val_main_v82 val_main_v80 val_main_v73
    val_main_v71 val_main_v68 val_main_v67 val_main_v66 val_main_v63 val_main_v56 val_main_v54
  generalize val_main_v46 (F := F) x0 x1 x2 x6 = a
  unfold tail tvar tcen tmean
  rfl

/-- At the extended reals the reference's `dot_general` is the dense product. -/
theorem v7_lin (x0 : (⟨S50000x64, .f32⟩ : BufTy).Contents (Elt Ideal)) (x1 : (⟨S64x64, .f32⟩ : BufTy).Contents (Elt Ideal)) :
    val_main_v7 (F := Ideal) x0 x1 = Cert.Spec.lin x0 x1 := by
  funext i
  rw [val_main_v7_apply]
  unfold Cert.Spec.lin
  refine Finset.sum_congr rfl fun k _ => ?_
  -- the left factor is read at (row of i, k), the right factor at (k, column of i)
  have el : lidx_main_v7 i k = ValueIdx.ix2 (i 0) k :=
    funext fun a => match a with | ⟨0, _⟩ => rfl | ⟨1, _⟩ => rfl
  have er : ridx_main_v7 i k = ValueIdx.ix2 k (i 1) :=
    funext fun a => match a with | ⟨0, _⟩ => rfl | ⟨1, _⟩ => rfl
  rw [el, er]
  rfl

end Cert.ReferenceIdeal.RefVal

end
-- ==== Proof.KI.HostK.lean ====
/-
  The kernel program's host stretches, read as values.  Between region 0 and region 1 the host builds the
  membership indicator of the labels (each node's label compared with each graph number) and its column sums, the
  graph sizes, and lays the three parameter vectors out as one-row tables; after region 1, and again after
  region 2, it divides a per-graph table, row by row, by the graph sizes.
  Every statement is for ANY contents `W` of the buffers at the stretch's start.
-/
import proofs.«420247_j44633300140134_1_alg».proof.Proof.Gen.KernelIdeal.Launch
import proofs.«420247_j44633300140134_1_alg».proof.Proof.RefAgg
import proofs.«420247_j44633300140134_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

variable (W : Valuation τ sig (Elt Ideal))

/-! ### Broadcasts, the reshape and the indicator word, read at an index -/

private theorem ofFin_eq_ix1 {n : Nat} (p : Fin n) : Shape.Idx.ofFin p = ix1 p := by
  funext a; match a with | ⟨0, _⟩ => rfl

/-- A vector laid down the rows of a square table reads, at (p, q), the vector at p. -/
private theorem rows64 (c : S64.Idx → EReal) (j : S64x64.Idx) :
    broadcastInDim S64x64 ![0, 1] bcast_S64x1_S64x64_0_1 (broadcastInDim S64x1 ![0] bcast_S64_S64x1_0 c) j = c (ix1 (j 0)) :=
  (congrArg (broadcastInDim S64x64 ![0, 1] bcast_S64x1_S64x64_0_1 (broadcastInDim S64x1 ![0] bcast_S64_S64x1_0 c)) (Predicate.ij_eta j).symm).trans
    ((Predicate.bcast_rows bcast_S64_S64x1_0 bcast_S64x1_S64x64_0_1 c (j 0) (j 1)).trans (congrArg c (ofFin_eq_ix1 (j 0))))

/-- The label vector laid down the rows of the node-by-graph table reads, at (n, g), the label of node n. -/
private theorem rowsN (b : S50000.Idx → BitVec 32) (i : S50000x64.Idx) :
    broadcastInDim S50000x64 ![0, 1] bcast_S50000x1_S50000x64_0_1 (broadcastInDim S50000x1 ![0] bcast_S50000_S50000x1_0 b) i = b (ix1 (i 0)) :=
  (congrArg (broadcastInDim S50000x64 ![0, 1] bcast_S50000x1_S50000x64_0_1 (broadcastInDim S50000x1 ![0] bcast_S50000_S50000x1_0 b)) (Predicate.ij_eta i).symm).trans
    ((Predicate.bcast_rows bcast_S50000_S50000x1_0 bcast_S50000x1_S50000x64_0_1 b (i 0) (i 1)).trans (congrArg b (ofFin_eq_ix1 (i 0))))

/-- A vector laid along the columns of the node-by-graph table reads, at (n, g), the vector at g. -/
private theorem colsN (v : S64.Idx → BitVec 32) (i : S50000x64.Idx) :
    broadcastInDim S50000x64 ![0, 1] bcast_S1x64_S50000x64_0_1 (broadcastInDim S1x64 ![1] bcast_S64_S1x64_1 v) i = v (ix1 (i 1)) :=
  (congrArg (broadcastInDim S50000x64 ![0, 1] bcast_S1x64_S50000x64_0_1 (broadcastInDim S1x64 ![1] bcast_S64_S1x64_1 v)) (Predicate.ij_eta i).symm).trans
    ((Predicate.bcast_cols bcast_S64_S1x64_1 bcast_S1x64_S50000x64_0_1 v (i 0) (i 1)).trans (congrArg v (ofFin_eq_ix1 (i 1))))

/-- The equality test of two words, converted to a number, is 1 where they agree and 0 elsewhere. -/
private theorem ind_word (x y : BitVec 32) :
    (FloatOps.uitofp (F := Ideal) .f32 (IntOp.cmpi .eq x y) : EReal) = if x = y then 1 else 0 := by
  show (((IntOp.cmpi .eq x y).toNat : ℝ) : EReal) = _
  by_cases h : x = y
  · subst h; simp [IntOp.cmpi]
  · rw [if_neg h]; simp [IntOp.cmpi, h]

/-- A vector recast as a one-row table reads, at (u, q), the vector at q. -/
private theorem row_read (v : S64.Idx → EReal) (i : S1x64.Idx) :
    shapeCast S1x64 v shapeCasts_S64_S1x64 i = v (ix1 (i 1)) :=
  shapeCast_apply v shapeCasts_S64_S1x64 i (ix1 (i 1)) (by
    rw [Shape.rowMajor_val_two, Shape.rowMajor_val_one]
    have h0 : (i 0).val < 1 := (i 0).isLt
    show (i 1).val = (i 0).val * 64 + (i 1).val
    omega)

/-- Comparing each node's label with each graph number and converting the truth value to a number gives the
    membership indicator. -/
private theorem oh_term (b : S50000.Idx → BitVec 32) :
    (uitofp (F := Ideal) .f32 (cmpi .eq
        (broadcastInDim S50000x64 ![0, 1] bcast_S50000x1_S50000x64_0_1 (broadcastInDim S50000x1 ![0] bcast_S50000_S50000x1_0 b))
        (broadcastInDim S50000x64 ![0, 1] bcast_S1x64_S50000x64_0_1 (broadcastInDim S1x64 ![1] bcast_S64_S1x64_1 (iotaInDim S64 32 0))))
      : S50000x64.Idx → EReal) = Cert.Spec.oh b := by
  funext i
  show FloatOps.uitofp (F := Ideal) .f32 (IntOp.cmpi .eq
      (broadcastInDim S50000x64 ![0, 1] bcast_S50000x1_S50000x64_0_1 (broadcastInDim S50000x1 ![0] bcast_S50000_S50000x1_0 b) i)
      (broadcastInDim S50000x64 ![0, 1] bcast_S1x64_S50000x64_0_1 (broadcastInDim S1x64 ![1] bcast_S64_S1x64_1 (iotaInDim S64 32 0)) i)) = _
  rw [rowsN, colsN, ind_word]
  rfl

/-- The host's sum over the node axis, started from the zero word, is the plain column sum. -/
private theorem cnt_term (o : S50000x64.Idx → EReal) :
    (Host.reduceAdd (F := Ideal) o (constant S_ .f32 0x00000000#32) reducesTo_S50000x64_S64_d0 h_S_ : S64.Idx → EReal)
      = Cert.Spec.cnt o := by
  funext g
  have h : S50000x64.Reduces [0] S64 := by decide
  show Ideal.hostReduceAdd reducesTo_S50000x64_S64_d0 o (Ideal.ofBits .f32 0x00000000#32) g = _
  rw [Ideal.hostReduceAdd_single _ h, Ideal.ofBits_zero_f32, zero_add]
  show ∑ k : Fin 50000, o (h.lift g k) = ∑ n : Fin 50000, o (ix2 n (g 0))
  refine Finset.sum_congr rfl fun k _ => congrArg o ?_
  funext a
  match a with
  | ⟨0, _⟩ => exact Fin.ext rfl
  | ⟨1, _⟩ => exact Fin.ext rfl

/-! ### The stretch between region 0 and region 1 -/

set_option maxHeartbeats 4000000 in
/-- The membership indicator of the labels. -/
theorem host1_v53 :
    StableHlo.after hostOps1_2 (StableHlo.after hostOps1_1 (StableHlo.after hostOps1 W)) (Proc.devRef .tc main_v53)
      = Cert.Spec.oh (W (Proc.devRef .tc main_arg7)) := by
  after_results_simp
  exact oh_term (W (Proc.devRef .tc main_arg7))
set_option maxHeartbeats 4000000 in
/-- The graph sizes. -/
theorem host1_v54 :
    StableHlo.after hostOps1_2 (StableHlo.after hostOps1_1 (StableHlo.after hostOps1 W)) (Proc.devRef .tc main_v54)
      = Cert.Spec.cnt (Cert.Spec.oh (W (Proc.devRef .tc main_arg7))) := by
  after_results_simp
  exact (congrArg (fun x => Host.reduceAdd (F := Ideal) x (constant S_ .f32 0x00000000#32) reducesTo_S50000x64_S64_d0 h_S_)
    (oh_term (W (Proc.devRef .tc main_arg7)))).trans (cnt_term _)
set_option maxHeartbeats 4000000 in
/-- The three parameter vectors as rows. -/
theorem host1_v55 :
    StableHlo.after hostOps1_2 (StableHlo.after hostOps1_1 (StableHlo.after hostOps1 W)) (Proc.devRef .tc main_v55)
      = Cert.Spec.row (W (Proc.devRef .tc main_arg3)) := by
  after_results_simp
  funext i
  exact row_read (W (Proc.devRef .tc main_arg3)) i
set_option maxHeartbeats 4000000 in
theorem host1_v56 :
    StableHlo.after hostOps1_2 (StableHlo.after hostOps1_1 (StableHlo.after hostOps1 W)) (Proc.devRef .tc main_v56)
      = Cert.Spec.row (W (Proc.devRef .tc main_arg4)) := by
  after_results_simp
  funext i
  exact row_read (W (Proc.devRef .tc main_arg4)) i
set_option maxHeartbeats 4000000 in
theorem host1_v57 :
    StableHlo.after hostOps1_2 (StableHlo.after hostOps1_1 (StableHlo.after hostOps1 W)) (Proc.devRef .tc main_v57)
      = Cert.Spec.row (W (Proc.devRef .tc main_arg5)) := by
  after_results_simp
  funext i
  exact row_read (W (Proc.devRef .tc main_arg5)) i

/-! ### The stretches after region 1 and after region 2 -/

/-- The per-graph sums divided by the graph sizes: the means. -/
theorem host2_v61 :
    StableHlo.after hostOps2 W (Proc.devRef .tc main_v61)
      = Cert.Spec.dv (W (Proc.devRef .tc main_v58)) (W (Proc.devRef .tc main_v54)) := by
  after_results
  funext j
  exact congrArg (Ideal.div (W (Proc.devRef .tc main_v58) j)) (rows64 (W (Proc.devRef .tc main_v54)) j)
/-- The per-graph sums of squares divided by the graph sizes: the variances. -/
theorem host3_v65 :
    StableHlo.after hostOps3 W (Proc.devRef .tc main_v65)
      = Cert.Spec.dv (W (Proc.devRef .tc main_v62)) (W (Proc.devRef .tc main_v54)) := by
  after_results
  funext j
  exact congrArg (Ideal.div (W (Proc.devRef .tc main_v62) j)) (rows64 (W (Proc.devRef .tc main_v54)) j)

end Cert.KernelIdeal.Val

end
-- ==== Proof.KI.HostAgg.lean ====
/-
  The kernel program's aggregation stretch read as a value: between region 0 and region 1 the host takes region 0's
  output (the dense product) through the degree normalisation, the gather along the edges, the scatter-add onto the
  target nodes and the bias — operation for operation what the reference does to its own dense product, so the
  activations it hands region 1 are the same function `agg` of that output, the bias and the edge list.
  For ANY contents `W` of the buffers at the stretch's start, and for any float family.
-/
import proofs.«420247_j44633300140134_1_alg».proof.Proof.Gen.KernelIdeal.Launch
import proofs.«420247_j44633300140134_1_alg».proof.Proof.RefAgg
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F] (W : Valuation τ sig (Elt F))

/-- The activations the host hands region 1 are the aggregation of region 0's output. -/
theorem host1_v46 :
    StableHlo.after hostOps1_2 (StableHlo.after hostOps1_1 (StableHlo.after hostOps1 W)) (Proc.devRef .tc main_v46)
      = Cert.ReferenceIdeal.RefVal.agg (F := F) (W (Proc.devRef .tc main_v0)) (W (Proc.devRef .tc main_arg2)) (W (Proc.devRef .tc main_arg6)) := by
  -- the left side: every operation's result read at its own buffer, the other buffers passed through
  after_results_simp
  -- a joined array keeps its two parts as a list of (shape, contents) pairs: the parts' contents are read there in turn
  repeat (first
    | rw [reshape_result] | rw [unary_result] | rw [binary_result] | rw [nullary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  -- the callee's typed references are the buffers themselves
  simp only [TRef.ofBuf, TRef.toBuf, cast_eq]
  -- the right side: the aggregation and every reference stage it is spelt over, opened once each down to the arguments
  unfold Cert.ReferenceIdeal.RefVal.agg
  open Cert.ReferenceIdeal.ReadP in
  unfold val_main_v45 val_main_v44 val_main_v42 val_main_v41 val_main_cst_8 val_main_v39 val_main_v37 val_main_v36
    val_main_v35 val_main_v34 val_main_c_7 val_main_v33 val_main_v32 val_main_c_6 val_main_v31 val_main_v30
    val_main_v29 val_main_v28 val_main_v27 val_main_v26 val_main_v25 val_main_c_5 val_main_v24 val_main_v23
    val_main_c_4 val_main_v22 val_main_v21 val_main_v20 val_main_v19 val_main_v18 val_main_c_3 val_main_v17
    val_main_v16 val_main_c val_main_v15 val_main_call0_v1 val_main_call0_v0 val_main_cst_2 val_main_v14
    val_main_v13 val_main_v12 val_main_cst_1 val_main_v11 val_main_v10 val_main_v9 val_main_cst_0 val_main_v8
    val_main_cst val_main_v6 val_main_v5 val_main_v4 val_main_v3 val_main_v2 val_main_v1 val_main_v0
  -- both sides are now the same operations on the same arguments; the dimension records of the two programs are equal
  -- field by field
  rfl

end Cert.KernelIdeal.Val

end
-- ==== Proof.KI.Value.lean ====
/-
  What the kernel program leaves in its result array, at the extended reals: walk the fold through @main's nine
  items and read each array off the item that wrote it.  Region 0 leaves the dense product `x·W`; the host
  aggregates it over the edges into the activations `a`, builds the membership indicator `o` of the labels,
  the graph sizes and the parameter rows; region 1 leaves the per-graph sums of `a`, which the host divides by
  the graph sizes (the means); region 2 leaves the per-graph sums of squares about those means, which the host
  divides by the graph sizes (the variances); region 3 normalises.  A buffer an item does not write is carried
  across it unchanged, so each array is still what its writer left when a later item reads it.
-/
import proofs.«420247_j44633300140134_1_alg».proof.Proof.KI.Fold
import proofs.«420247_j44633300140134_1_alg».proof.Proof.KI.Val0
import proofs.«420247_j44633300140134_1_alg».proof.Proof.KI.Val1
import proofs.«420247_j44633300140134_1_alg».proof.Proof.KI.Val2
import proofs.«420247_j44633300140134_1_alg».proof.Proof.KI.Val3
import proofs.«420247_j44633300140134_1_alg».proof.Proof.KI.HostK
import proofs.«420247_j44633300140134_1_alg».proof.Proof.KI.HostAgg
import proofs.«420247_j44633300140134_1_alg».proof.Proof.RefAgg
import proofs.«420247_j44633300140134_1_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg)

/-- The membership indicator of core `c`'s labels. -/
abbrev ind (c : Dev nD) : Cert.Spec.T50000x64.Idx → EReal := Cert.Spec.oh (m ((c : Thread nD τ).loc main_arg7))
/-- The aggregated activations: the aggregation of the dense product. -/
abbrev act (c : Dev nD) : Cert.Spec.T50000x64.Idx → EReal :=
  Cert.ReferenceIdeal.RefVal.agg (F := Ideal) (Cert.Spec.lin (m ((c : Thread nD τ).loc main_arg0)) (m ((c : Thread nD τ).loc main_arg1)))
    (m ((c : Thread nD τ).loc main_arg2)) (m ((c : Thread nD τ).loc main_arg6))
/-- The per-graph means. -/
abbrev mean (c : Dev nD) : Cert.Spec.T64x64.Idx → EReal :=
  Cert.Spec.dv (Cert.Spec.segsum (ind m c) (act m c)) (Cert.Spec.cnt (ind m c))
/-- The mean-scale vector as a row. -/
abbrev gmsRow (c : Dev nD) : Cert.Spec.T1x64.Idx → EReal := Cert.Spec.row (m ((c : Thread nD τ).loc main_arg5))
/-- The per-graph variances. -/
abbrev var (c : Dev nD) : Cert.Spec.T64x64.Idx → EReal :=
  Cert.Spec.dv (Cert.Spec.varsum (ind m c) (act m c) (mean m c) (gmsRow m c)) (Cert.Spec.cnt (ind m c))

/-! ## Congruences: a stage's value depends on its operands only -/

private theorem agg_congr {h h' : Cert.Spec.T50000x64.Idx → EReal} {b b' : Cert.Spec.T64.Idx → EReal}
    {e e' : (⟨2, ![2, 800000]⟩ : Shape).Idx → BitVec 32} (hh : h = h') (hb : b = b') (he : e = e') :
    Cert.ReferenceIdeal.RefVal.agg (F := Ideal) h b e = Cert.ReferenceIdeal.RefVal.agg (F := Ideal) h' b' e' := by
  subst hh; subst hb; subst he; rfl
private theorem varsum_congr {o o' a a' : Cert.Spec.T50000x64.Idx → EReal} {mn mn' : Cert.Spec.T64x64.Idx → EReal}
    {g g' : Cert.Spec.T1x64.Idx → EReal} (ho : o = o') (ha : a = a') (hm : mn = mn') (hg : g = g') :
    Cert.Spec.varsum o a mn g = Cert.Spec.varsum o' a' mn' g' := by
  subst ho; subst ha; subst hm; subst hg; rfl
private theorem fin_congr {o o' a a' : Cert.Spec.T50000x64.Idx → EReal} {mn mn' vr vr' : Cert.Spec.T64x64.Idx → EReal}
    {gw gw' gb gb' g g' : Cert.Spec.T1x64.Idx → EReal} (ho : o = o') (ha : a = a') (hm : mn = mn') (hv : vr = vr')
    (hgw : gw = gw') (hgb : gb = gb') (hg : g = g') :
    Cert.Spec.fin o a mn vr gw gb g = Cert.Spec.fin o' a' mn' vr' gw' gb' g' := by
  subst ho; subst ha; subst hm; subst hv; subst hgw; subst hgb; subst hg; rfl

/-! ## Region 0 and the host stretches after it -/

theorem W1_v0 (c : Dev nD) : W1 m ρ c (Proc.devRef .tc main_v0)
    = Cert.Spec.lin (m ((c : Thread nD τ).loc main_arg0)) (m ((c : Thread nD τ).loc main_arg1)) :=
  (W1_arr m ρ c 2).trans (val0 (V0 m ρ) c)

theorem W4_v46 (c : Dev nD) : W4 m ρ c (Proc.devRef .tc main_v46) = act m c :=
  (host1_v46 (F := Ideal) (W1 m ρ c)).trans
    (agg_congr (W1_v0 m ρ c) (W1_keep m ρ c main_arg2 (by decide)) (W1_keep m ρ c main_arg6 (by decide)))
theorem W4_v53 (c : Dev nD) : W4 m ρ c (Proc.devRef .tc main_v53) = ind m c :=
  (host1_v53 (W1 m ρ c)).trans (congrArg Cert.Spec.oh (W1_keep m ρ c main_arg7 (by decide)))
theorem W4_v54 (c : Dev nD) : W4 m ρ c (Proc.devRef .tc main_v54) = Cert.Spec.cnt (ind m c) :=
  (host1_v54 (W1 m ρ c)).trans (congrArg (fun x => Cert.Spec.cnt (Cert.Spec.oh x)) (W1_keep m ρ c main_arg7 (by decide)))
theorem W4_v55 (c : Dev nD) : W4 m ρ c (Proc.devRef .tc main_v55) = Cert.Spec.row (m ((c : Thread nD τ).loc main_arg3)) :=
  (host1_v55 (W1 m ρ c)).trans (congrArg Cert.Spec.row (W1_keep m ρ c main_arg3 (by decide)))
theorem W4_v56 (c : Dev nD) : W4 m ρ c (Proc.devRef .tc main_v56) = Cert.Spec.row (m ((c : Thread nD τ).loc main_arg4)) :=
  (host1_v56 (W1 m ρ c)).trans (congrArg Cert.Spec.row (W1_keep m ρ c main_arg4 (by decide)))
theorem W4_v57 (c : Dev nD) : W4 m ρ c (Proc.devRef .tc main_v57) = gmsRow m c :=
  (host1_v57 (W1 m ρ c)).trans (congrArg Cert.Spec.row (W1_keep m ρ c main_arg5 (by decide)))

/-! ## Region 1 and the division that follows it -/

theorem W5_v58 (c : Dev nD) : W5 m ρ c (Proc.devRef .tc main_v58) = Cert.Spec.segsum (ind m c) (act m c) :=
  (W5_arr m ρ c 2).trans ((val1 (V4 m ρ) c).trans (congrArg₂ Cert.Spec.segsum (W4_v53 m ρ c) (W4_v46 m ρ c)))

theorem W6_v61 (c : Dev nD) : W6 m ρ c (Proc.devRef .tc main_v61) = mean m c :=
  (host2_v61 (W5 m ρ c)).trans
    (congrArg₂ Cert.Spec.dv (W5_v58 m ρ c) ((W5_keep m ρ c main_v54 (by decide)).trans (W4_v54 m ρ c)))

/-- Region 1 and the stretch after it write neither the indicator, the activations, the sizes nor the rows. -/
theorem W6_carry (c : Dev nD) (r : Ref sig .tc) (h1 : r ≠ main_v58) (h2 : r ∉ hostOps2_W) :
    W6 m ρ c (Proc.devRef .tc r) = W4 m ρ c (Proc.devRef .tc r) :=
  (W6_keep m ρ c r h2).trans (W5_keep m ρ c r h1)

theorem W6_v53 (c : Dev nD) : W6 m ρ c (Proc.devRef .tc main_v53) = ind m c :=
  (W6_carry m ρ c main_v53 (by decide) (by decide)).trans (W4_v53 m ρ c)
theorem W6_v46 (c : Dev nD) : W6 m ρ c (Proc.devRef .tc main_v46) = act m c :=
  (W6_carry m ρ c main_v46 (by decide) (by decide)).trans (W4_v46 m ρ c)
theorem W6_v54 (c : Dev nD) : W6 m ρ c (Proc.devRef .tc main_v54) = Cert.Spec.cnt (ind m c) :=
  (W6_carry m ρ c main_v54 (by decide) (by decide)).trans (W4_v54 m ρ c)
theorem W6_v55 (c : Dev nD) : W6 m ρ c (Proc.devRef .tc main_v55) = Cert.Spec.row (m ((c : Thread nD τ).loc main_arg3)) :=
  (W6_carry m ρ c main_v55 (by decide) (by decide)).trans (W4_v55 m ρ c)
theorem W6_v56 (c : Dev nD) : W6 m ρ c (Proc.devRef .tc main_v56) = Cert.Spec.row (m ((c : Thread nD τ).loc main_arg4)) :=
  (W6_carry m ρ c main_v56 (by decide) (by decide)).trans (W4_v56 m ρ c)
theorem W6_v57 (c : Dev nD) : W6 m ρ c (Proc.devRef .tc main_v57) = gmsRow m c :=
  (W6_carry m ρ c main_v57 (by decide) (by decide)).trans (W4_v57 m ρ c)

/-! ## Region 2 and the division that follows it -/

theorem W7_v62 (c : Dev nD) : W7 m ρ c (Proc.devRef .tc main_v62)
    = Cert.Spec.varsum (ind m c) (act m c) (mean m c) (gmsRow m c) :=
  (W7_arr m ρ c 4).trans ((val2 (V6 m ρ) c).trans
    (varsum_congr (W6_v53 m ρ c) (W6_v46 m ρ c) (W6_v61 m ρ c) (W6_v57 m ρ c)))

theorem W8_carry (c : Dev nD) (r : Ref sig .tc) (h1 : r ≠ main_v62) (h2 : r ∉ hostOps3_W) :
    W8 m ρ c (Proc.devRef .tc r) = W6 m ρ c (Proc.devRef .tc r) :=
  (W8_keep m ρ c r h2).trans (W7_keep m ρ c r h1)

theorem W8_v65 (c : Dev nD) : W8 m ρ c (Proc.devRef .tc main_v65) = var m c :=
  (host3_v65 (W7 m ρ c)).trans
    (congrArg₂ Cert.Spec.dv (W7_v62 m ρ c) ((W7_keep m ρ c main_v54 (by decide)).trans (W6_v54 m ρ c)))

/-! ## Region 3: the result -/

/-- The kernel program's result array: the normalisation, as the kernel stages it, of the aggregated activations. -/
theorem W9_v66 (c : Dev nD) : W9 m ρ c (Proc.devRef .tc main_v66)
    = Cert.Spec.ktail (act m c) (m ((c : Thread nD τ).loc main_arg3)) (m ((c : Thread nD τ).loc main_arg4))
        (m ((c : Thread nD τ).loc main_arg5)) (m ((c : Thread nD τ).loc main_arg7)) :=
  (W9_arr m ρ c 7).trans ((val3 (V8 m ρ) c).trans
    (fin_congr
      ((W8_carry m ρ c main_v53 (by decide) (by decide)).trans (W6_v53 m ρ c))
      ((W8_carry m ρ c main_v46 (by decide) (by decide)).trans (W6_v46 m ρ c))
      ((W8_carry m ρ c main_v61 (by decide) (by decide)).trans (W6_v61 m ρ c))
      (W8_v65 m ρ c)
      ((W8_carry m ρ c main_v55 (by decide) (by decide)).trans (W6_v55 m ρ c))
      ((W8_carry m ρ c main_v56 (by decide) (by decide)).trans (W6_v56 m ρ c))
      ((W8_carry m ρ c main_v57 (by decide) (by decide)).trans (W6_v57 m ρ c))))

end Cert.KernelIdeal.Val

end
-- ==== Proof.GNLemmas.lean ====
/-
  Scatter-add and gather by a column of row indices, read at one element.

  A scatter whose updates are the rows of an [N × C] array, sent to the rows of a [G × C] operand that an [N × 1]
  column of indices names, lands update (n, c) on operand element (g, c') exactly when row n's index, read as a
  signed integer, is g, and c = c': the start on the row axis is the index itself (not clamped), the window
  coordinate on the column axis is c, and a landing place outside the operand is no place at all.  So over the
  extended reals the accumulating scatter at (g, c) is the operand's element plus the sum over n of
  [index n = g]·update (n, c).  The rank-1 form (an [N] update onto a [G] operand) is the same without columns.

  A gather of rows of a [G × C] table by an [N × 1] column of start indices, slice sizes (1, C), reads at (n, c) the
  table at (r, c) where r is row n's start index read signed and clamped to [0, G − 1].
-/
import Idealize.ShloMosaic.PureOps.Ideal
import Idealize.ShloMosaic.Lib.ValueIdx
import Idealize.ShloMosaic.Lib.StableHlo.Predicate
import Idealize.ShloMosaic.Lib.ValueIdxRank1

noncomputable section

open scoped BigOperators

namespace Cert.GNLemmas

open Idealize.ShloMosaic Idealize.ShloMosaic.ValueIdx Idealize.ShloMosaic.StableHlo.Predicate

/-- An element of a list known to be a singleton is its one entry. -/
theorem getElem_of_eq_singleton {α : Type} {l : List α} {a : α} (h : l = [a]) (i : Nat) (hi : i < l.length) : l[i] = a := by
  subst h
  simp

/-- A scatter's update lands on operand index `i` exactly when, on every axis, start plus window coordinate is
    `i`'s coordinate (being a coordinate, it is then in range). -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have hf := congrArg Fin.val (congrFun (Option.some.inj h) a)
      have := (hall a).1
      simp only at hf
      omega
    · cases h
  · intro h
    have hall : ∀ a, 0 ≤ d.start j idx a + (d.window j a : ℤ) ∧ d.start j idx a + (d.window j a : ℤ) < (s.size a : ℤ) := by
      intro a
      rw [h a]
      have := (i a).isLt
      omega
    rw [dif_pos hall]
    congr 1
    funext a
    apply Fin.ext
    show (d.start j idx a + (d.window j a : ℤ)).toNat = (i a).val
    rw [h a]
    omega

/-- Rows onto rows: update (n, c) lands on (g, c') exactly when row n's index read signed is g and c = c'. -/
theorem scatter_rows_resultIdx {G C N w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hivd : d.indexVectorDim = 1) (idx : IVec ⟨2, ![N, 1]⟩ w) (n : Fin N) (c : Fin C) (g : Fin G) (c' : Fin C) :
    d.resultIdx? (ix2 n c) idx = some (ix2 g c') ↔ (idx (ixP n)).toInt = (g.val : Int) ∧ c = c' := by
  obtain ⟨uw, iw, sd, iv, wf⟩ := d
  dsimp only at huw hiw hsd hivd
  subst huw hiw hsd hivd
  have hsk : ScatterDims.sKept ⟨[1], [0], [0], 1, wf⟩ = [1] := rfl
  have hus : ScatterDims.uScatter ⟨[1], [0], [0], 1, wf⟩ = [0] := rfl
  have hsi : ScatterDims.siIdx ⟨[1], [0], [0], 1, wf⟩ (ix2 n c) 0 = ixP n := by
    funext b
    match b with
    | ⟨0, _⟩ =>
      unfold ScatterDims.siIdx
      rw [dif_neg (by simp)]
      unfold ScatterDims.siCoord
      apply Fin.ext
      simp only [Fin.val_cast]
      rw [getElem_of_eq_singleton hus]
      rfl
    | ⟨1, _⟩ =>
      unfold ScatterDims.siIdx
      rw [dif_pos (by simp)]
      rfl
  have hs0 : ScatterDims.start ⟨[1], [0], [0], 1, wf⟩ (ix2 n c) idx 0 = (idx (ixP n)).toInt := by
    simp [ScatterDims.start, hsi]
  have hs1 : ScatterDims.start ⟨[1], [0], [0], 1, wf⟩ (ix2 n c) idx 1 = 0 := by
    simp [ScatterDims.start]
  have hw0 : ScatterDims.window ⟨[1], [0], [0], 1, wf⟩ (ix2 n c) 0 = 0 := by
    simp [ScatterDims.window, hsk]
  have hw1 : ScatterDims.window ⟨[1], [0], [0], 1, wf⟩ (ix2 n c) 1 = c.val := by
    simp [ScatterDims.window, hsk]
    rw [getElem_of_eq_singleton rfl]
    rfl
  rw [resultIdx?_eq_some_iff]
  constructor
  · intro h
    have h0 : (idx (ixP n)).toInt + ((0 : ℕ) : ℤ) = (g.val : ℤ) := by
      have := h 0
      rw [hs0, hw0] at this
      exact this
    have h1 : (0 : ℤ) + ((c.val : ℕ) : ℤ) = (c'.val : ℤ) := by
      have := h 1
      rw [hs1, hw1] at this
      exact this
    constructor
    · omega
    · apply Fin.ext; omega
  · rintro ⟨ht, rfl⟩ a
    match a with
    | ⟨0, _⟩ =>
      show ScatterDims.start ⟨[1], [0], [0], 1, wf⟩ (ix2 n c) idx 0 + ((ScatterDims.window ⟨[1], [0], [0], 1, wf⟩ (ix2 n c) 0 : ℕ) : ℤ) = (g.val : ℤ)
      rw [hs0, hw0, ht]
      omega
    | ⟨1, _⟩ =>
      show ScatterDims.start ⟨[1], [0], [0], 1, wf⟩ (ix2 n c) idx 1 + ((ScatterDims.window ⟨[1], [0], [0], 1, wf⟩ (ix2 n c) 1 : ℕ) : ℤ) = (c.val : ℤ)
      rw [hs1, hw1]
      omega

/-- Entries onto entries: update n lands on g exactly when entry n's index read signed is g. -/
theorem scatter_count_resultIdx {G N w : Nat} (d : ScatterDims ⟨1, ![G]⟩ ⟨2, ![N, 1]⟩ ⟨1, ![N]⟩)
    (huw : d.updateWindowDims = []) (hiw : d.insertedWindowDims = [0]) (hsd : d.scatterDimsToOperandDims = [0])
    (hivd : d.indexVectorDim = 1) (idx : IVec ⟨2, ![N, 1]⟩ w) (n : Fin N) (g : Fin G) :
    d.resultIdx? (ix1 n) idx = some (ix1 g) ↔ (idx (ixP n)).toInt = (g.val : Int) := by
  obtain ⟨uw, iw, sd, iv, wf⟩ := d
  dsimp only at huw hiw hsd hivd
  subst huw hiw hsd hivd
  have hsk : ScatterDims.sKept ⟨[], [0], [0], 1, wf⟩ = [] := rfl
  have hus : ScatterDims.uScatter ⟨[], [0], [0], 1, wf⟩ = [0] := rfl
  have hsi : ScatterDims.siIdx ⟨[], [0], [0], 1, wf⟩ (ix1 n) 0 = ixP n := by
    funext b
    match b with
    | ⟨0, _⟩ =>
      unfold ScatterDims.siIdx
      rw [dif_neg (by simp)]
      unfold ScatterDims.siCoord
      apply Fin.ext
      simp only [Fin.val_cast]
      rw [getElem_of_eq_singleton hus]
      rfl
    | ⟨1, _⟩ =>
      unfold ScatterDims.siIdx
      rw [dif_pos (by simp)]
      rfl
  have hs0 : ScatterDims.start ⟨[], [0], [0], 1, wf⟩ (ix1 n) idx 0 = (idx (ixP n)).toInt := by
    simp [ScatterDims.start, hsi]
  have hw0 : ScatterDims.window ⟨[], [0], [0], 1, wf⟩ (ix1 n) 0 = 0 := by
    simp [ScatterDims.window, hsk]
  rw [resultIdx?_eq_some_iff]
  constructor
  · intro h
    have h0 : (idx (ixP n)).toInt + ((0 : ℕ) : ℤ) = (g.val : ℤ) := by
      have := h 0
      rw [hs0, hw0] at this
      exact this
    omega
  · intro ht a
    match a with
    | ⟨0, _⟩ =>
      show ScatterDims.start ⟨[], [0], [0], 1, wf⟩ (ix1 n) idx 0 + ((ScatterDims.window ⟨[], [0], [0], 1, wf⟩ (ix1 n) 0 : ℕ) : ℤ) = (g.val : ℤ)
      rw [hs0, hw0, ht]
      omega

/-- The accumulating scatter of the rows of an [N × C] update onto the rows of a [G × C] operand, read at (g, c):
    the operand's element plus the updates of the rows whose index, read signed, is `g`. -/
theorem hostScatterAdd_rows {G C N w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hivd : d.indexVectorDim = 1) (x : (⟨2, ![G, C]⟩ : Shape).Idx → EReal) (idx : IVec ⟨2, ![N, 1]⟩ w)
    (upd : (⟨2, ![N, C]⟩ : Shape).Idx → EReal) (g : Fin G) (c : Fin C) :
    Ideal.hostScatterAdd d x idx upd (ix2 g c)
      = x (ix2 g c) + ∑ n : Fin N, if (idx (ixP n)).toInt = (g.val : ℤ) then upd (ix2 n c) else 0 := by
  unfold Ideal.hostScatterAdd
  congr 1
  rw [Finset.sum_filter, sum_idx2]
  refine Finset.sum_congr rfl fun n _ => ?_
  simp only [scatter_rows_resultIdx d huw hiw hsd hivd]
  by_cases ht : (idx (ixP n)).toInt = (g.val : ℤ)
  · simp only [ht, true_and, if_true]
    rw [Finset.sum_ite_eq']
    simp
  · simp only [ht, false_and, if_false]
    simp

/-- The accumulating scatter of an [N] update onto a [G] operand, read at g. -/
theorem hostScatterAdd_count {G N w : Nat} (d : ScatterDims ⟨1, ![G]⟩ ⟨2, ![N, 1]⟩ ⟨1, ![N]⟩)
    (huw : d.updateWindowDims = []) (hiw : d.insertedWindowDims = [0]) (hsd : d.scatterDimsToOperandDims = [0])
    (hivd : d.indexVectorDim = 1) (x : (⟨1, ![G]⟩ : Shape).Idx → EReal) (idx : IVec ⟨2, ![N, 1]⟩ w)
    (upd : (⟨1, ![N]⟩ : Shape).Idx → EReal) (g : Fin G) :
    Ideal.hostScatterAdd d x idx upd (ix1 g)
      = x (ix1 g) + ∑ n : Fin N, if (idx (ixP n)).toInt = (g.val : ℤ) then upd (ix1 n) else 0 := by
  unfold Ideal.hostScatterAdd
  congr 1
  rw [Finset.sum_filter, ← Equiv.sum_comp (idxEquiv1 (n := N)).symm]
  refine Finset.sum_congr rfl fun n _ => ?_
  show (if d.resultIdx? (ix1 n) idx = some (ix1 g) then upd (ix1 n) else 0) = _
  simp only [scatter_count_resultIdx d huw hiw hsd hivd]

/-- The row gather at (n, c): the table at (r, c), r the start index of row n read signed and clamped into the table. -/
theorem gather_rows {α : Type} {G C N w : Nat} (d : GatherDims ⟨2, ![G, C]⟩ ⟨2, ![N, 1]⟩ ⟨2, ![N, C]⟩)
    (hoff : d.offsetDims = [1]) (hcoll : d.collapsedSliceDims = [0]) (hob : d.operandBatchingDims = [])
    (hsim : d.startIndexMap = [0]) (hivd : d.indexVectorDim = 1)
    (x : (⟨2, ![G, C]⟩ : Shape).Idx → α) (idx : IVec ⟨2, ![N, 1]⟩ w) (n : Fin N) (c : Fin C) (r : Fin G)
    (hr : r.val = min (idx (ixP n)).toInt.toNat (G - 1)) :
    Host.gather d x idx (ix2 n c) = x (ix2 r c) := by
  obtain ⟨od, cd, ob, sb, sm, iv, ss, wf⟩ := d
  dsimp only at hoff hcoll hob hsim hivd
  subst hoff hcoll hob hsim hivd
  have hss : ss 0 = 1 := GatherDims.slice_collapsed ⟨[1], [0], [], sb, [0], 1, ss, wf⟩ 0 (List.mem_singleton.mpr rfl)
  have hk : GatherDims.sKept ⟨[1], [0], [], sb, [0], 1, ss, wf⟩ = [1] := rfl
  have hbd : GatherDims.batchDims ⟨[1], [0], [], sb, [0], 1, ss, wf⟩ = [0] := rfl
  have hsi : GatherDims.siIdx ⟨[1], [0], [], sb, [0], 1, ss, wf⟩ (ix2 n c) 0 = ixP n := by
    funext b
    match b with
    | ⟨0, _⟩ =>
      unfold GatherDims.siIdx
      rw [dif_neg (by simp)]
      unfold GatherDims.siCoord
      apply Fin.ext
      simp only [Fin.val_cast]
      rw [getElem_of_eq_singleton hbd]
      rfl
    | ⟨1, _⟩ =>
      unfold GatherDims.siIdx
      rw [dif_pos (by simp)]
      rfl
  unfold Host.gather
  congr 1
  funext a
  match a with
  | ⟨0, _⟩ =>
    apply Fin.ext
    simp [GatherDims.operandIdx, GatherDims.start, GatherDims.batchCoord, GatherDims.offCoord, hk, hss, hsi]
    exact hr.symm
  | ⟨1, _⟩ =>
    apply Fin.ext
    simp [GatherDims.operandIdx, GatherDims.start, GatherDims.batchCoord, GatherDims.offCoord, hk]
    rw [getElem_of_eq_singleton rfl]
    rfl

end Cert.GNLemmas

end
-- ==== Proof.GN.lean ====
/-
  The mathematical heart: on labels in range, the reference's normalisation (scatter-add by label, gather by label)
  is the kernel's (products with the membership indicator).  For a label vector `ℓ` with every `ℓ n < 64`:
  the scatter-add of `u` by `ℓ` at graph `g` is  Σₙ [ℓ n = g]·u n  (an update lands on row `ℓ n`, and every
  row is in range), and the gather of a table `M` by `ℓ` at node `n` is  M (ℓ n) = Σ_g [ℓ n = g]·M g
  (the normalised start index is `ℓ n` itself, unclamped).  Multiplication by 0 and by 1 and the sums are the
  extended reals' own, so no finiteness is used.
-/
import proofs.«420247_j44633300140134_1_alg».proof.Proof.RefAgg
import proofs.«420247_j44633300140134_1_alg».proof.Proof.Spec
import proofs.«420247_j44633300140134_1_alg».proof.Proof.GNLemmas
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefVal

open Cert.ReferenceIdeal Cert.ReferenceIdeal.Gen Cert.ReferenceIdeal.ReadP Idealize.ShloMosaic Idealize.ShloMosaic.ValueIdx Idealize.ShloMosaic.StableHlo.Predicate

namespace GN

section Labels

variable (x7 : (⟨S50000, .i32⟩ : BufTy).Contents (Elt Ideal)) (hb : ∀ n : S50000.Idx, (x7 n).toNat < 64)

/-! ## Labels in range -/

include hb in
/-- A label in range, read as a signed integer, is `g` exactly when it is the word `g`. -/
theorem label_toInt_iff (n : Fin 50000) (g : Fin 64) :
    (x7 (ix1 n)).toInt = (g.val : ℤ) ↔ x7 (ix1 n) = BitVec.ofNat 32 g.val := by
  have hlt := hb (ix1 n)
  have hti : (x7 (ix1 n)).toInt = ((x7 (ix1 n)).toNat : ℤ) := toInt_eq_toNat_of_lt (by omega)
  have hg := g.isLt
  constructor
  · intro h
    apply BitVec.eq_of_toNat_eq
    rw [BitVec.toNat_ofNat]
    omega
  · intro h
    rw [hti, h, BitVec.toNat_ofNat]
    omega

/-- The label column the scatters index by: row n holds label n. -/
theorem v53_at (n : Fin 50000) : val_main_v53 (F := Ideal) x7 (ixP n) = x7 (ix1 n) := by
  rw [val_main_v53_apply]
  congr 1
  funext a
  match a with
  | ⟨0, _⟩ => rfl

theorem v49_at (n : Fin 50000) : val_main_v49 (F := Ideal) x7 (ixP n) = x7 (ix1 n) := by
  rw [val_main_v49_apply]
  congr 1
  funext a
  match a with
  | ⟨0, _⟩ => rfl

theorem v70_at (n : Fin 50000) : val_main_v70 (F := Ideal) x7 (ixP n) = x7 (ix1 n) := by
  rw [val_main_v70_apply]
  congr 1
  funext a
  match a with
  | ⟨0, _⟩ => rfl

include hb in
/-- A label in range is not negative, so the normalised label (64 added to a negative one) is the label. -/
theorem norm_label (n : S50000.Idx) (z s : BitVec 32) (hz : z = 0#32) :
    Scalar.select (IntOp.cmpi .slt (x7 n) z) s (x7 n) = x7 n := by
  have hlt := hb n
  have hc : IntOp.cmpi .slt (x7 n) z = 0#1 := by
    apply eq_zero_of_ne_one
    intro h
    rw [slt_iff_toNat (by omega) (by rw [hz]; decide)] at h
    rw [hz] at h
    simp at h
  rw [hc, select_zero]

include hb in
/-- The start-index column the first gather reads: row n holds label n. -/
theorem v62_at (n : Fin 50000) : val_main_v62 (F := Ideal) x7 (ixP n) = x7 (ix1 n) := by
  rw [val_main_v62_apply, val_main_v61_apply, val_main_v58_apply, val_main_v57_apply, val_main_c_12_apply]
  have hi : idx_main_v62 (ixP n) = ix1 n := by
    funext a
    match a with
    | ⟨0, _⟩ => rfl
  rw [hi]
  exact norm_label x7 hb (ix1 n) _ _ rfl

include hb in
/-- The start-index column the second gather reads: row n holds label n. -/
theorem v79_at (n : Fin 50000) : val_main_v79 (F := Ideal) x7 (ixP n) = x7 (ix1 n) := by
  rw [val_main_v79_apply, val_main_v78_apply, val_main_v75_apply, val_main_v74_apply, val_main_c_15_apply]
  have hi : idx_main_v79 (ixP n) = ix1 n := by
    funext a
    match a with
    | ⟨0, _⟩ => rfl
  rw [hi]
  exact norm_label x7 hb (ix1 n) _ _ rfl

/-! ## Scatter-add by label is the indicator-weighted sum; gather by label is the indicator-weighted spread -/

include hb in
/-- Scatter-add of the rows of `u` by label onto a zero table: at (g, f) the sum over nodes of [label n = g]·u (n, f). -/
theorem scatter_seg (z : S64x64.Idx → EReal) (hz : ∀ i, z i = 0) (ι : IVec S50000x1 32)
    (hι : ∀ n : Fin 50000, ι (ixP n) = x7 (ix1 n)) (u : S50000x64.Idx → EReal) :
    Host.scatterAdd (F := Ideal) (φ := .f32) scatter_S64x64_S50000x1_S50000x64_1_0_0_1 z ι u
      = Cert.Spec.segsum (Cert.Spec.oh x7) u := by
  funext j
  obtain ⟨g, f, rfl⟩ : ∃ (g : Fin 64) (f : Fin 64), j = ix2 g f := ⟨j 0, j 1, eq_ix2 j⟩
  show Ideal.hostScatterAdd scatter_S64x64_S50000x1_S50000x64_1_0_0_1 z ι u (ix2 g f) = _
  rw [Cert.GNLemmas.hostScatterAdd_rows _ rfl rfl rfl rfl, hz, zero_add]
  unfold Cert.Spec.segsum
  refine Finset.sum_congr rfl fun n _ => ?_
  rw [hι, if_congr (label_toInt_iff x7 hb n g) rfl rfl]
  show (if x7 (ix1 n) = BitVec.ofNat 32 g.val then u (ix2 n f) else 0)
    = (if x7 (ix1 n) = BitVec.ofNat 32 g.val then (1 : EReal) else 0) * u (ix2 n f)
  split
  · rw [one_mul]
  · rw [zero_mul]

include hb in
/-- Scatter-add of ones by label onto a zero vector: the graph sizes. -/
theorem scatter_cnt (z : S64.Idx → EReal) (hz : ∀ i, z i = 0) (ι : IVec S50000x1 32)
    (hι : ∀ n : Fin 50000, ι (ixP n) = x7 (ix1 n)) (u : S50000.Idx → EReal) (hu : ∀ i, u i = 1) :
    Host.scatterAdd (F := Ideal) (φ := .f32) scatter_S64_S50000x1_S50000_n_0_0_1 z ι u
      = Cert.Spec.cnt (Cert.Spec.oh x7) := by
  funext j
  obtain ⟨g, rfl⟩ : ∃ g : Fin 64, j = ix1 g := ⟨j 0, eq_ix1 j⟩
  show Ideal.hostScatterAdd scatter_S64_S50000x1_S50000_n_0_0_1 z ι u (ix1 g) = _
  rw [Cert.GNLemmas.hostScatterAdd_count _ rfl rfl rfl rfl, hz, zero_add]
  unfold Cert.Spec.cnt
  refine Finset.sum_congr rfl fun n _ => ?_
  rw [hι, if_congr (label_toInt_iff x7 hb n g) rfl rfl, hu]
  rfl

include hb in
/-- Gather of a per-graph table by label: node n receives row (label n), which is the indicator-weighted sum of rows. -/
theorem gather_spread (M : S64x64.Idx → EReal) (ι : IVec S50000x1 32)
    (hι : ∀ n : Fin 50000, ι (ixP n) = x7 (ix1 n)) :
    Host.gather gather_S64x64_S50000x1_S50000x64_1_0_n_n_0_1_164 M ι = Cert.Spec.spread (Cert.Spec.oh x7) M := by
  funext j
  obtain ⟨n, f, rfl⟩ : ∃ (n : Fin 50000) (f : Fin 64), j = ix2 n f := ⟨j 0, j 1, eq_ix2 j⟩
  have hlt := hb (ix1 n)
  have hti : (x7 (ix1 n)).toInt = ((x7 (ix1 n)).toNat : ℤ) := toInt_eq_toNat_of_lt (by omega)
  rw [Cert.GNLemmas.gather_rows _ rfl rfl rfl rfl rfl M ι n f ⟨(x7 (ix1 n)).toNat, hlt⟩
    (by rw [hι, hti]; show (x7 (ix1 n)).toNat = min ((x7 (ix1 n)).toNat : ℤ).toNat (64 - 1); omega)]
  unfold Cert.Spec.spread
  symm
  rw [Finset.sum_eq_single (⟨(x7 (ix1 n)).toNat, hlt⟩ : Fin 64)]
  · show (if x7 (ix1 n) = BitVec.ofNat 32 (x7 (ix1 n)).toNat then (1 : EReal) else 0) * M (ix2 ⟨(x7 (ix1 n)).toNat, hlt⟩ f) = _
    rw [if_pos (by simp), one_mul]
  · intro g _ hg
    show (if x7 (ix1 n) = BitVec.ofNat 32 g.val then (1 : EReal) else 0) * M (ix2 g f) = 0
    rw [if_neg, zero_mul]
    intro h
    apply hg
    apply Fin.ext
    show g.val = (x7 (ix1 n)).toNat
    rw [h, BitVec.toNat_ofNat]
    have := g.isLt
    omega
  · intro h
    exact absurd (Finset.mem_univ _) h

/-! ## The constants and the parameter rows at an index -/

/-- The word 0x3F800000 is the real number one: sign clear, exponent field 127 (the bias), fraction field 0. -/
theorem ofBits_one_f32 : Ideal.ofBits .f32 0x3F800000#32 = 1 := by
  show Ideal.ieee 8 23 (0x3F800000#32 : BitVec 32) = 1
  unfold Ideal.ieee
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  simp only [hs, he, hf]
  norm_num

theorem v47_one (i : S50000.Idx) : val_main_v47 (F := Ideal) i = 1 := by
  rw [val_main_v47_apply, val_main_cst_9_apply]
  exact ofBits_one_f32

theorem v48_zero (i : S64.Idx) : val_main_v48 (F := Ideal) i = 0 := by
  rw [val_main_v48_apply, val_main_cst_10_apply]
  exact Ideal.ofBits_zero_f32

theorem v52_zero (i : S64x64.Idx) : val_main_v52 (F := Ideal) i = 0 := by
  rw [val_main_v52_apply, val_main_cst_11_apply]
  exact Ideal.ofBits_zero_f32

theorem v69_zero (i : S64x64.Idx) : val_main_v69 (F := Ideal) i = 0 := by
  rw [val_main_v69_apply, val_main_cst_14_apply]
  exact Ideal.ofBits_zero_f32

include hb in
/-- The graph sizes as the reference forms them (scatter-add of ones by label), at graph g. -/
theorem v50_eq : val_main_v50 (F := Ideal) x7 = Cert.Spec.cnt (Cert.Spec.oh x7) := by
  unfold val_main_v50
  exact scatter_cnt x7 hb _ v48_zero _ (v49_at x7) _ v47_one

include hb in
/-- The divisor of the means: the graph sizes laid along each row. -/
theorem v55_at (g f : Fin 64) : val_main_v55 (F := Ideal) x7 (ix2 g f) = Cert.Spec.cnt (Cert.Spec.oh x7) (ix1 g) := by
  rw [val_main_v55_apply, val_main_v51_apply, v50_eq x7 hb]
  congr 1
  funext a
  match a with
  | ⟨0, _⟩ => rfl

include hb in
/-- The divisor of the variances: the same graph sizes. -/
theorem v72_at (g f : Fin 64) : val_main_v72 (F := Ideal) x7 (ix2 g f) = Cert.Spec.cnt (Cert.Spec.oh x7) (ix1 g) := by
  rw [val_main_v72_apply, val_main_v51_apply, v50_eq x7 hb]
  congr 1
  funext a
  match a with
  | ⟨0, _⟩ => rfl

/-- A parameter vector laid along every node's row reads the vector at the feature. -/
theorem v65_at (x5 : (⟨S64, .f32⟩ : BufTy).Contents (Elt Ideal)) (n : Fin 50000) (f : Fin 64) :
    val_main_v65 (F := Ideal) x5 (ix2 n f) = x5 (ix1 f) := by
  rw [val_main_v65_apply, val_main_v64_apply]
  congr 1
  funext a
  match a with
  | ⟨0, _⟩ => rfl

theorem v86_at (x3 : (⟨S64, .f32⟩ : BufTy).Contents (Elt Ideal)) (n : Fin 50000) (f : Fin 64) :
    val_main_v86 (F := Ideal) x3 (ix2 n f) = x3 (ix1 f) := by
  rw [val_main_v86_apply, val_main_v85_apply]
  congr 1
  funext a
  match a with
  | ⟨0, _⟩ => rfl

theorem v89_at (x4 : (⟨S64, .f32⟩ : BufTy).Contents (Elt Ideal)) (n : Fin 50000) (f : Fin 64) :
    val_main_v89 (F := Ideal) x4 (ix2 n f) = x4 (ix1 f) := by
  rw [val_main_v89_apply, val_main_v88_apply]
  congr 1
  funext a
  match a with
  | ⟨0, _⟩ => rfl

/-- The variance floor is the same word on both sides. -/
theorem v81_at (i : S50000x64.Idx) : val_main_v81 (F := Ideal) i = Cert.Spec.eps := by
  rw [val_main_v81_apply, val_main_cst_17_apply]
  rfl

/-- The rectifier's zero is the same word on both sides. -/
theorem relu_zero_at (i : S50000x64.Idx) : val_main_call1_v0 (F := Ideal) i = Ideal.ofBits .f32 0x00000000#32 := by
  rw [val_main_call1_v0_apply, val_main_call1_cst_apply]
  rfl

/-! ## The four stages -/

/-- The host quotient at an index divides the elements. -/
theorem hostDivf_at {s : Shape} (x y : s.Idx → EReal) (i : s.Idx) :
    Host.divf (F := Ideal) (φ := .f32) x y i = Ideal.div (x i) (y i) := rfl

/-- A per-graph table divided by the graph sizes, at (g, f). -/
theorem dv_at (s : S64x64.Idx → EReal) (c : S64.Idx → EReal) (g f : Fin 64) :
    Cert.Spec.dv s c (ix2 g f) = Ideal.div (s (ix2 g f)) (c (ix1 g)) := rfl

include hb in
/-- The reference's per-graph means are the kernel's. -/
theorem tmean_eq (a : (⟨S50000x64, .f32⟩ : BufTy).Contents (Elt Ideal)) :
    tmean (F := Ideal) a x7 = Cert.Spec.dv (Cert.Spec.segsum (Cert.Spec.oh x7) a) (Cert.Spec.cnt (Cert.Spec.oh x7)) := by
  unfold tmean
  rw [scatter_seg x7 hb _ v52_zero _ (v53_at x7) a]
  funext j
  obtain ⟨g, f, rfl⟩ : ∃ (g : Fin 64) (f : Fin 64), j = ix2 g f := ⟨j 0, j 1, eq_ix2 j⟩
  rw [hostDivf_at, dv_at, v55_at x7 hb]

include hb in
/-- The reference's centred activations are the kernel's. -/
theorem tcen_eq (a : (⟨S50000x64, .f32⟩ : BufTy).Contents (Elt Ideal)) (x5 : (⟨S64, .f32⟩ : BufTy).Contents (Elt Ideal)) :
    tcen (F := Ideal) a x5 x7
      = Cert.Spec.centered (Cert.Spec.oh x7) a
          (Cert.Spec.dv (Cert.Spec.segsum (Cert.Spec.oh x7) a) (Cert.Spec.cnt (Cert.Spec.oh x7))) (Cert.Spec.row x5) := by
  unfold tcen
  rw [tmean_eq x7 hb a, gather_spread x7 hb _ _ (v62_at x7 hb)]
  funext j
  obtain ⟨n, f, rfl⟩ : ∃ (n : Fin 50000) (f : Fin 64), j = ix2 n f := ⟨j 0, j 1, eq_ix2 j⟩
  generalize Cert.Spec.dv (Cert.Spec.segsum (Cert.Spec.oh x7) a) (Cert.Spec.cnt (Cert.Spec.oh x7)) = mean
  show a (ix2 n f) - val_main_v65 (F := Ideal) x5 (ix2 n f) * Cert.Spec.spread (Cert.Spec.oh x7) mean (ix2 n f)
    = a (ix2 n f) - x5 (ix1 f) * Cert.Spec.spread (Cert.Spec.oh x7) mean (ix2 n f)
  rw [v65_at]

include hb in
/-- The reference's per-graph variances are the kernel's. -/
theorem tvar_eq (a : (⟨S50000x64, .f32⟩ : BufTy).Contents (Elt Ideal)) (x5 : (⟨S64, .f32⟩ : BufTy).Contents (Elt Ideal)) :
    tvar (F := Ideal) a x5 x7
      = Cert.Spec.dv (Cert.Spec.varsum (Cert.Spec.oh x7) a
          (Cert.Spec.dv (Cert.Spec.segsum (Cert.Spec.oh x7) a) (Cert.Spec.cnt (Cert.Spec.oh x7))) (Cert.Spec.row x5))
          (Cert.Spec.cnt (Cert.Spec.oh x7)) := by
  unfold tvar
  rw [tcen_eq x7 hb a x5, scatter_seg x7 hb _ v69_zero _ (v70_at x7)]
  funext j
  obtain ⟨g, f, rfl⟩ : ∃ (g : Fin 64) (f : Fin 64), j = ix2 g f := ⟨j 0, j 1, eq_ix2 j⟩
  unfold Cert.Spec.varsum
  generalize Cert.Spec.centered (Cert.Spec.oh x7) a
    (Cert.Spec.dv (Cert.Spec.segsum (Cert.Spec.oh x7) a) (Cert.Spec.cnt (Cert.Spec.oh x7))) (Cert.Spec.row x5) = cen
  rw [hostDivf_at, dv_at, v72_at x7 hb]
  rfl

end Labels

end GN

open GN in
/-- On labels in range the reference's normalisation tail is the kernel's, as one function of the activations. -/
theorem graphnorm (a : (⟨S50000x64, .f32⟩ : BufTy).Contents (Elt Ideal)) (x3 x4 x5 : (⟨S64, .f32⟩ : BufTy).Contents (Elt Ideal))
    (x7 : (⟨S50000, .i32⟩ : BufTy).Contents (Elt Ideal)) (hb : ∀ n : S50000.Idx, (x7 n).toNat < 64) :
    tail (F := Ideal) a x3 x4 x5 x7 = Cert.Spec.ktail a x3 x4 x5 x7 := by
  unfold tail
  rw [tcen_eq x7 hb a x5, tvar_eq x7 hb a x5, gather_spread x7 hb _ _ (v79_at x7 hb)]
  unfold Cert.Spec.ktail
  funext j
  obtain ⟨n, f, rfl⟩ : ∃ (n : Fin 50000) (f : Fin 64), j = ix2 n f := ⟨j 0, j 1, eq_ix2 j⟩
  generalize Cert.Spec.dv (Cert.Spec.segsum (Cert.Spec.oh x7) a) (Cert.Spec.cnt (Cert.Spec.oh x7)) = mean
  generalize Cert.Spec.dv (Cert.Spec.varsum (Cert.Spec.oh x7) a mean (Cert.Spec.row x5)) (Cert.Spec.cnt (Cert.Spec.oh x7)) = var
  show max (val_main_v86 (F := Ideal) x3 (ix2 n f)
        * (Cert.Spec.centered (Cert.Spec.oh x7) a mean (Cert.Spec.row x5) (ix2 n f)
            * Ideal.rsqrt (Cert.Spec.spread (Cert.Spec.oh x7) var (ix2 n f) + val_main_v81 (F := Ideal) (ix2 n f)))
        + val_main_v89 (F := Ideal) x4 (ix2 n f)) (val_main_call1_v0 (F := Ideal) (ix2 n f))
    = max (x3 (ix1 f)
        * (Cert.Spec.centered (Cert.Spec.oh x7) a mean (Cert.Spec.row x5) (ix2 n f)
            * Ideal.rsqrt (Cert.Spec.spread (Cert.Spec.oh x7) var (ix2 n f) + Cert.Spec.eps))
        + x4 (ix1 f)) (Ideal.ofBits .f32 0x00000000#32)
  rw [v86_at, v89_at, v81_at, relu_zero_at]

end Cert.ReferenceIdeal.RefVal

end
-- ==== Proof.PreDecode.lean ====
/-
  The precondition, decoded: it says every label is at least 0 and less than 64 as a signed word, that is, less than
  64 as a natural number.
-/
import proofs.«420247_j44633300140134_1_alg».proof.Defs
import proofs.«420247_j44633300140134_1_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- The result of the conjunction has no axes, so it has one index. -/
private instance : Subsingleton Cert.Pre_finite_inputs.S_.Idx := ⟨fun a b => funext fun d => d.elim0⟩

/-- A word that is at least 0 and below 64 read as a signed number is below 64 read as a natural number: a signed
    word that is not negative has its top bit clear, and then both readings agree. -/
private theorem toNat_lt_64 (w : BitVec 32) (h0 : IntOp.cmpi .sge w 0#32 = 1#1) (h1 : IntOp.cmpi .slt w 64#32 = 1#1) :
    w.toNat < 64 := by
  rw [IntOp.cmpi_sge, show (0#32 : BitVec 32).toInt = 0 from by decide] at h0
  rw [IntOp.cmpi_slt, show (64#32 : BitVec 32).toInt = 64 from by decide] at h1
  have hp : 2 * w.toNat < 2 ^ 32 := BitVec.toInt_pos_iff.1 h0
  rw [BitVec.toInt_eq_toNat_of_lt hp] at h1
  omega

/-- If the printed precondition holds of the eight argument arrays, every label is below 64. -/
theorem batch_lt [Cert.Pre_finite_inputs.Facts] {F : FTy → Type} [FloatOps F]
    (a0 : FVec F Cert.Pre_finite_inputs.S50000x64 .f32) (a1 : FVec F Cert.Pre_finite_inputs.S64x64 .f32)
    (a2 a3 a4 a5 : FVec F Cert.Pre_finite_inputs.S64 .f32) (a6 : IVec Cert.Pre_finite_inputs.S2x800000 32)
    (a7 : IVec Cert.Pre_finite_inputs.S50000 32)
    (h : Cert.Pre_finite_inputs.fn (F := F) a0 a1 a2 a3 a4 a5 a6 a7 = (fun _ => 1#1)) :
    ∀ n : Cert.Pre_finite_inputs.S50000.Idx, (a7 n).toNat < 64 := by
  intro n
  -- the predicate's one word, as the conjunction of its eight universal statements
  have e := congrFun h ValueIdx.ix0
  dsimp only [Cert.Pre_finite_inputs.fn, Cert.Pre_finite_inputs.fn_part1, Cert.Pre_finite_inputs.fn_part2] at e
  change IntOp.andi _ _ = 1#1 at e
  -- the last conjunct: every label is below 64; the one before it: every label is at least 0
  obtain ⟨e1, hlt⟩ := IntOp.andi_eq_one.1 e
  change IntOp.andi _ _ = 1#1 at e1
  obtain ⟨-, hge⟩ := IntOp.andi_eq_one.1 e1
  -- a conjunction over all positions that came out true was true at position n
  have g0 := Host.reduce_andi_all _ _ _ _ _ hge n
  have l0 := Host.reduce_andi_all _ _ _ _ _ hlt n
  -- the scalar bound, laid along the vector, is the same word at every position
  have g : IntOp.cmpi .sge (a7 n) 0#32 = 1#1 := g0
  have l : IntOp.cmpi .slt (a7 n) 64#32 = 1#1 := l0
  exact toNat_lt_64 (a7 n) g l

end Cert.PreDecode

end
-- ==== Proof.lean ====
/-
  The certificate of the graph convolution + graph normalisation kernel against its jnp reference, over the
  extended reals, for labels in their range [0, 64).

  The kernel program runs four Pallas kernels among host operations: the dense product h = x·W by row blocks;
  the host's aggregation of h over the edges (the reference's own operations) into the activations a; the
  per-graph sums of a as (indicator)ᵀ·a accumulated over row blocks; the per-graph sums of squares about the
  scaled means, likewise; and the normalisation, block by block, with the node's mean and variance fetched as
  indicator·table.  The reference scatter-adds by label and gathers by label.  For labels in range a scatter-add
  by label is the product with the membership indicator's transpose and a gather by label the product with the
  indicator, entry by entry in the extended reals (multiplication by 0 and 1, finite sums: no finiteness of any
  value is used), so the two normalisations are one function of the activations; the dense products agree because
  a product's rows depend on the matching rows of x only; the aggregation is the same operations on both sides.

  The three frames: each program runs to the end, faults nowhere and leaves its arguments as launched — the kernel
  programs by the launch of their nine items (four kernel regions among five stretches of host operations), read
  once for any float family; the reference by its run.
-/
import proofs.«420247_j44633300140134_1_alg».proof.Defs
import proofs.«420247_j44633300140134_1_alg».proof.Proof.Gen.Kernel
import proofs.«420247_j44633300140134_1_alg».proof.Proof.Gen.KernelIdeal
import proofs.«420247_j44633300140134_1_alg».proof.Proof.Gen.ReferenceIdeal
import proofs.«420247_j44633300140134_1_alg».proof.Proof.Gen.Pre_finite_inputs
import proofs.«420247_j44633300140134_1_alg».proof.Proof.KB.Run
import proofs.«420247_j44633300140134_1_alg».proof.Proof.KI.Run
import proofs.«420247_j44633300140134_1_alg».proof.Proof.KI.Value
import proofs.«420247_j44633300140134_1_alg».proof.Proof.RefRead
import proofs.«420247_j44633300140134_1_alg».proof.Proof.RefAgg
import proofs.«420247_j44633300140134_1_alg».proof.Proof.GN
import proofs.«420247_j44633300140134_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W9_kept m ρ c Cert.Kernel.main_arg0 (by decide) (by decide) (by decide) (by decide) (by decide) (by decide) (by decide) (by decide) (by decide)),
      (h c _ (Cert.Kernel.Fr.mem_uc Cert.Kernel.main_arg1 (by decide))).trans (Cert.Kernel.Fr.W9_kept m ρ c Cert.Kernel.main_arg1 (by decide) (by decide) (by decide) (by decide) (by decide) (by decide) (by decide) (by decide) (by decide)),
      (h c _ (Cert.Kernel.Fr.mem_uc Cert.Kernel.main_arg2 (by decide))).trans (Cert.Kernel.Fr.W9_kept m ρ c Cert.Kernel.main_arg2 (by decide) (by decide) (by decide) (by decide) (by decide) (by decide) (by decide) (by decide) (by decide)),
      (h c _ (Cert.Kernel.Fr.mem_uc Cert.Kernel.main_arg3 (by decide))).trans (Cert.Kernel.Fr.W9_kept m ρ c Cert.Kernel.main_arg3 (by decide) (by decide) (by decide) (by decide) (by decide) (by decide) (by decide) (by decide) (by decide)),
      (h c _ (Cert.Kernel.Fr.mem_uc Cert.Kernel.main_arg4 (by decide))).trans (Cert.Kernel.Fr.W9_kept m ρ c Cert.Kernel.main_arg4 (by decide) (by decide) (by decide) (by decide) (by decide) (by decide) (by decide) (by decide) (by decide)),
      (h c _ (Cert.Kernel.Fr.mem_uc Cert.Kernel.main_arg5 (by decide))).trans (Cert.Kernel.Fr.W9_kept m ρ c Cert.Kernel.main_arg5 (by decide) (by decide) (by decide) (by decide) (by decide) (by decide) (by decide) (by decide) (by decide)),
      (h c _ (Cert.Kernel.Fr.mem_uc Cert.Kernel.main_arg6 (by decide))).trans (Cert.Kernel.Fr.W9_kept m ρ c Cert.Kernel.main_arg6 (by decide) (by decide) (by decide) (by decide) (by decide) (by decide) (by decide) (by decide) (by decide)),
      (h c _ (Cert.Kernel.Fr.mem_uc Cert.Kernel.main_arg7 (by decide))).trans (Cert.Kernel.Fr.W9_kept m ρ c Cert.Kernel.main_arg7 (by decide) (by decide) (by decide) (by decide) (by decide) (by decide) (by decide) (by decide) (by decide))⟩)
    (Cert.Kernel.Fr.run_main (F := Bits) m ρ)

/-- The idealized kernel program runs and leaves its arguments as launched. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W9_kept m ρ c Cert.KernelIdeal.main_arg0 (by decide) (by decide) (by decide) (by decide) (by decide) (by decide) (by decide) (by decide) (by decide)),
      (h c _ (Cert.KernelIdeal.Fr.mem_uc Cert.KernelIdeal.main_arg1 (by decide))).trans (Cert.KernelIdeal.Fr.W9_kept m ρ c Cert.KernelIdeal.main_arg1 (by decide) (by decide) (by decide) (by decide) (by decide) (by decide) (by decide) (by decide) (by decide)),
      (h c _ (Cert.KernelIdeal.Fr.mem_uc Cert.KernelIdeal.main_arg2 (by decide))).trans (Cert.KernelIdeal.Fr.W9_kept m ρ c Cert.KernelIdeal.main_arg2 (by decide) (by decide) (by decide) (by decide) (by decide) (by decide) (by decide) (by decide) (by decide)),
      (h c _ (Cert.KernelIdeal.Fr.mem_uc Cert.KernelIdeal.main_arg3 (by decide))).trans (Cert.KernelIdeal.Fr.W9_kept m ρ c Cert.KernelIdeal.main_arg3 (by decide) (by decide) (by decide) (by decide) (by decide) (by decide) (by decide) (by decide) (by decide)),
      (h c _ (Cert.KernelIdeal.Fr.mem_uc Cert.KernelIdeal.main_arg4 (by decide))).trans (Cert.KernelIdeal.Fr.W9_kept m ρ c Cert.KernelIdeal.main_arg4 (by decide) (by decide) (by decide) (by decide) (by decide) (by decide) (by decide) (by decide) (by decide)),
      (h c _ (Cert.KernelIdeal.Fr.mem_uc Cert.KernelIdeal.main_arg5 (by decide))).trans (Cert.KernelIdeal.Fr.W9_kept m ρ c Cert.KernelIdeal.main_arg5 (by decide) (by decide) (by decide) (by decide) (by decide) (by decide) (by decide) (by decide) (by decide)),
      (h c _ (Cert.KernelIdeal.Fr.mem_uc Cert.KernelIdeal.main_arg6 (by decide))).trans (Cert.KernelIdeal.Fr.W9_kept m ρ c Cert.KernelIdeal.main_arg6 (by decide) (by decide) (by decide) (by decide) (by decide) (by decide) (by decide) (by decide) (by decide)),
      (h c _ (Cert.KernelIdeal.Fr.mem_uc Cert.KernelIdeal.main_arg7 (by decide))).trans (Cert.KernelIdeal.Fr.W9_kept m ρ c Cert.KernelIdeal.main_arg7 (by decide) (by decide) (by decide) (by decide) (by decide) (by decide) (by decide) (by decide) (by decide))⟩)
    (Cert.KernelIdeal.Fr.run_main (F := Ideal) m ρ)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments, with every label in range, both idealized programs end with the
    normalisation of the aggregated dense product in their result arrays: the kernel's by the walk through its nine
    items, the reference's by its run read as aggregation then normalisation, the two normalisations one function
    on labels in range. -/
theorem algebraic : Cert.algebraic_KernelIdeal_ReferenceIdeal := by
  intro m ρ m' ρ' hpre hagree
  have hb : ∀ c : Dev Cert.KernelIdeal.nD, ∀ n, (m ((c.tc : Thread Cert.KernelIdeal.nD Cert.KernelIdeal.τ).loc Cert.KernelIdeal.main_arg7) n).toNat < 64 :=
    fun c => Cert.PreDecode.batch_lt _ _ _ _ _ _ _ _ (hpre c)
  refine ⟨fun c => Cert.Spec.ktail (Cert.KernelIdeal.Val.act m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Fr.mem_uc Cert.KernelIdeal.main_v66 (by decide))).trans (Cert.KernelIdeal.Val.W9_v66 m ρ c),
      (h c _ (Cert.KernelIdeal.Fr.mem_uc Cert.KernelIdeal.main_arg0 (by decide))).trans (Cert.KernelIdeal.Fr.W9_kept m ρ c Cert.KernelIdeal.main_arg0 (by decide) (by decide) (by decide) (by decide) (by decide) (by decide) (by decide) (by decide) (by decide)),
      (h c _ (Cert.KernelIdeal.Fr.mem_uc Cert.KernelIdeal.main_arg1 (by decide))).trans (Cert.KernelIdeal.Fr.W9_kept m ρ c Cert.KernelIdeal.main_arg1 (by decide) (by decide) (by decide) (by decide) (by decide) (by decide) (by decide) (by decide) (by decide)),
      (h c _ (Cert.KernelIdeal.Fr.mem_uc Cert.KernelIdeal.main_arg2 (by decide))).trans (Cert.KernelIdeal.Fr.W9_kept m ρ c Cert.KernelIdeal.main_arg2 (by decide) (by decide) (by decide) (by decide) (by decide) (by decide) (by decide) (by decide) (by decide)),
      (h c _ (Cert.KernelIdeal.Fr.mem_uc Cert.KernelIdeal.main_arg3 (by decide))).trans (Cert.KernelIdeal.Fr.W9_kept m ρ c Cert.KernelIdeal.main_arg3 (by decide) (by decide) (by decide) (by decide) (by decide) (by decide) (by decide) (by decide) (by decide)),
      (h c _ (Cert.KernelIdeal.Fr.mem_uc Cert.KernelIdeal.main_arg4 (by decide))).trans (Cert.KernelIdeal.Fr.W9_kept m ρ c Cert.KernelIdeal.main_arg4 (by decide) (by decide) (by decide) (by decide) (by decide) (by decide) (by decide) (by decide) (by decide)),
      (h c _ (Cert.KernelIdeal.Fr.mem_uc Cert.KernelIdeal.main_arg5 (by decide))).trans (Cert.KernelIdeal.Fr.W9_kept m ρ c Cert.KernelIdeal.main_arg5 (by decide) (by decide) (by decide) (by decide) (by decide) (by decide) (by decide) (by decide) (by decide)),
      (h c _ (Cert.KernelIdeal.Fr.mem_uc Cert.KernelIdeal.main_arg6 (by decide))).trans (Cert.KernelIdeal.Fr.W9_kept m ρ c Cert.KernelIdeal.main_arg6 (by decide) (by decide) (by decide) (by decide) (by decide) (by decide) (by decide) (by decide) (by decide)),
      (h c _ (Cert.KernelIdeal.Fr.mem_uc Cert.KernelIdeal.main_arg7 (by decide))).trans (Cert.KernelIdeal.Fr.W9_kept m ρ c Cert.KernelIdeal.main_arg7 (by decide) (by decide) (by decide) (by decide) (by decide) (by decide) (by decide) (by decide) (by decide))⟩)
      (Cert.KernelIdeal.Fr.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v91_eq, Cert.ReferenceIdeal.RefVal.v91_eq, Cert.ReferenceIdeal.RefVal.v46_eq,
      Cert.ReferenceIdeal.RefVal.v7_lin, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.ReferenceIdeal.RefVal.graphnorm _ _ _ _ _ (hb c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
